-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x18 : Shape := ⟨2, ![100000, 18]⟩
abbrev S1600000x22 : Shape := ⟨2, ![1600000, 22]⟩
abbrev S2x1600000 : Shape := ⟨2, ![2, 1600000]⟩
abbrev S100000 : Shape := ⟨1, ![100000]⟩
abbrev S22x18 : Shape := ⟨2, ![22, 18]⟩
abbrev S18 : Shape := ⟨1, ![18]⟩
abbrev S18x64 : Shape := ⟨2, ![18, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩

class Facts : Prop where
  bcast_S_S100000x18 : S_.BroadcastsInDim S100000x18 (![] : Fin 0 → Fin S100000x18.rank)
  reducesTo_S100000x18_S_d0_1 : S100000x18.ReducesTo [0, 1] S_
  h_S_ : 0 < S_.numel
  bcast_S_S1600000x22 : S_.BroadcastsInDim S1600000x22 (![] : Fin 0 → Fin S1600000x22.rank)
  reducesTo_S1600000x22_S_d0_1 : S1600000x22.ReducesTo [0, 1] S_
  bcast_S_S22x18 : S_.BroadcastsInDim S22x18 (![] : Fin 0 → Fin S22x18.rank)
  reducesTo_S22x18_S_d0_1 : S22x18.ReducesTo [0, 1] S_
  bcast_S_S18 : S_.BroadcastsInDim S18 (![] : Fin 0 → Fin S18.rank)
  reducesTo_S18_S_d0 : S18.ReducesTo [0] S_
  bcast_S_S18x64 : S_.BroadcastsInDim S18x64 (![] : Fin 0 → Fin S18x64.rank)
  reducesTo_S18x64_S_d0_1 : S18x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S128 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg9 : FVec F S64x64 .f32) (main_arg10 : FVec F S64 .f32) (main_arg11 : FVec F S64x64 .f32) (main_arg12 : FVec F S64x128 .f32) (main_arg13 : FVec F S128 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x128 .f32 := Host.absf main_arg12
  let main_cst_18 : FVec F S_ .f32 := constant S_ .f32 0x7F800000#32
  let main_v50 : FVec F S64x128 .f32 := broadcastInDim S64x128 ![] bcast_S_S64x128 main_cst_18
  fn_part3 (F := F) main_arg13 main_v48 main_v49 main_v50

def fn_part1 {F : FTy → Type} [FloatOps F] (main_arg6 : FVec F S18x64 .f32) (main_arg7 : FVec F S64 .f32) (main_arg8 : FVec F S18x64 .f32) (main_arg9 : FVec F S64x64 .f32) (main_arg10 : FVec F S64 .f32) (main_arg11 : FVec F S64x64 .f32) (main_arg12 : FVec F S64x128 .f32) (main_arg13 : FVec F S128 .f32) (main_v13 : IVec S_ 1) (main_v16 : IVec S18 1) : IVec S_ 1 :=
  let main_c_5 : IVec S_ 1 := constantI S_ 1 1#1
  let main_v17 : IVec S_ 1 := (fun x v => Host.reduce IntOp.andi x v reducesTo_S18_S_d0 h_S_) main_v16 main_c_5
  let main_v18 : IVec S_ 1 := andi main_v13 main_v17
  let main_v19 : FVec F S18x64 .f32 := Host.absf main_arg6
  let main_cst_6 : FVec F S_ .f32 := constant S_ .f32 0x7F800000#32
  let main_v20 : FVec F S18x64 .f32 := broadcastInDim S18x64 ![] bcast_S_S18x64 main_cst_6
  let main_v21 : IVec S18x64 1 := cmpf .olt main_v19 main_v20
  let main_c_7 : IVec S_ 1 := constantI S_ 1 1#1
  let main_v22 : IVec S_ 1 := (fun x v => Host.reduce IntOp.andi x v reducesTo_S18x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S18x64 .f32 := Host.absf main_arg8
  let main_cst_10 : FVec F S_ .f32 := constant S_ .f32 0x7F800000#32
  let main_v30 : FVec F S18x64 .f32 := broadcastInDim S18x64 ![] bcast_S_S18x64 main_cst_10
  let main_v31 : IVec S18x64 1 := cmpf .olt main_v29 main_v30
  let main_c_11 : IVec S_ 1 := constantI S_ 1 1#1
  let main_v32 : IVec S_ 1 := (fun x v => Host.reduce IntOp.andi x v reducesTo_S18x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x18 .f32) (main_arg1 : FVec F S1600000x22 .f32) (main_arg2 : IVec S2x1600000 32) (main_arg3 : IVec S100000 32) (main_arg4 : FVec F S22x18 .f32) (main_arg5 : FVec F S18 .f32) (main_arg6 : FVec F S18x64 .f32) (main_arg7 : FVec F S64 .f32) (main_arg8 : FVec F S18x64 .f32) (main_arg9 : FVec F S64x64 .f32) (main_arg10 : FVec F S64 .f32) (main_arg11 : FVec F S64x64 .f32) (main_arg12 : FVec F S64x128 .f32) (main_arg13 : FVec F S128 .f32) : IVec S_ 1 :=
  let main_v0 : FVec F S100000x18 .f32 := Host.absf main_arg0
  let main_cst : FVec F S_ .f32 := constant S_ .f32 0x7F800000#32
  let main_v1 : FVec F S100000x18 .f32 := broadcastInDim S100000x18 ![] bcast_S_S100000x18 main_cst
  let main_v2 : IVec S100000x18 1 := cmpf .olt main_v0 main_v1
  let main_c : IVec S_ 1 := constantI S_ 1 1#1
  let main_v3 : IVec S_ 1 := (fun x v => Host.reduce IntOp.andi x v reducesTo_S100000x18_S_d0_1 h_S_) main_v2 main_c
  let main_v4 : FVec F S1600000x22 .f32 := Host.absf main_arg1
  let main_cst_0 : FVec F S_ .f32 := constant S_ .f32 0x7F800000#32
  let main_v5 : FVec F S1600000x22 .f32 := broadcastInDim S1600000x22 ![] bcast_S_S1600000x22 main_cst_0
  let main_v6 : IVec S1600000x22 1 := cmpf .olt main_v4 main_v5
  let main_c_1 : IVec S_ 1 := constantI S_ 1 1#1
  let main_v7 : IVec S_ 1 := (fun x v => Host.reduce IntOp.andi x v reducesTo_S1600000x22_S_d0_1 h_S_) main_v6 main_c_1
  let main_v8 : IVec S_ 1 := andi main_v3 main_v7
  let main_v9 : FVec F S22x18 .f32 := Host.absf main_arg4
  let main_cst_2 : FVec F S_ .f32 := constant S_ .f32 0x7F800000#32
  let main_v10 : FVec F S22x18 .f32 := broadcastInDim S22x18 ![] bcast_S_S22x18 main_cst_2
  let main_v11 : IVec S22x18 1 := cmpf .olt main_v9 main_v10
  let main_c_3 : IVec S_ 1 := constantI S_ 1 1#1
  let main_v12 : IVec S_ 1 := (fun x v => Host.reduce IntOp.andi x v reducesTo_S22x18_S_d0_1 h_S_) main_v11 main_c_3
  let main_v13 : IVec S_ 1 := andi main_v8 main_v12
  let main_v14 : FVec F S18 .f32 := Host.absf main_arg5
  let main_cst_4 : FVec F S_ .f32 := constant S_ .f32 0x7F800000#32
  let main_v15 : FVec F S18 .f32 := broadcastInDim S18 ![] bcast_S_S18 main_cst_4
  let main_v16 : IVec S18 1 := cmpf .olt main_v14 main_v15
  fn_part1 (F := F) main_arg6 main_arg7 main_arg8 main_arg9 main_arg10 main_arg11 main_arg12 main_arg13 main_v13 main_v16
-- ==== Kernel.lean ====
abbrev S100000x18 : Shape := ⟨2, ![100000, 18]⟩
abbrev S1600000x22 : Shape := ⟨2, ![1600000, 22]⟩
abbrev S2x1600000 : Shape := ⟨2, ![2, 1600000]⟩
abbrev S100000 : Shape := ⟨1, ![100000]⟩
abbrev S22x18 : Shape := ⟨2, ![22, 18]⟩
abbrev S18 : Shape := ⟨1, ![18]⟩
abbrev S18x64 : Shape := ⟨2, ![18, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S1x18 : Shape := ⟨2, ![1, 18]⟩
abbrev S1600000x18 : Shape := ⟨2, ![1600000, 18]⟩
abbrev S8000x22 : Shape := ⟨2, ![8000, 22]⟩
abbrev S8000x18 : Shape := ⟨2, ![8000, 18]⟩
abbrev S_ : Shape := ⟨0, ![]⟩
abbrev S1600000x1 : Shape := ⟨2, ![1600000, 1]⟩
abbrev S100000x1 : Shape := ⟨2, ![100000, 1]⟩
abbrev S1x64 : Shape := ⟨2, ![1, 64]⟩
abbrev S100000x64 : Shape := ⟨2, ![100000, 64]⟩
abbrev S2000x18 : Shape := ⟨2, ![2000, 18]⟩
abbrev S2000x64 : Shape := ⟨2, ![2000, 64]⟩
abbrev S1600000x64 : Shape := ⟨2, ![1600000, 64]⟩
abbrev S64x1 : Shape := ⟨2, ![64, 1]⟩
abbrev S1x128 : Shape := ⟨2, ![1, 128]⟩
abbrev S2000x1 : Shape := ⟨2, ![2000, 1]⟩
abbrev S64x2000 : Shape := ⟨2, ![64, 2000]⟩

abbrev nBuf : Space → Nat
  | .hbm => 99
  | .vmem => 33
  | .smem => 0
  | _ => 0

abbrev bufTy : (tb : Table) → Fin (tcTables nBuf tb) → BufTy
  | .hbm, ⟨0, _⟩ => ⟨S100000x18, .f32⟩
  | .hbm, ⟨1, _⟩ => ⟨S1600000x22, .f32⟩
  | .hbm, ⟨2, _⟩ => ⟨S2x1600000, .i32⟩
  | .hbm, ⟨3, _⟩ => ⟨S100000, .i32⟩
  | .hbm, ⟨4, _⟩ => ⟨S22x18, .f32⟩
  | .hbm, ⟨5, _⟩ => ⟨S18, .f32⟩
  | .hbm, ⟨6, _⟩ => ⟨S18x64, .f32⟩
  | .hbm, ⟨7, _⟩ => ⟨S64, .f32⟩
  | .hbm, ⟨8, _⟩ => ⟨S18x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x128, .f32⟩
  | .hbm, ⟨13, _⟩ => ⟨S128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S1x18, .f32⟩
  | .hbm, ⟨19, _⟩ => ⟨S1600000x18, .f32⟩
  | .hbm, ⟨20, _⟩ => ⟨S_, .f32⟩
  | .hbm, ⟨21, _⟩ => ⟨S100000x18, .f32⟩
  | .hbm, ⟨22, _⟩ => ⟨S1600000x1, .i32⟩
  | .hbm, ⟨23, _⟩ => ⟨S100000x18, .f32⟩
  | .hbm, ⟨24, _⟩ => ⟨S100000x18, .f32⟩
  | .hbm, ⟨25, _⟩ => ⟨S_, .f32⟩
  | .hbm, ⟨26, _⟩ => ⟨S1600000x1, .f32⟩
  | .hbm, ⟨27, _⟩ => ⟨S_, .f32⟩
  | .hbm, ⟨28, _⟩ => ⟨S100000x1, .f32⟩
  | .hbm, ⟨29, _⟩ => ⟨S1600000x1, .i32⟩
  | .hbm, ⟨30, _⟩ => ⟨S100000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x18, .f32⟩
  | .hbm, ⟨40, _⟩ => ⟨S_, .f32⟩
  | .hbm, ⟨41, _⟩ => ⟨S100000x18, .f32⟩
  | .hbm, ⟨42, _⟩ => ⟨S1600000x1, .i32⟩
  | .hbm, ⟨43, _⟩ => ⟨S100000x18, .f32⟩
  | .hbm, ⟨44, _⟩ => ⟨S_, .f32⟩
  | .hbm, ⟨45, _⟩ => ⟨S100000x1, .f32⟩
  | .hbm, ⟨46, _⟩ => ⟨S100000x1, .i1⟩
  | .hbm, ⟨47, _⟩ => ⟨S_, .f32⟩
  | .hbm, ⟨48, _⟩ => ⟨S100000x1, .f32⟩
  | .hbm, ⟨49, _⟩ => ⟨S100000x1, .f32⟩
  | .hbm, ⟨50, _⟩ => ⟨S100000x18, .f32⟩
  | .hbm, ⟨51, _⟩ => ⟨S100000x18, .f32⟩
  | .hbm, ⟨52, _⟩ => ⟨S_, .f32⟩
  | .hbm, ⟨53, _⟩ => ⟨S_, .f32⟩
  | .hbm, ⟨54, _⟩ => ⟨S100000x18, .i1⟩
  | .hbm, ⟨55, _⟩ => ⟨S100000x18, .f32⟩
  | .hbm, ⟨56, _⟩ => ⟨S100000x18, .f32⟩
  | .hbm, ⟨57, _⟩ => ⟨S1x64, .f32⟩
  | .hbm, ⟨58, _⟩ => ⟨S100000x64, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x64, .f32⟩
  | .hbm, ⟨68, _⟩ => ⟨S_, .f32⟩
  | .hbm, ⟨69, _⟩ => ⟨S100000x64, .f32⟩
  | .hbm, ⟨70, _⟩ => ⟨S1600000x1, .i32⟩
  | .hbm, ⟨71, _⟩ => ⟨S100000x64, .f32⟩
  | .hbm, ⟨72, _⟩ => ⟨S_, .f32⟩
  | .hbm, ⟨73, _⟩ => ⟨S100000x1, .f32⟩
  | .hbm, ⟨74, _⟩ => ⟨S100000x1, .i1⟩
  | .hbm, ⟨75, _⟩ => ⟨S_, .f32⟩
  | .hbm, ⟨76, _⟩ => ⟨S100000x1, .f32⟩
  | .hbm, ⟨77, _⟩ => ⟨S100000x1, .f32⟩
  | .hbm, ⟨78, _⟩ => ⟨S100000x64, .f32⟩
  | .hbm, ⟨79, _⟩ => ⟨S100000x64, .f32⟩
  | .hbm, ⟨80, _⟩ => ⟨S_, .f32⟩
  | .hbm, ⟨81, _⟩ => ⟨S_, .f32⟩
  | .hbm, ⟨82, _⟩ => ⟨S100000x64, .i1⟩
  | .hbm, ⟨83, _⟩ => ⟨S100000x64, .f32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S_, .f32⟩
  | .hbm, ⟨88, _⟩ => ⟨S100000x1, .f32⟩
  | .hbm, ⟨89, _⟩ => ⟨S_, .f32⟩
  | .hbm, ⟨90, _⟩ => ⟨S64x1, .f32⟩
  | .hbm, ⟨91, _⟩ => ⟨S100000x1, .i32⟩
  | .hbm, ⟨92, _⟩ => ⟨S64x1, .f32⟩
  | .hbm, ⟨93, _⟩ => ⟨S_, .f32⟩
  | .hbm, ⟨94, _⟩ => ⟨S64x1, .f32⟩
  | .hbm, ⟨95, _⟩ => ⟨S64x1, .f32⟩
  | .hbm, ⟨96, _⟩ => ⟨S100000x1, .i32⟩
  | .hbm, ⟨97, _⟩ => ⟨S1x128, .f32⟩
  | .hbm, ⟨98, _⟩ => ⟨S64x128, .f32⟩
  | .local _ .vmem, ⟨0, _⟩ => ⟨S8000x22, .f32⟩
  | .local _ .vmem, ⟨1, _⟩ => ⟨S8000x22, .f32⟩
  | .local _ .vmem, ⟨2, _⟩ => ⟨S22x18, .f32⟩
  | .local _ .vmem, ⟨3, _⟩ => ⟨S1x18, .f32⟩
  | .local _ .vmem, ⟨4, _⟩ => ⟨S8000x18, .f32⟩
  | .local _ .vmem, ⟨5, _⟩ => ⟨S8000x18, .f32⟩
  | .local _ .vmem, ⟨6, _⟩ => ⟨S2000x18, .f32⟩
  | .local _ .vmem, ⟨7, _⟩ => ⟨S2000x18, .f32⟩
  | .local _ .vmem, ⟨8, _⟩ => ⟨S2000x18, .f32⟩
  | .local _ .vmem, ⟨9, _⟩ => ⟨S2000x18, .f32⟩
  | .local _ .vmem, ⟨10, _⟩ => ⟨S18x64, .f32⟩
  | .local _ .vmem, ⟨11, _⟩ => ⟨S1x64, .f32⟩
  | .local _ .vmem, ⟨12, _⟩ => ⟨S18x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S64x64, .f32⟩
  | .local _ .vmem, ⟨20, _⟩ => ⟨S1x64, .f32⟩
  | .local _ .vmem, ⟨21, _⟩ => ⟨S64x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x1, .i32⟩
  | .local _ .vmem, ⟨27, _⟩ => ⟨S2000x1, .i32⟩
  | .local _ .vmem, ⟨28, _⟩ => ⟨S64x1, .f32⟩
  | .local _ .vmem, ⟨29, _⟩ => ⟨S64x128, .f32⟩
  | .local _ .vmem, ⟨30, _⟩ => ⟨S1x128, .f32⟩
  | .local _ .vmem, ⟨31, _⟩ => ⟨S64x128, .f32⟩
  | .local _ .vmem, ⟨32, _⟩ => ⟨S64x64, .f32⟩
  | _, _ => ⟨S100000x18, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_6 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_c_8 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_9 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_10 : Ref sig .tc := ⟨.hbm, 72, rfl⟩
abbrev main_v43 : Ref sig .tc := ⟨.hbm, 73, rfl⟩
abbrev main_v44 : Ref sig .tc := ⟨.hbm, 74, rfl⟩
abbrev main_cst_11 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_12 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_13 : Ref sig .tc := ⟨.hbm, 87, rfl⟩
abbrev main_v52 : Ref sig .tc := ⟨.hbm, 88, rfl⟩
abbrev main_cst_14 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_15 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x22 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S22x18 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x18 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x18 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x18 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x18 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S18x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S18x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def k3_cond2 (i : grid3.Coords) : BitVec 1 :=
  let arg0 : BitVec 32 := BitVec.ofNat 32 (i 0).val
  let c49_i32 : BitVec 32 := 49#32
  let v21 : BitVec 1 := Scalar.cmpi .eq arg0 c49_i32
  let v22 : BitVec 32 := Scalar.extui v21
  let c0_i32_8 : BitVec 32 := 0#32
  let v23 : BitVec 1 := Scalar.cmpi .ne v22 c0_i32_8
  v23

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S18_S1x18 : S18.ShapeCasts S1x18
  inb_S8000x22_S8000x22_0_0 : ∀ a, (![0, 0] : Fin 2 → Nat) a + S8000x22.size a ≤ S8000x22.size a
  h_S8000x22 : 0 < S8000x22.numel
  bitsLt_bf16_f32 : FTy.bits .bf16 < FTy.bits .f32
  inb_S22x18_S22x18_0_0 : ∀ a, (![0, 0] : Fin 2 → Nat) a + S22x18.size a ≤ S22x18.size a
  h_S22x18 : 0 < S22x18.numel
  inb_S1x18_S1x18_0_0 : ∀ a, (![0, 0] : Fin 2 → Nat) a + S1x18.size a ≤ S1x18.size a
  h_S1x18 : 0 < S1x18.numel
  shapeCasts_S1x18_S1x18 : S1x18.ShapeCasts S1x18
  broadcasts_S1x18_S8000x18 : S1x18.Broadcasts S8000x18
  inb_S8000x18_S8000x18_0_0 : ∀ a, (![0, 0] : Fin 2 → Nat) a + S8000x18.size a ≤ S8000x18.size a
  h_S8000x18 : 0 < S8000x18.numel
  bcast_S_S100000x18 : S_.BroadcastsInDim S100000x18 (![] : Fin 0 → Fin S100000x18.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S_S1600000 : S_.BroadcastsInDim S1600000 (![] : Fin 0 → Fin S1600000.rank)
  bcast_S100000x1_S100000x18_0_1 : S100000x1.BroadcastsInDim S100000x18 (![0, 1] : Fin 2 → Fin S100000x18.rank)
  shapeCasts_S64_S1x64 : S64.ShapeCasts S1x64
  inb_S2000x18_S2000x18_0_0 : ∀ a, (![0, 0] : Fin 2 → Nat) a + S2000x18.size a ≤ S2000x18.size a
  h_S2000x18 : 0 < S2000x18.numel
  shapeCasts_S2000x18_S2000x18 : S2000x18.ShapeCasts S2000x18
  inb_S18x64_S18x64_0_0 : ∀ a, (![0, 0] : Fin 2 → Nat) a + S18x64.size a ≤ S18x64.size a
  h_S18x64 : 0 < S18x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  bcast_S_S64x1 : S_.BroadcastsInDim S64x1 (![] : Fin 0 → Fin S64x1.rank)
  bcast_S100000_S100000x1_0 : S100000.BroadcastsInDim S100000x1 (![0] : Fin 1 → Fin S100000x1.rank)
  shapeCasts_S100000_S100000x1 : S100000.ShapeCasts S100000x1
  shapeCasts_S128_S1x128 : S128.ShapeCasts S1x128
  shapeCasts_S64x64_S64x64 : S64x64.ShapeCasts S64x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x64_d1_w32 : S2000x64.Iotas .tc 32 [1]
  broadcasts_S2000x1_S2000x64 : S2000x1.Broadcasts S2000x64
  natLt_1_32 : 1 < 32
  transposes_S2000x64_p1_0_S64x2000 : S2000x64.Transposes [1, 0] S64x2000
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x64 : S64x1.Broadcasts S64x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  dot_S8000x22_S22x18_S8000x18_1_0_0_1_n_n_wf : DotDims.WF S8000x22 S22x18 S8000x18 [1] [0] [0] [1] [] []
  scatter_S100000x18_S1600000x1_S1600000x18_1_0_0_1_wf : ScatterDims.WF S100000x18 S1600000x1 S1600000x18 [1] [0] [0] 1
  scatter_S100000x1_S1600000x1_S1600000x1_1_0_0_1_wf : ScatterDims.WF S100000x1 S1600000x1 S1600000x1 [1] [0] [0] 1
  gather_S100000x18_S1600000x1_S1600000x18_1_0_n_n_0_1_118_wf : GatherDims.WF S100000x18 S1600000x1 S1600000x18 [1] [0] [] [0] [] 1 ![1, 18]
  dot_S2000x18_S18x64_S2000x64_1_0_0_1_n_n_wf : DotDims.WF S2000x18 S18x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  scatter_S64x1_S100000x1_S100000x1_1_0_0_1_wf : ScatterDims.WF S64x1 S100000x1 S100000x1 [1] [0] [0] 1
  dot_S64x2000_S2000x64_S64x64_1_0_0_1_n_n_wf : DotDims.WF S64x2000 S2000x64 S64x64 [1] [0] [0] [1] [] []
  dot_S64x64_S64x128_S64x128_1_0_0_1_n_n_wf : DotDims.WF S64x64 S64x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x22.size a ≤ S1600000x22.size a
  hwx0_0 : ∀ i : grid0.Coords, EltTy.bits .f32 = 32 ∨ (Rect.block (s := S1600000x22) S8000x22.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S22x18.size a ≤ S22x18.size a
  hwx0_1 : ∀ i : grid0.Coords, EltTy.bits .f32 = 32 ∨ (Rect.block (s := S22x18) S22x18.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x18.size a ≤ S1x18.size a
  hwx0_2 : ∀ i : grid0.Coords, EltTy.bits .f32 = 32 ∨ (Rect.block (s := S1x18) S1x18.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x18.size a ≤ S1600000x18.size a
  hwx0_3 : ∀ i : grid0.Coords, EltTy.bits .f32 = 32 ∨ (Rect.block (s := S1600000x18) S8000x18.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x18.size a ≤ S100000x18.size a
  hwx1_0 : ∀ i : grid1.Coords, EltTy.bits .f32 = 32 ∨ (Rect.block (s := S100000x18) S2000x18.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x18.size a ≤ S100000x18.size a
  hwx1_1 : ∀ i : grid1.Coords, EltTy.bits .f32 = 32 ∨ (Rect.block (s := S100000x18) S2000x18.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S18x64.size a ≤ S18x64.size a
  hwx1_2 : ∀ i : grid1.Coords, EltTy.bits .f32 = 32 ∨ (Rect.block (s := S18x64) S18x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S18x64.size a ≤ S18x64.size a
  hwx1_4 : ∀ i : grid1.Coords, EltTy.bits .f32 = 32 ∨ (Rect.block (s := S18x64) S18x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .i32 = 32 ∨ (Rect.block (s := S100000x1) S2000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x1.size a ≤ S64x1.size a
  hwx3_2 : ∀ i : grid3.Coords, EltTy.bits .f32 = 32 ∨ (Rect.block (s := S64x1) S64x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x128.size a ≤ S64x128.size a
  hwx3_3 : ∀ i : grid3.Coords, EltTy.bits .f32 = 32 ∨ (Rect.block (s := S64x128) S64x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x128.size a ≤ S64x128.size a
  hwx3_5 : ∀ i : grid3.Coords, EltTy.bits .f32 = 32 ∨ (Rect.block (s := S64x128) S64x128.size (cc3_transform_5 i) (hinb3_5 i)).WholeWords (EltTy.packing .f32)

variable [Facts₀]

def dot_S8000x22_S22x18_S8000x18_1_0_0_1_n_n : DotDims S8000x22 S22x18 S8000x18 where
  lhsContracting := [1]
  rhsContracting := [0]
  lhsNonContracting := [0]
  rhsNonContracting := [1]
  lhsBatch := []
  rhsBatch := []
  wf := dot_S8000x22_S22x18_S8000x18_1_0_0_1_n_n_wf
def scatter_S100000x18_S1600000x1_S1600000x18_1_0_0_1 : ScatterDims S100000x18 S1600000x1 S1600000x18 where
  updateWindowDims := [1]
  insertedWindowDims := [0]
  scatterDimsToOperandDims := [0]
  indexVectorDim := 1
  wf := scatter_S100000x18_S1600000x1_S1600000x18_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x18_S1600000x1_S1600000x18_1_0_n_n_0_1_118 : GatherDims S100000x18 S1600000x1 S1600000x18 where
  offsetDims := [1]
  collapsedSliceDims := [0]
  operandBatchingDims := []
  startIndicesBatchingDims := []
  startIndexMap := [0]
  indexVectorDim := 1
  sliceSizes := ![1, 18]
  wf := gather_S100000x18_S1600000x1_S1600000x18_1_0_n_n_0_1_118_wf
def dot_S2000x18_S18x64_S2000x64_1_0_0_1_n_n : DotDims S2000x18 S18x64 S2000x64 where
  lhsContracting := [1]
  rhsContracting := [0]
  lhsNonContracting := [0]
  rhsNonContracting := [1]
  lhsBatch := []
  rhsBatch := []
  wf := dot_S2000x18_S18x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def dot_S64x2000_S2000x64_S64x64_1_0_0_1_n_n : DotDims S64x2000 S2000x64 S64x64 where
  lhsContracting := [1]
  rhsContracting := [0]
  lhsNonContracting := [0]
  rhsNonContracting := [1]
  lhsBatch := []
  rhsBatch := []
  wf := dot_S64x2000_S2000x64_S64x64_1_0_0_1_n_n_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf

abbrev win0_0 : Pipeline.Window sig grid0 :=
  Pipeline.Window.ofSpec (Memref.whole main_arg1) S8000x22.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S22x18.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x18.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8000x18.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S2000x18.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S2000x18.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S18x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S18x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v51) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S64x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S64x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S64x128.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S100000x18 : Shape := ⟨2, ![100000, 18]⟩
abbrev S1600000x22 : Shape := ⟨2, ![1600000, 22]⟩
abbrev S2x1600000 : Shape := ⟨2, ![2, 1600000]⟩
abbrev S100000 : Shape := ⟨1, ![100000]⟩
abbrev S22x18 : Shape := ⟨2, ![22, 18]⟩
abbrev S18 : Shape := ⟨1, ![18]⟩
abbrev S18x64 : Shape := ⟨2, ![18, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S1600000x18 : Shape := ⟨2, ![1600000, 18]⟩
abbrev S1x18 : Shape := ⟨2, ![1, 18]⟩
abbrev S_ : Shape := ⟨0, ![]⟩
abbrev S1600000x1 : Shape := ⟨2, ![1600000, 1]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S64x1 : Shape := ⟨2, ![64, 1]⟩
abbrev S1x128 : Shape := ⟨2, ![1, 128]⟩

abbrev nBuf : Space → Nat
  | .hbm => 128
  | .vmem => 0
  | .smem => 0
  | _ => 0

abbrev bufTy : (tb : Table) → Fin (tcTables nBuf tb) → BufTy
  | .hbm, ⟨0, _⟩ => ⟨S100000x18, .f32⟩
  | .hbm, ⟨1, _⟩ => ⟨S1600000x22, .f32⟩
  | .hbm, ⟨2, _⟩ => ⟨S2x1600000, .i32⟩
  | .hbm, ⟨3, _⟩ => ⟨S100000, .i32⟩
  | .hbm, ⟨4, _⟩ => ⟨S22x18, .f32⟩
  | .hbm, ⟨5, _⟩ => ⟨S18, .f32⟩
  | .hbm, ⟨6, _⟩ => ⟨S18x64, .f32⟩
  | .hbm, ⟨7, _⟩ => ⟨S64, .f32⟩
  | .hbm, ⟨8, _⟩ => ⟨S18x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x128, .f32⟩
  | .hbm, ⟨13, _⟩ => ⟨S128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S1600000x18, .f32⟩
  | .hbm, ⟨19, _⟩ => ⟨S1x18, .f32⟩
  | .hbm, ⟨20, _⟩ => ⟨S1600000x18, .f32⟩
  | .hbm, ⟨21, _⟩ => ⟨S1600000x18, .f32⟩
  | .hbm, ⟨22, _⟩ => ⟨S_, .f32⟩
  | .hbm, ⟨23, _⟩ => ⟨S100000x18, .f32⟩
  | .hbm, ⟨24, _⟩ => ⟨S1600000x1, .i32⟩
  | .hbm, ⟨25, _⟩ => ⟨S100000x18, .f32⟩
  | .hbm, ⟨26, _⟩ => ⟨S100000x18, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x18, .f32⟩
  | .hbm, ⟨36, _⟩ => ⟨S_, .f32⟩
  | .hbm, ⟨37, _⟩ => ⟨S100000x18, .f32⟩
  | .hbm, ⟨38, _⟩ => ⟨S1600000x1, .i32⟩
  | .hbm, ⟨39, _⟩ => ⟨S100000x18, .f32⟩
  | .hbm, ⟨40, _⟩ => ⟨S_, .f32⟩
  | .hbm, ⟨41, _⟩ => ⟨S1600000x1, .f32⟩
  | .hbm, ⟨42, _⟩ => ⟨S_, .f32⟩
  | .hbm, ⟨43, _⟩ => ⟨S100000x1, .f32⟩
  | .hbm, ⟨44, _⟩ => ⟨S1600000x1, .i32⟩
  | .hbm, ⟨45, _⟩ => ⟨S100000x1, .f32⟩
  | .hbm, ⟨46, _⟩ => ⟨S_, .f32⟩
  | .hbm, ⟨47, _⟩ => ⟨S100000x1, .f32⟩
  | .hbm, ⟨48, _⟩ => ⟨S100000x1, .i1⟩
  | .hbm, ⟨49, _⟩ => ⟨S_, .f32⟩
  | .hbm, ⟨50, _⟩ => ⟨S100000x1, .f32⟩
  | .hbm, ⟨51, _⟩ => ⟨S100000x1, .f32⟩
  | .hbm, ⟨52, _⟩ => ⟨S100000x18, .f32⟩
  | .hbm, ⟨53, _⟩ => ⟨S100000x18, .f32⟩
  | .hbm, ⟨54, _⟩ => ⟨S_, .f32⟩
  | .hbm, ⟨55, _⟩ => ⟨S_, .f32⟩
  | .hbm, ⟨56, _⟩ => ⟨S100000x18, .i1⟩
  | .hbm, ⟨57, _⟩ => ⟨S100000x18, .f32⟩
  | .hbm, ⟨58, _⟩ => ⟨S100000x18, .f32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x64, .f32⟩
  | .hbm, ⟨77, _⟩ => ⟨S_, .f32⟩
  | .hbm, ⟨78, _⟩ => ⟨S100000x64, .f32⟩
  | .hbm, ⟨79, _⟩ => ⟨S1600000x1, .i32⟩
  | .hbm, ⟨80, _⟩ => ⟨S100000x64, .f32⟩
  | .hbm, ⟨81, _⟩ => ⟨S_, .f32⟩
  | .hbm, ⟨82, _⟩ => ⟨S1600000x1, .f32⟩
  | .hbm, ⟨83, _⟩ => ⟨S_, .f32⟩
  | .hbm, ⟨84, _⟩ => ⟨S100000x1, .f32⟩
  | .hbm, ⟨85, _⟩ => ⟨S1600000x1, .i32⟩
  | .hbm, ⟨86, _⟩ => ⟨S100000x1, .f32⟩
  | .hbm, ⟨87, _⟩ => ⟨S_, .f32⟩
  | .hbm, ⟨88, _⟩ => ⟨S100000x1, .f32⟩
  | .hbm, ⟨89, _⟩ => ⟨S100000x1, .i1⟩
  | .hbm, ⟨90, _⟩ => ⟨S_, .f32⟩
  | .hbm, ⟨91, _⟩ => ⟨S100000x1, .f32⟩
  | .hbm, ⟨92, _⟩ => ⟨S100000x1, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S_, .f32⟩
  | .hbm, ⟨97, _⟩ => ⟨S100000x64, .i1⟩
  | .hbm, ⟨98, _⟩ => ⟨S100000x64, .f32⟩
  | .hbm, ⟨99, _⟩ => ⟨S100000x64, .f32⟩
  | .hbm, ⟨100, _⟩ => ⟨S100000x64, .f32⟩
  | .hbm, ⟨101, _⟩ => ⟨S1x64, .f32⟩
  | .hbm, ⟨102, _⟩ => ⟨S100000x64, .f32⟩
  | .hbm, ⟨103, _⟩ => ⟨S100000x64, .f32⟩
  | .hbm, ⟨104, _⟩ => ⟨S100000x64, .f32⟩
  | .hbm, ⟨105, _⟩ => ⟨S100000x64, .f32⟩
  | .hbm, ⟨106, _⟩ => ⟨S_, .f32⟩
  | .hbm, ⟨107, _⟩ => ⟨S100000x64, .f32⟩
  | .hbm, ⟨108, _⟩ => ⟨S100000x64, .f32⟩
  | .hbm, ⟨109, _⟩ => ⟨S_, .f32⟩
  | .hbm, ⟨110, _⟩ => ⟨S64x64, .f32⟩
  | .hbm, ⟨111, _⟩ => ⟨S100000x1, .i32⟩
  | .hbm, ⟨112, _⟩ => ⟨S64x64, .f32⟩
  | .hbm, ⟨113, _⟩ => ⟨S_, .f32⟩
  | .hbm, ⟨114, _⟩ => ⟨S100000x1, .f32⟩
  | .hbm, ⟨115, _⟩ => ⟨S_, .f32⟩
  | .hbm, ⟨116, _⟩ => ⟨S64x1, .f32⟩
  | .hbm, ⟨117, _⟩ => ⟨S100000x1, .i32⟩
  | .hbm, ⟨118, _⟩ => ⟨S64x1, .f32⟩
  | .hbm, ⟨119, _⟩ => ⟨S_, .f32⟩
  | .hbm, ⟨120, _⟩ => ⟨S64x1, .f32⟩
  | .hbm, ⟨121, _⟩ => ⟨S64x1, .f32⟩
  | .hbm, ⟨122, _⟩ => ⟨S64x64, .f32⟩
  | .hbm, ⟨123, _⟩ => ⟨S64x64, .f32⟩
  | .hbm, ⟨124, _⟩ => ⟨S64x128, .f32⟩
  | .hbm, ⟨125, _⟩ => ⟨S1x128, .f32⟩
  | .hbm, ⟨126, _⟩ => ⟨S64x128, .f32⟩
  | .hbm, ⟨127, _⟩ => ⟨S64x128, .f32⟩
  | _, _ => ⟨S100000x18, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_cst_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_call1_cst : Ref sig .tc := ⟨.hbm, 65, rfl⟩
abbrev main_call1_v0 : Ref sig .tc := ⟨.hbm, 66, rfl⟩
abbrev main_v39 : Ref sig .tc := ⟨.hbm, 67, rfl⟩
abbrev main_c_7 : Ref sig .tc := ⟨.hbm, 68, rfl⟩
abbrev main_v40 : Ref sig .tc := ⟨.hbm, 69, rfl⟩
abbrev main_v41 : Ref sig .tc := ⟨.hbm, 70, rfl⟩
abbrev main_c_8 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_9 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_10 : Ref sig .tc := ⟨.hbm, 81, rfl⟩
abbrev main_v50 : Ref sig .tc := ⟨.hbm, 82, rfl⟩
abbrev main_cst_11 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_12 : Ref sig .tc := ⟨.hbm, 87, rfl⟩
abbrev main_v54 : Ref sig .tc := ⟨.hbm, 88, rfl⟩
abbrev main_v55 : Ref sig .tc := ⟨.hbm, 89, rfl⟩
abbrev main_cst_13 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_14 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_call3_cst : Ref sig .tc := ⟨.hbm, 106, rfl⟩
abbrev main_call3_v0 : Ref sig .tc := ⟨.hbm, 107, rfl⟩
abbrev main_v67 : Ref sig .tc := ⟨.hbm, 108, rfl⟩
abbrev main_cst_15 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_16 : Ref sig .tc := ⟨.hbm, 113, rfl⟩
abbrev main_v71 : Ref sig .tc := ⟨.hbm, 114, rfl⟩
abbrev main_cst_17 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_18 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S18_S1x18_1 : S18.BroadcastsInDim S1x18 (![1] : Fin 1 → Fin S1x18.rank)
  bcast_S1x18_S1600000x18_0_1 : S1x18.BroadcastsInDim S1600000x18 (![0, 1] : Fin 2 → Fin S1600000x18.rank)
  bcast_S_S100000x18 : S_.BroadcastsInDim S100000x18 (![] : Fin 0 → Fin S100000x18.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x18_0_1 : S100000x1.BroadcastsInDim S100000x18 (![0, 1] : Fin 2 → Fin S100000x18.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  dot_S1600000x22_S22x18_S1600000x18_1_0_0_1_n_n_wf : DotDims.WF S1600000x22 S22x18 S1600000x18 [1] [0] [0] [1] [] []
  scatter_S100000x18_S1600000x1_S1600000x18_1_0_0_1_wf : ScatterDims.WF S100000x18 S1600000x1 S1600000x18 [1] [0] [0] 1
  gather_S100000x18_S1600000x1_S1600000x18_1_0_n_n_0_1_118_wf : GatherDims.WF S100000x18 S1600000x1 S1600000x18 [1] [0] [] [0] [] 1 ![1, 18]
  scatter_S100000x1_S1600000x1_S1600000x1_1_0_0_1_wf : ScatterDims.WF S100000x1 S1600000x1 S1600000x1 [1] [0] [0] 1
  dot_S100000x18_S18x64_S100000x64_1_0_0_1_n_n_wf : DotDims.WF S100000x18 S18x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  scatter_S64x1_S100000x1_S100000x1_1_0_0_1_wf : ScatterDims.WF S64x1 S100000x1 S100000x1 [1] [0] [0] 1
  dot_S64x64_S64x128_S64x128_1_0_0_1_n_n_wf : DotDims.WF S64x64 S64x128 S64x128 [1] [0] [0] [1] [] []

variable [Facts₀]

def dot_S1600000x22_S22x18_S1600000x18_1_0_0_1_n_n : DotDims S1600000x22 S22x18 S1600000x18 where
  lhsContracting := [1]
  rhsContracting := [0]
  lhsNonContracting := [0]
  rhsNonContracting := [1]
  lhsBatch := []
  rhsBatch := []
  wf := dot_S1600000x22_S22x18_S1600000x18_1_0_0_1_n_n_wf
def scatter_S100000x18_S1600000x1_S1600000x18_1_0_0_1 : ScatterDims S100000x18 S1600000x1 S1600000x18 where
  updateWindowDims := [1]
  insertedWindowDims := [0]
  scatterDimsToOperandDims := [0]
  indexVectorDim := 1
  wf := scatter_S100000x18_S1600000x1_S1600000x18_1_0_0_1_wf
def gather_S100000x18_S1600000x1_S1600000x18_1_0_n_n_0_1_118 : GatherDims S100000x18 S1600000x1 S1600000x18 where
  offsetDims := [1]
  collapsedSliceDims := [0]
  operandBatchingDims := []
  startIndicesBatchingDims := []
  startIndexMap := [0]
  indexVectorDim := 1
  sliceSizes := ![1, 18]
  wf := gather_S100000x18_S1600000x1_S1600000x18_1_0_n_n_0_1_118_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x18_S18x64_S100000x64_1_0_0_1_n_n : DotDims S100000x18 S18x64 S100000x64 where
  lhsContracting := [1]
  rhsContracting := [0]
  lhsNonContracting := [0]
  rhsNonContracting := [1]
  lhsBatch := []
  rhsBatch := []
  wf := dot_S100000x18_S18x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf

class Facts : Prop extends Facts₀ where

variable [Facts]
-- ==== Proof.K.Reg0.lean ====
/-
  The edge projection (first pallas_call): 200 grid points, point t taking rows 8000·t … 8000·t+7999 of the
  edge features, the whole 22×18 weight and the 1×18 bias row, and leaving in the output block the payload
  "edge rows · weight + bias row" of those three blocks. Stated at a parameter V (the buffer contents when the
  region is entered) and at any float instance: the blocks read off V, what the body leaves in the output's
  staging buffer as the canon of its one whole store, the body's triple, the proof data and the body obligation.
-/
import proofs.«425859_j79671643341337_2_alg».proof.Proof.Gen.Kernel.Launch
import proofs.«425859_j79671643341337_2_alg».proof.Proof.Gen.Kernel.Skeleton
import proofs.«425859_j79671643341337_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: an unfetched
    window's block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_a : Rect S8000x22 := Rect.unit (s := S8000x22) ![0, 0] S8000x22.size inb_S8000x22_S8000x22_0_0
abbrev r0_w : Rect S22x18 := Rect.unit (s := S22x18) ![0, 0] S22x18.size inb_S22x18_S22x18_0_0
abbrev r0_b : Rect S1x18 := Rect.unit (s := S1x18) ![0, 0] S1x18.size inb_S1x18_S1x18_0_0
abbrev r0_o : Rect S8000x18 := Rect.unit (s := S8000x18) ![0, 0] S8000x18.size inb_S8000x18_S8000x18_0_0

/-! ## What the body leaves in the output window's buffer -/

/-- The output's staging buffer after the body, from the three input blocks: its one store, of the payload. -/
def out0_3 (x0 : Vec F S8000x22 .f32) (x1 : Vec F S22x18 .f32) (x2 : Vec F S1x18 .f32) : Vec F S8000x18 .f32 :=
  View.canon [⟨r0_o, k0_pay1 (View.ld x0 r0_a) (View.ld x1 r0_w) (View.ld x2 r0_b)⟩]

/-- The store is of the whole buffer, so it covers it. -/
theorem cover0_3 (p0 : Vec F S8000x18 .f32) (y : S8000x18.Idx) :
    ∃ pc ∈ ([⟨r0_o, p0⟩] : List (View.Piece (Elt F) S8000x18 .f32)), y ∈ pc.1.set :=
  View.cover_of_tiled [⟨r0_o, p0⟩] S8000x18.size (by rfl) y

/-! ## The body's triple -/

set_option maxHeartbeats 1000000 in
/-- The kernel body on whole staging memrefs, the inputs' at read contents and the output's at anything, runs to the
    continuation holding the inputs' as they were and the output's at out0_3 of the inputs'. -/
theorem sound_kernel0 (c : Dev nD) (E : Set ℕ) (i : grid0.Coords)
    (arg1 : Memref sig .tc .vmem S8000x22 .f32) (harg1 : arg1.IsWhole) (arg2 : Memref sig .tc .vmem S22x18 .f32) (harg2 : arg2.IsWhole)
    (arg3 : Memref sig .tc .vmem S1x18 .f32) (harg3 : arg3.IsWhole) (arg4 : Memref sig .tc .vmem S8000x18 .f32) (harg4 : arg4.IsWhole)
    (x0 : Vec F S8000x22 .f32) (x1 : Vec F S22x18 .f32) (x2 : Vec F S1x18 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__edge_fc_kernel i arg1 harg1 arg2 harg2 arg3 harg3 arg4 harg4) K := by
  simp only [cc0__edge_fc_kernel_eq_skeleton]; unfold cc0__edge_fc_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core c: the arrays as the region finds them; after the body at point t each
    input's buffer at its block and the output's at out0_3 of the input blocks; nothing else touched, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Reg1.lean ====
/-
  The SAGE linear layer on 18 input features (a pallas_call of 50 grid points): point t takes rows 2000·t … 2000·t+1999
  of the neighbour-mean array and the same rows of the node array, the two whole 18×64 weights and the 1×64 bias
  row, and leaves in the output block, entrywise, the larger of 0 and
  "(mean rows · first weight + bias row) + node rows · second weight", each product's two operands rounded to
  bf16 first. Stated at a parameter V (the buffer contents when the region is entered) and at any float instance:
  the blocks read off V, what the body leaves in the output's staging buffer as the canon of its one whole store,
  the body's triple, the proof data and the body obligation.
-/
import proofs.«425859_j79671643341337_2_alg».proof.Proof.Gen.Kernel.Launch
import proofs.«425859_j79671643341337_2_alg».proof.Proof.Gen.Kernel.Skeleton
import proofs.«425859_j79671643341337_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each of the five input windows' current staging buffer holds its block at every point, fetched there or not:
    the two row blocks are fetched at every point, and the weights' and the bias row's block index never moves. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev r1_x : Rect S2000x18 := Rect.unit (s := S2000x18) ![0, 0] S2000x18.size inb_S2000x18_S2000x18_0_0
abbrev r1_w : Rect S18x64 := Rect.unit (s := S18x64) ![0, 0] S18x64.size inb_S18x64_S18x64_0_0
abbrev r1_b : Rect S1x64 := Rect.unit (s := S1x64) ![0, 0] S1x64.size inb_S1x64_S1x64_0_0
abbrev r1_o : Rect S2000x64 := Rect.unit (s := S2000x64) ![0, 0] S2000x64.size inb_S2000x64_S2000x64_0_0

/-! ## What the body leaves in the output window's buffer -/

/-- The output's staging buffer after the body, from the five input blocks in window order (mean rows, node rows,
    first weight, bias row, second weight): its one store, of the payload. The payload takes the second weight
    before the bias row. -/
def out1_5 (x0 x1 : Vec F S2000x18 .f32) (x2 : Vec F S18x64 .f32) (x3 : Vec F S1x64 .f32) (x4 : Vec F S18x64 .f32) : Vec F S2000x64 .f32 :=
  View.canon [⟨r1_o, k1_pay1 (View.ld x0 r1_x) (View.ld x1 r1_x) (View.ld x2 r1_w) (View.ld x4 r1_w) (View.ld x3 r1_b)⟩]

/-- The store is of the whole buffer, so it covers it. -/
theorem cover1_5 (p0 : Vec F S2000x64 .f32) (y : S2000x64.Idx) :
    ∃ pc ∈ ([⟨r1_o, p0⟩] : List (View.Piece (Elt F) S2000x64 .f32)), y ∈ pc.1.set :=
  View.cover_of_tiled [⟨r1_o, p0⟩] S2000x64.size (by rfl) y

/-! ## The body's triple -/

set_option maxHeartbeats 1000000 in
/-- The kernel body on whole staging memrefs, the five inputs' at read contents and the output's at anything, runs to
    the continuation holding the inputs' as they were and the output's at out1_5 of the inputs'. -/
theorem sound_kernel1 (c : Dev nD) (E : Set ℕ) (i : grid1.Coords)
    (arg1 : Memref sig .tc .vmem S2000x18 .f32) (harg1 : arg1.IsWhole) (arg2 : Memref sig .tc .vmem S2000x18 .f32) (harg2 : arg2.IsWhole)
    (arg3 : Memref sig .tc .vmem S18x64 .f32) (harg3 : arg3.IsWhole) (arg4 : Memref sig .tc .vmem S1x64 .f32) (harg4 : arg4.IsWhole)
    (arg5 : Memref sig .tc .vmem S18x64 .f32) (harg5 : arg5.IsWhole) (arg6 : Memref sig .tc .vmem S2000x64 .f32) (harg6 : arg6.IsWhole)
    (x0 x1 : Vec F S2000x18 .f32) (x2 : Vec F S18x64 .f32) (x3 : Vec F S1x64 .f32) (x4 : Vec F S18x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__sage_linear_kernel i arg1 harg1 arg2 harg2 arg3 harg3 arg4 harg4 arg5 harg5 arg6 harg6) K := by
  simp only [cc1__sage_linear_kernel_eq_skeleton]; unfold cc1__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core c: the arrays as the region finds them; after the body at point t each
    input's buffer at its block and the output's at out1_5 of the five input blocks; nothing else touched, nothing
    owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Reg2.lean ====
/-
  The SAGE linear layer on 64 input features (a pallas_call of 50 grid points): point t takes rows 2000·t … 2000·t+1999
  of the neighbour-mean array and the same rows of the node array, the two whole 64×64 weights and the 1×64 bias
  row, and leaves in the output block, entrywise, the larger of 0 and
  "(mean rows · first weight + bias row) + node rows · second weight", each product's two operands rounded to
  bf16 first. Stated at a parameter V (the buffer contents when the region is entered) and at any float instance:
  the blocks read off V, what the body leaves in the output's staging buffer as the canon of its one whole store,
  the body's triple, the proof data and the body obligation.
-/
import proofs.«425859_j79671643341337_2_alg».proof.Proof.Gen.Kernel.Launch
import proofs.«425859_j79671643341337_2_alg».proof.Proof.Gen.Kernel.Skeleton
import proofs.«425859_j79671643341337_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each of the five input windows' current staging buffer holds its block at every point, fetched there or not:
    the two row blocks are fetched at every point, and the weights' and the bias row's block index never moves. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole buffer -/

abbrev r2_x : Rect S2000x64 := Rect.unit (s := S2000x64) ![0, 0] S2000x64.size inb_S2000x64_S2000x64_0_0
abbrev r2_w : Rect S64x64 := Rect.unit (s := S64x64) ![0, 0] S64x64.size inb_S64x64_S64x64_0_0
abbrev r2_b : Rect S1x64 := Rect.unit (s := S1x64) ![0, 0] S1x64.size inb_S1x64_S1x64_0_0
abbrev r2_o : Rect S2000x64 := Rect.unit (s := S2000x64) ![0, 0] S2000x64.size inb_S2000x64_S2000x64_0_0

/-! ## What the body leaves in the output window's buffer -/

/-- The output's staging buffer after the body, from the five input blocks in window order (mean rows, node rows,
    first weight, bias row, second weight): its one store, of the payload. The payload takes the second weight
    before the bias row. -/
def out2_5 (x0 x1 : Vec F S2000x64 .f32) (x2 : Vec F S64x64 .f32) (x3 : Vec F S1x64 .f32) (x4 : Vec F S64x64 .f32) : Vec F S2000x64 .f32 :=
  View.canon [⟨r2_o, k2_pay1 (View.ld x0 r2_x) (View.ld x1 r2_x) (View.ld x2 r2_w) (View.ld x4 r2_w) (View.ld x3 r2_b)⟩]

/-- The store is of the whole buffer, so it covers it. -/
theorem cover2_5 (p0 : Vec F S2000x64 .f32) (y : S2000x64.Idx) :
    ∃ pc ∈ ([⟨r2_o, p0⟩] : List (View.Piece (Elt F) S2000x64 .f32)), y ∈ pc.1.set :=
  View.cover_of_tiled [⟨r2_o, p0⟩] S2000x64.size (by rfl) y

/-! ## The body's triple -/

set_option maxHeartbeats 1000000 in
/-- The kernel body on whole staging memrefs, the five inputs' at read contents and the output's at anything, runs to
    the continuation holding the inputs' as they were and the output's at out2_5 of the inputs'. -/
theorem sound_kernel2 (c : Dev nD) (E : Set ℕ) (i : grid2.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S2000x64 .f32) (harg6 : arg6.IsWhole)
    (x0 x1 : Vec F S2000x64 .f32) (x2 : Vec F S64x64 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__sage_linear_kernel i arg1 harg1 arg2 harg2 arg3 harg3 arg4 harg4 arg5 harg5 arg6 harg6) K := by
  simp only [cc2__sage_linear_kernel_eq_skeleton]; unfold cc2__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of this pipeline on core c: the arrays as the region finds them; after the body at point t each
    input's buffer at its block and the output's at out2_5 of the five input blocks; nothing else touched, nothing
    owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Reg3.lean ====
/-
  The pooling and projection (fourth pallas_call): 50 grid points, point t taking rows 2000·t … 2000·t+1999 of the
  node features and of the graph ids, and the whole count column, 64×128 weight and 1×128 bias row. The body keeps a
  64×64 accumulator in a scratch buffer that lives across the points: the first point clears it, every point adds to
  it the segment sums of its 2000 rows, and the last point alone divides by the counts, projects, adds the bias and
  stores the 64×128 result. Stated at a parameter V (the buffer contents when the region is entered) and at any float
  instance: the blocks read off V, the accumulator after each point as a recursion over the points, what the last
  point leaves in the output's staging buffer, one triple of the body per control case (first point, a middle point,
  last point), the proof data whose invariant carries the accumulator from point to point, and the body obligation.
-/
import proofs.«425859_j79671643341337_2_alg».proof.Proof.Gen.Kernel.Launch
import proofs.«425859_j79671643341337_2_alg».proof.Proof.Gen.Kernel.Skeleton
import proofs.«425859_j79671643341337_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: each a whole buffer -/

abbrev r3_x : Rect S2000x64 := Rect.unit (s := S2000x64) ![0, 0] S2000x64.size inb_S2000x64_S2000x64_0_0
abbrev r3_g : Rect S2000x1 := Rect.unit (s := S2000x1) ![0, 0] S2000x1.size inb_S2000x1_S2000x1_0_0
abbrev r3_n : Rect S64x1 := Rect.unit (s := S64x1) ![0, 0] S64x1.size inb_S64x1_S64x1_0_0
abbrev r3_w : Rect S64x128 := Rect.unit (s := S64x128) ![0, 0] S64x128.size inb_S64x128_S64x128_0_0
abbrev r3_b : Rect S1x128 := Rect.unit (s := S1x128) ![0, 0] S1x128.size inb_S1x128_S1x128_0_0
abbrev r3_o : Rect S64x128 := Rect.unit (s := S64x128) ![0, 0] S64x128.size inb_S64x128_S64x128_0_0
abbrev r3_s : Rect S64x64 := Rect.unit (s := S64x64) ![0, 0] S64x64.size inb_S64x64_S64x64_0_0

/-! ## The accumulator and the output, as the body's stores leave them -/

/-- The accumulator after the first point's clearing store: all zeros. -/
def zero3 : Vec F S64x64 .f32 := View.canon [⟨r3_s, k3_pay1 (F := F)⟩]

/-- The accumulator after one point's accumulating store, from that point's feature block x, id block g and what
    the accumulator held: held + (one-hot of g)ᵀ · x, the payload of the store. -/
def step3 (x : Vec F S2000x64 .f32) (g : Vec F S2000x1 .i32) (a : Vec F S64x64 .f32) : Vec F S64x64 .f32 :=
  View.canon [⟨r3_s, k3_pay2 (View.ld x r3_x) (View.ld g r3_g) (View.ld a r3_s)⟩]

/-- The output's staging buffer after the last point's store, from the final accumulator a, the counts n, the weight
    w and the bias row b: (a / n) · w + b, the payload of the store. -/
def out3_5 (a : Vec F S64x64 .f32) (n : Vec F S64x1 .f32) (w : Vec F S64x128 .f32) (b : Vec F S1x128 .f32) : Vec F S64x128 .f32 :=
  View.canon [⟨r3_o, k3_pay3 (View.ld a r3_s) (View.ld n r3_n) (View.ld w r3_w) (View.ld b r3_b)⟩]

/-- Each of the three stores is of its whole buffer, so it covers it. -/
theorem cover3_s (p0 : Vec F S64x64 .f32) (y : S64x64.Idx) :
    ∃ pc ∈ ([⟨r3_s, p0⟩] : List (View.Piece (Elt F) S64x64 .f32)), y ∈ pc.1.set :=
  View.cover_of_tiled [⟨r3_s, p0⟩] S64x64.size (by rfl) y
theorem cover3_o (p0 : Vec F S64x128 .f32) (y : S64x128.Idx) :
    ∃ pc ∈ ([⟨r3_o, p0⟩] : List (View.Piece (Elt F) S64x128 .f32)), y ∈ pc.1.set :=
  View.cover_of_tiled [⟨r3_o, p0⟩] S64x128.size (by rfl) y

/-- THE ACCUMULATION. The accumulator after the body at point n: the first point clears it and adds its rows' segment
    sums; every later point adds its own to what the point before left. -/
def acc3 (c : Dev nD) : (n : ℕ) → n < cfg3.N → Vec F S64x64 .f32
  | 0, h => step3 (iblk3 V c 0 ⟨0, h⟩) (iblk3 V c 1 ⟨0, h⟩) zero3
  | n + 1, h => step3 (iblk3 V c 0 ⟨n + 1, h⟩) (iblk3 V c 1 ⟨n + 1, h⟩) (acc3 c n (Nat.lt_of_succ_lt h))

theorem acc3_zero (c : Dev nD) (h : 0 < cfg3.N) :
    acc3 V c 0 h = step3 (iblk3 V c 0 ⟨0, h⟩) (iblk3 V c 1 ⟨0, h⟩) zero3 := rfl
theorem acc3_succ (c : Dev nD) (n : ℕ) (h : n + 1 < cfg3.N) :
    acc3 V c (n + 1) h = step3 (iblk3 V c 0 ⟨n + 1, h⟩) (iblk3 V c 1 ⟨n + 1, h⟩) (acc3 V c n (Nat.lt_of_succ_lt h)) := rfl

/-- At the first point, stated at a point. -/
theorem acc3_first (c : Dev nD) (t : Fin cfg3.N) (hz : t.val = 0) :
    acc3 V c t.val t.isLt = step3 (iblk3 V c 0 t) (iblk3 V c 1 t) zero3 := by
  obtain ⟨n, hn⟩ := t
  cases n with
  | zero => rfl
  | succ n => exact absurd hz (Nat.succ_ne_zero n)

/-- At a later point, stated at a point: over what the point before left. -/
theorem acc3_later (c : Dev nD) (t : Fin cfg3.N) (hz : t.val ≠ 0) :
    acc3 V c t.val t.isLt = step3 (iblk3 V c 0 t) (iblk3 V c 1 t) (acc3 V c (t.val - 1) (Nat.lt_of_le_of_lt (Nat.sub_le _ _) t.isLt)) := by
  obtain ⟨n, hn⟩ := t
  cases n with
  | zero => exact absurd rfl hz
  | succ n => rfl

/-- A list of stores whose newest is of the whole accumulator leaves that store's payload, whatever lay under it. -/
theorem whole3_s {sp : Space} (v : View sig .tc sp S64x64 .f32) (f : v.ty.Contents (Elt F)) (w : Vec F S64x64 .f32)
    (L : List (View.Piece (Elt F) S64x64 .f32)) :
    v.read (Elt F) (v.writes (Elt F) f (⟨r3_s, w⟩ :: L)) = View.canon [⟨r3_s, w⟩] := by
  funext y
  obtain ⟨pc, hm, hy⟩ := cover3_s w y
  rw [List.mem_singleton] at hm; subst hm
  obtain ⟨x, rfl⟩ : ∃ x, r3_s.emb x = y := r3_s.exists_idx_of_mem hy
  rw [View.read_writes_cons_emb, View.canon_cons_emb]

/-! ## The invariant: the accumulator carried from point to point -/

/-- The scratch operand: a whole scoped buffer of the kernel's own, passed beside the windows. -/
abbrev scM3 : Memref sig .tc .vmem S64x64 .f32 := Memref.whole cc3_scratch0

/-- The region invariant before position n: before the first point every scoped buffer that is no staging buffer at
    anything and the generator register at some state; afterwards the accumulator at what the point before left in it
    (acc3), the other such buffers at anything, and the register at some state. -/
def PhiS3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0])
      ∗ (∃ r, prngReg c r))

theorem PhiS3_zero (c : Dev nD) (n : ℕ) (h : n ≤ cfg3.N) (hz : n = 0) : PhiS3 V c n h = Pipeline.ΦA spec3 c := by
  subst hz; rfl

/-- After point n (before point n + 1): the accumulator at that point's contents. -/
theorem PhiS3_succ (c : Dev nD) (n : ℕ) (hn : n < cfg3.N) :
    PhiS3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0])
      ∗ (∃ r, prngReg c r)) := rfl

/-- Before a point that is not the first: the accumulator at what the point before left. -/
theorem PhiS3_pos (c : Dev nD) (n : ℕ) (h : n ≤ cfg3.N) (hz : n ≠ 0) :
    PhiS3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0])
      ∗ (∃ r, prngReg c r)) := by
  cases n with
  | zero => exact absurd rfl hz
  | succ n => rfl

/-! ## The pipeline's proof data -/

/-- The proof data of this pipeline on core c: the arrays as the region finds them; after the body at point t each
    input's buffer at its block and the output's at out3_5 of the accumulator after t and the three whole inputs (the
    value the last point stores; at the other points the output's buffer is handed back untouched and this term is not
    consulted); the invariant carrying the accumulator; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (acc3 V c t.val t.isLt) (iblk3 V c 2 t) (iblk3 V c 3 t) (iblk3 V c 4 t)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (acc3 V c t.val t.isLt) (iblk3 V c 2 t) (iblk3 V c 3 t) (iblk3 V c 4 t) := by dsimp only [dat3]

/-- At the last point, the one that writes the output back, the output's buffer holds the projection of the final
    accumulator. -/
theorem after3_5_last (c : Dev nD) (t : Fin cfg3.N) (ht : t.val = 49) :
    (dat3 V c).after 5 t = out3_5 (acc3 V c t.val t.isLt) (iblk3 V c 2 t) (iblk3 V c 3 t) (iblk3 V c 4 t) :=
  after3_5 V c t

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-! ## The body's two branch conditions -/

/-- The first conditional's condition, from the grid coordinates: the point's position is 0. -/
abbrev cond3_0 (i : grid3.Coords) : Prop :=
  (Scalar.cmpi .ne (Scalar.extui (Scalar.cmpi .eq (BitVec.ofNat 32 (i 0).val) 0#32)) 0#32) = 1#1
/-- The second conditional's condition: the point's position is 49. -/
abbrev cond3_1 (i : grid3.Coords) : Prop := k3_cond2 i = 1#1

/-- The first holds at the first point only, the second at the last only: decided over the 50 points. -/
theorem hcond3_0 : ∀ t : Fin cfg3.N, cond3_0 (grid3.coords t) ↔ t.val = 0 :=
  (by decide +kernel : ∀ t : Fin grid3.N, cond3_0 (grid3.coords t) ↔ t.val = 0)
theorem hcond3_1 : ∀ t : Fin cfg3.N, cond3_1 (grid3.coords t) ↔ t.val = 49 :=
  (by decide +kernel : ∀ t : Fin grid3.N, cond3_1 (grid3.coords t) ↔ t.val = 49)

/-- The output window is idle, and not written back, at every point but the last; there it is live. -/
theorem idleAt3_5 : ∀ t : Fin cfg3.N, t.val ≠ 49 → cfg3.idle 5 (grid3.coords t) = true := by decide +kernel
theorem noFlush3_5 : ∀ t : Fin cfg3.N, t.val ≠ 49 → (cfg3.win 5).flush t = false := by decide +kernel
theorem liveAt3_5 : ∀ t : Fin cfg3.N, t.val = 49 → cfg3.idle 5 (grid3.coords t) = false := by decide +kernel

/-! ## The body's triples, one per control case -/

set_option maxHeartbeats 1000000 in
/-- At the first point: the accumulator, at anything, is cleared and takes the point's segment sums; the output's
    buffer and the three whole inputs are not touched. -/
theorem sound_kernel3_first (c : Dev nD) (E : Set ℕ) (i : grid3.Coords) (hc0 : cond3_0 i) (hc1 : ¬cond3_1 i)
    (arg1 : Memref sig .tc .vmem S2000x64 .f32) (harg1 : arg1.IsWhole) (arg2 : Memref sig .tc .vmem S2000x1 .i32) (harg2 : arg2.IsWhole)
    (arg3 : Memref sig .tc .vmem S64x1 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S64x128 .f32) (harg6 : arg6.IsWhole)
    (x : Vec F S2000x64 .f32) (g : Vec F S2000x1 .i32) (K : PUnit → sProp 𝕄) :
    iprop(owns (c : Thread nD τ) arg1 fullShare x ∗ owns (c : Thread nD τ) arg2 fullShare g
        ∗ (∃ a, owns (c : Thread nD τ) scM3 fullShare a)
        ∗ (iprop(owns (c : Thread nD τ) arg1 fullShare x ∗ owns (c : Thread nD τ) arg2 fullShare g
            ∗ owns (c : Thread nD τ) scM3 fullShare (step3 x g zero3)) -∗ K ⟨⟩))
      ⊢ wp frame (wpE (defs₀ (F := F)) Variants.none c none) E
          (cc3__pool_project_kernel i arg1 harg1 arg2 harg2 arg3 harg3 arg4 harg4 arg5 harg5 arg6 harg6 scM3 (Memref.isWhole_whole _)) K := by
  simp only [cc3__pool_project_kernel_eq_skeleton]; unfold cc3__pool_project_kernel_skel
  unfold owns
  iintro ⟨⟨%f0, %hf0, H0⟩, ⟨%f1, %hf1, H1⟩, ⟨%a, %fs, -, HS⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [whole3_s, View.readCov_eq_canon_ld _ _ r3_s (cover3_s _)]
  unfold step3 zero3; rfl

set_option maxHeartbeats 1000000 in
/-- At a point that is neither the first nor the last: the accumulator takes the point's segment sums over what it
    held; nothing else is touched. -/
theorem sound_kernel3_mid (c : Dev nD) (E : Set ℕ) (i : grid3.Coords) (hc0 : ¬cond3_0 i) (hc1 : ¬cond3_1 i)
    (arg1 : Memref sig .tc .vmem S2000x64 .f32) (harg1 : arg1.IsWhole) (arg2 : Memref sig .tc .vmem S2000x1 .i32) (harg2 : arg2.IsWhole)
    (arg3 : Memref sig .tc .vmem S64x1 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S64x128 .f32) (harg6 : arg6.IsWhole)
    (x : Vec F S2000x64 .f32) (g : Vec F S2000x1 .i32) (a : Vec F S64x64 .f32) (K : PUnit → sProp 𝕄) :
    iprop(owns (c : Thread nD τ) arg1 fullShare x ∗ owns (c : Thread nD τ) arg2 fullShare g
        ∗ owns (c : Thread nD τ) scM3 fullShare a
        ∗ (iprop(owns (c : Thread nD τ) arg1 fullShare x ∗ owns (c : Thread nD τ) arg2 fullShare g
            ∗ owns (c : Thread nD τ) scM3 fullShare (step3 x g a)) -∗ K ⟨⟩))
      ⊢ wp frame (wpE (defs₀ (F := F)) Variants.none c none) E
          (cc3__pool_project_kernel i arg1 harg1 arg2 harg2 arg3 harg3 arg4 harg4 arg5 harg5 arg6 harg6 scM3 (Memref.isWhole_whole _)) K := by
  simp only [cc3__pool_project_kernel_eq_skeleton]; unfold cc3__pool_project_kernel_skel
  unfold owns
  iintro ⟨⟨%f0, %hf0, H0⟩, ⟨%f1, %hf1, H1⟩, ⟨%fs, %hfs, HS⟩, Hk⟩
  subst hf0; subst hf1; subst hfs
  sl_exec
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [whole3_s]
  unfold step3; rfl

set_option maxHeartbeats 1000000 in
/-- At the last point: the accumulator takes the point's segment sums over what it held, and the output's buffer, at
    anything, is left at the projection of that final accumulator. -/
theorem sound_kernel3_last (c : Dev nD) (E : Set ℕ) (i : grid3.Coords) (hc0 : ¬cond3_0 i) (hc1 : cond3_1 i)
    (arg1 : Memref sig .tc .vmem S2000x64 .f32) (harg1 : arg1.IsWhole) (arg2 : Memref sig .tc .vmem S2000x1 .i32) (harg2 : arg2.IsWhole)
    (arg3 : Memref sig .tc .vmem S64x1 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S64x128 .f32) (harg6 : arg6.IsWhole)
    (x : Vec F S2000x64 .f32) (g : Vec F S2000x1 .i32) (a : Vec F S64x64 .f32)
    (n : Vec F S64x1 .f32) (w : Vec F S64x128 .f32) (b : Vec F S1x128 .f32) (K : PUnit → sProp 𝕄) :
    iprop(owns (c : Thread nD τ) arg1 fullShare x ∗ owns (c : Thread nD τ) arg2 fullShare g
        ∗ owns (c : Thread nD τ) arg3 fullShare n ∗ owns (c : Thread nD τ) arg4 fullShare w ∗ owns (c : Thread nD τ) arg5 fullShare b
        ∗ (∃ d, owns (c : Thread nD τ) arg6 fullShare d)
        ∗ owns (c : Thread nD τ) scM3 fullShare a
        ∗ (iprop(owns (c : Thread nD τ) arg1 fullShare x ∗ owns (c : Thread nD τ) arg2 fullShare g
            ∗ owns (c : Thread nD τ) arg3 fullShare n ∗ owns (c : Thread nD τ) arg4 fullShare w ∗ owns (c : Thread nD τ) arg5 fullShare b
            ∗ owns (c : Thread nD τ) arg6 fullShare (out3_5 (step3 x g a) n w b)
            ∗ owns (c : Thread nD τ) scM3 fullShare (step3 x g a)) -∗ K ⟨⟩))
      ⊢ wp frame (wpE (defs₀ (F := F)) Variants.none c none) E
          (cc3__pool_project_kernel i arg1 harg1 arg2 harg2 arg3 harg3 arg4 harg4 arg5 harg5 arg6 harg6 scM3 (Memref.isWhole_whole _)) K := by
  simp only [cc3__pool_project_kernel_eq_skeleton]; unfold cc3__pool_project_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0; subst hf1; subst hf2; subst hf3; subst hf4; subst hfs
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [View.read_writes_eq_canon _ _ _ (cover3_o _), View.readCov_eq_canon_ld _ _ r3_s (cover3_s _)]
    unfold out3_5 step3; rfl
  iexists _; isplitr
  swap; · iexact HS
  ipureintro
  sl_unfold_run_names
  rw [whole3_s]
  unfold step3; rfl

/-! ## What the body finds in the inputs' buffers -/

/-- An input window's current staging buffer holds its block at every point, fetched there or not: an unfetched
    window's block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- The inputs are live at every point: the body leaves each one's buffer at its block. -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
theorem leaves3_0 (c : Dev nD) (t : Fin cfg3.N) :
    (dat3 V c).leavesExact 0 t = owns (c : Thread nD τ) (st3_0 t) fullShare (iblk3 V c 0 t) := by
  unfold Dat.leavesExact; rw [liveAt3_0 t, after3_0]
theorem leaves3_1 (c : Dev nD) (t : Fin cfg3.N) :
    (dat3 V c).leavesExact 1 t = owns (c : Thread nD τ) (st3_1 t) fullShare (iblk3 V c 1 t) := by
  unfold Dat.leavesExact; rw [liveAt3_1 t, after3_1]
theorem leaves3_2 (c : Dev nD) (t : Fin cfg3.N) :
    (dat3 V c).leavesExact 2 t = owns (c : Thread nD τ) (st3_2 t) fullShare (iblk3 V c 2 t) := by
  unfold Dat.leavesExact; rw [liveAt3_2 t, after3_2]
theorem leaves3_3 (c : Dev nD) (t : Fin cfg3.N) :
    (dat3 V c).leavesExact 3 t = owns (c : Thread nD τ) (st3_3 t) fullShare (iblk3 V c 3 t) := by
  unfold Dat.leavesExact; rw [liveAt3_3 t, after3_3]
theorem leaves3_4 (c : Dev nD) (t : Fin cfg3.N) :
    (dat3 V c).leavesExact 4 t = owns (c : Thread nD τ) (st3_4 t) fullShare (iblk3 V c 4 t) := by
  unfold Dat.leavesExact; rw [liveAt3_4 t, after3_4]

/-- At the last point the output is live: the body leaves its buffer at the projection of the final accumulator. -/
theorem leaves3_5_last (c : Dev nD) (t : Fin cfg3.N) (ht : t.val = 49) :
    (dat3 V c).leavesExact 5 t = owns (c : Thread nD τ) (st3_5 t) fullShare
      (out3_5 (acc3 V c t.val t.isLt) (iblk3 V c 2 t) (iblk3 V c 3 t) (iblk3 V c 4 t)) := by
  unfold Dat.leavesExact; rw [liveAt3_5 t ht, after3_5]

/-- What the region is entered with, with the accumulator's buffer named: at anything, beside the other scoped buffers
    and the generator register. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [scM3, owns_whole]; try rfl

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4000000 in
/-- The body at any point: the inputs' buffers hold their blocks; the point's position says which control case it is
    in; the invariant hands the body the accumulator at what the point before left (at anything at the first point) and
    takes it back at this point's contents; where the output is idle its buffer goes back as it came; nothing is owed
    throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3, leaves3_4]
  have hN : t.val < 50 := lt_of_lt_of_eq t.isLt (show cfg3.N = 50 from N_3)
  by_cases hz : t.val = 0
  · have h0 : cond3_0 (grid3.coords t) := (hcond3_0 t).mpr hz
    have h1 : ¬cond3_1 (grid3.coords t) := fun h => by have := (hcond3_1 t).mp h; omega
    rw [Dat.leavesExact_idle (dat3 V c) 5 t (idleAt3_5 t (by omega)) (noFlush3_5 t (by omega))]
    rw [acc3_first V c t hz]
    rw [PhiS3_castSucc V c t, PhiS3_zero V c _ _ hz, PhiA3_eq]
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply (sound_kernel3_first c Set.univ _ h0 h1 _ _ _ _ _ _ _ _ _ _ _ _ (iblk3 V c 0 t) (iblk3 V c 1 t) _)
    isplitl [H0]; · iexact H0
    isplitl [H1]; · iexact H1
    isplitl [HS]; · iexact HS
    iintro ⟨H0, H1, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have h0 : ¬cond3_0 (grid3.coords t) := fun h => hz ((hcond3_0 t).mp h)
    rw [acc3_later V c t hz]
    rw [PhiS3_castSucc V c t, PhiS3_pos V c _ _ hz]
    by_cases hl : t.val = 49
    · have h1 : cond3_1 (grid3.coords t) := (hcond3_1 t).mpr hl
      rw [leaves3_5_last V c t hl, acc3_later V c t hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (sound_kernel3_last c Set.univ _ h0 h1 _ _ _ _ _ _ _ _ _ _ _ _ (iblk3 V c 0 t) (iblk3 V c 1 t)
        (acc3 V c (t.val - 1) (Nat.lt_of_le_of_lt (Nat.sub_le _ _) t.isLt)) (iblk3 V c 2 t) (iblk3 V c 3 t) (iblk3 V c 4 t) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · have h1 : ¬cond3_1 (grid3.coords t) := fun h => hl ((hcond3_1 t).mp h)
      rw [Dat.leavesExact_idle (dat3 V c) 5 t (idleAt3_5 t hl) (noFlush3_5 t hl)]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (sound_kernel3_mid c Set.univ _ h0 h1 _ _ _ _ _ _ _ _ _ _ _ _ (iblk3 V c 0 t) (iblk3 V c 1 t)
        (acc3 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's two ends -/

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives back what the region was entered with: the accumulator's named contents are
    forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, Hr⟩, Hg⟩
  isplitl [HS Hr]
  · isplitl [HS]
    · iexists _; iexact HS
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 50 := N_3; omega)

end Cert.Kernel.Fr

end
-- ==== Proof.K.Conts.lean ====
/-
  What each buffer holds between the items of the program, built forward from the launch memory: a stretch of host
  operations applies its operations; a kernel region changes exactly one buffer, its result, to what its pipeline's
  write-backs leave there (the fold of its blocks over the grid). From these: the contents each region is entered with,
  every pipeline's proof data at those contents, what each region's arrays hold at its exit, and that an argument buffer
  is never among the changed ones.
-/
import proofs.«425859_j79671643341337_2_alg».proof.Proof.Gen.Kernel.Regions
import proofs.«425859_j79671643341337_2_alg».proof.Proof.K.Reg0
import proofs.«425859_j79671643341337_2_alg».proof.Proof.K.Reg1
import proofs.«425859_j79671643341337_2_alg».proof.Proof.K.Reg2
import proofs.«425859_j79671643341337_2_alg».proof.Proof.K.Reg3

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- A core's buffer contents read at the TensorCore's references (what a region's half is stated at). -/
abbrev atTc (W : Dev nD → Valuation τ sig (Elt F)) : (c : Dev nD) → (b : Ref sig .tc) → Buf (Elt F) ((c : Thread nD τ).loc b) :=
  fun c b => W c b

/-- Changing one buffer of a valuation: read at that buffer, -/
theorem upd_at (W : Valuation τ sig (Elt F)) (r : Ref sig .tc) (v : _) :
    Function.update W (Proc.devRef (τ := τ) .tc r) v (Proc.devRef .tc r) = v := Function.update_self ..
/-- and at any other. -/
theorem upd_off (W : Valuation τ sig (Elt F)) (r b : Ref sig .tc) (v : _) (h : b ≠ r) :
    Function.update W (Proc.devRef (τ := τ) .tc r) v (Proc.devRef .tc b) = W (Proc.devRef .tc b) :=
  Function.update_of_ne (StableHlo.devRef_ne_of_ne h) _ _

/-! ## The contents between items -/

/-- After the first host stretch: what the edge projection is entered with. -/
def X1 (c : Dev nD) : Valuation τ sig (Elt F) := StableHlo.after hostOps0 (V0 m c)
/-- What the edge projection leaves in its result buffer: its 200 blocks written back. -/
def o2 (c : Dev nD) : Buf (Elt F) ((c : Thread nD τ).loc main_v5) := (dat0 (atTc (X1 m)) c).arrAt 3 cfg0.N
/-- After the edge projection: only its result buffer changed. -/
def X2 (c : Dev nD) : Valuation τ sig (Elt F) := Function.update (X1 m c) main_v5 (o2 m c)
def X3 (c : Dev nD) : Valuation τ sig (Elt F) := StableHlo.after hostOps1 (X2 m c)
def X4 (c : Dev nD) : Valuation τ sig (Elt F) := StableHlo.after hostOps1_1 (X3 m c)
/-- What the first SAGE combine is entered with. -/
def X5 (c : Dev nD) : Valuation τ sig (Elt F) := StableHlo.after hostOps1_2 (X4 m c)
def o6 (c : Dev nD) : Buf (Elt F) ((c : Thread nD τ).loc main_v32) := (dat1 (atTc (X5 m)) c).arrAt 5 cfg1.N
def X6 (c : Dev nD) : Valuation τ sig (Elt F) := Function.update (X5 m c) main_v32 (o6 m c)
def X7 (c : Dev nD) : Valuation τ sig (Elt F) := StableHlo.after hostOps2 (X6 m c)
def X8 (c : Dev nD) : Valuation τ sig (Elt F) := StableHlo.after hostOps2_1 (X7 m c)
/-- What the second SAGE combine is entered with. -/
def X9 (c : Dev nD) : Valuation τ sig (Elt F) := StableHlo.after hostOps2_2 (X8 m c)
def o10 (c : Dev nD) : Buf (Elt F) ((c : Thread nD τ).loc main_v51) := (dat2 (atTc (X9 m)) c).arrAt 5 cfg2.N
def X10 (c : Dev nD) : Valuation τ sig (Elt F) := Function.update (X9 m c) main_v51 (o10 m c)
/-- What the pooling kernel is entered with. -/
def X11 (c : Dev nD) : Valuation τ sig (Elt F) := StableHlo.after hostOps3 (X10 m c)
def o12 (c : Dev nD) : Buf (Elt F) ((c : Thread nD τ).loc main_v60) := (dat3 (atTc (X11 m)) c).arrAt 5 cfg3.N
/-- At the return. -/
def X12 (c : Dev nD) : Valuation τ sig (Elt F) := Function.update (X11 m c) main_v60 (o12 m c)

/-- The defining equations, for the places that must open a boundary's contents (everywhere else they stay closed). -/
theorem X1_def (c : Dev nD) : X1 m c = StableHlo.after hostOps0 (V0 m c) := rfl
theorem X2_def (c : Dev nD) : X2 m c = Function.update (X1 m c) main_v5 (o2 m c) := rfl
theorem X3_def (c : Dev nD) : X3 m c = StableHlo.after hostOps1 (X2 m c) := rfl
theorem X4_def (c : Dev nD) : X4 m c = StableHlo.after hostOps1_1 (X3 m c) := rfl
theorem X5_def (c : Dev nD) : X5 m c = StableHlo.after hostOps1_2 (X4 m c) := rfl
theorem X6_def (c : Dev nD) : X6 m c = Function.update (X5 m c) main_v32 (o6 m c) := rfl
theorem X7_def (c : Dev nD) : X7 m c = StableHlo.after hostOps2 (X6 m c) := rfl
theorem X8_def (c : Dev nD) : X8 m c = StableHlo.after hostOps2_1 (X7 m c) := rfl
theorem X9_def (c : Dev nD) : X9 m c = StableHlo.after hostOps2_2 (X8 m c) := rfl
theorem X10_def (c : Dev nD) : X10 m c = Function.update (X9 m c) main_v51 (o10 m c) := rfl
theorem X11_def (c : Dev nD) : X11 m c = StableHlo.after hostOps3 (X10 m c) := rfl
theorem X12_def (c : Dev nD) : X12 m c = Function.update (X11 m c) main_v60 (o12 m c) := rfl

/-- What the regions leave in the buffers they may change, as the family the conditional frame is stated over:
    read off the contents above at the four points it is consulted. -/
def outs : Outs (F := F) := fun J r c => match J with
  | 2 => X2 m c r
  | 6 => X6 m c r
  | 10 => X10 m c r
  | 12 => X12 m c r
  | _ => V0 m c r

theorem outs_2 (c : Dev nD) : outs m 2 main_v5 c = o2 m c := by
  show X2 m c (Proc.devRef .tc main_v5) = _; rw [X2_def]; exact upd_at _ _ _
theorem outs_6 (c : Dev nD) : outs m 6 main_v32 c = o6 m c := by
  show X6 m c (Proc.devRef .tc main_v32) = _; rw [X6_def]; exact upd_at _ _ _
theorem outs_10 (c : Dev nD) : outs m 10 main_v51 c = o10 m c := by
  show X10 m c (Proc.devRef .tc main_v51) = _; rw [X10_def]; exact upd_at _ _ _
theorem outs_12 (c : Dev nD) : outs m 12 main_v60 c = o12 m c := by
  show X12 m c (Proc.devRef .tc main_v60) = _; rw [X12_def]; exact upd_at _ _ _

/-- The conditional frame's contents at these unknowns are the contents above. -/
theorem V1_eq (c : Dev nD) : V1 m c = X1 m c := (X1_def m c).symm
theorem V2_eq (c : Dev nD) : V2 m (outs m) c = X2 m c := by
  rw [X2_def, ← V1_eq]; show Function.update (V1 m c) main_v5 (outs m 2 main_v5 c) = _; rw [outs_2]
theorem V5_eq (c : Dev nD) : V5 m (outs m) c = X5 m c := by
  rw [X5_def, X4_def, X3_def, ← V2_eq]
theorem V6_eq (c : Dev nD) : V6 m (outs m) c = X6 m c := by
  rw [X6_def, ← V5_eq]; show Function.update (V5 m (outs m) c) main_v32 (outs m 6 main_v32 c) = _; rw [outs_6]
theorem V9_eq (c : Dev nD) : V9 m (outs m) c = X9 m c := by
  rw [X9_def, X8_def, X7_def, ← V6_eq]
theorem V10_eq (c : Dev nD) : V10 m (outs m) c = X10 m c := by
  rw [X10_def, ← V9_eq]; show Function.update (V9 m (outs m) c) main_v51 (outs m 10 main_v51 c) = _; rw [outs_10]
theorem V11_eq (c : Dev nD) : V11 m (outs m) c = X11 m c := by
  rw [X11_def, ← V10_eq]
theorem V12_eq (c : Dev nD) : V12 m (outs m) c = X12 m c := by
  rw [X12_def, ← V11_eq]; show Function.update (V11 m (outs m) c) main_v60 (outs m 12 main_v60 c) = _; rw [outs_12]

-- from here on a boundary's contents are opened only through the equations above
attribute [irreducible] X1 X2 X3 X4 X5 X6 X7 X8 X9 X10 X11 X12

/-! ## The proof data family -/

/-- Every pipeline's proof data, each at its region's entry contents. -/
def pdats : (p : Fin 4) → (c : Dev nD) → Dat τ (Elt F) Unit ℕ (UR sig nD τ) ℕ (cfgs p) c
  | ⟨0, _⟩ => fun c => dat0 (atTc (X1 m)) c
  | ⟨1, _⟩ => fun c => dat1 (atTc (X5 m)) c
  | ⟨2, _⟩ => fun c => dat2 (atTc (X9 m)) c
  | ⟨3, _⟩ => fun c => dat3 (atTc (X11 m)) c

/-! ## What each region's arrays hold at its exit: the result at the write-backs' fold, an input as entered -/

theorem hF0 (c : Dev nD) (w : Fin cfg0.W) : (dat0 (atTc (X1 m)) c).arrAt w cfg0.N = atTc (X2 m) c (Pipeline.arrRef spec0 w) :=
  match w with
  | ⟨0, _⟩ => (((dat0 (atTc (X1 m)) c).arrAt_in 0 rfl _).trans (A_eq0 (atTc (X1 m)) c 0)).trans
      ((upd_off (X1 m c) main_v5 (Pipeline.arrRef spec0 0) (o2 m c) (by decide)).symm.trans (congrFun (X2_def m c) _).symm)
  | ⟨1, _⟩ => (((dat0 (atTc (X1 m)) c).arrAt_in 1 rfl _).trans (A_eq0 (atTc (X1 m)) c 1)).trans
      ((upd_off (X1 m c) main_v5 (Pipeline.arrRef spec0 1) (o2 m c) (by decide)).symm.trans (congrFun (X2_def m c) _).symm)
  | ⟨2, _⟩ => (((dat0 (atTc (X1 m)) c).arrAt_in 2 rfl _).trans (A_eq0 (atTc (X1 m)) c 2)).trans
      ((upd_off (X1 m c) main_v5 (Pipeline.arrRef spec0 2) (o2 m c) (by decide)).symm.trans (congrFun (X2_def m c) _).symm)
  | ⟨3, _⟩ => (upd_at (X1 m c) main_v5 (o2 m c)).symm.trans (congrFun (X2_def m c) _).symm
theorem hrest0 (c : Dev nD) : ∀ b, b ∉ Finset.univ.image (Pipeline.arrRef spec0) → atTc (X2 m) c b = atTc (X1 m) c b :=
  fun b hb => (congrFun (X2_def m c) _).trans (upd_off (X1 m c) main_v5 b (o2 m c) (fun e => hb (Finset.mem_image.mpr ⟨3, Finset.mem_univ _, e.symm⟩)))

theorem hF1 (c : Dev nD) (w : Fin cfg1.W) : (dat1 (atTc (X5 m)) c).arrAt w cfg1.N = atTc (X6 m) c (Pipeline.arrRef spec1 w) :=
  match w with
  | ⟨0, _⟩ => (((dat1 (atTc (X5 m)) c).arrAt_in 0 rfl _).trans (A_eq1 (atTc (X5 m)) c 0)).trans
      ((upd_off (X5 m c) main_v32 (Pipeline.arrRef spec1 0) (o6 m c) (by decide)).symm.trans (congrFun (X6_def m c) _).symm)
  | ⟨1, _⟩ => (((dat1 (atTc (X5 m)) c).arrAt_in 1 rfl _).trans (A_eq1 (atTc (X5 m)) c 1)).trans
      ((upd_off (X5 m c) main_v32 (Pipeline.arrRef spec1 1) (o6 m c) (by decide)).symm.trans (congrFun (X6_def m c) _).symm)
  | ⟨2, _⟩ => (((dat1 (atTc (X5 m)) c).arrAt_in 2 rfl _).trans (A_eq1 (atTc (X5 m)) c 2)).trans
      ((upd_off (X5 m c) main_v32 (Pipeline.arrRef spec1 2) (o6 m c) (by decide)).symm.trans (congrFun (X6_def m c) _).symm)
  | ⟨3, _⟩ => (((dat1 (atTc (X5 m)) c).arrAt_in 3 rfl _).trans (A_eq1 (atTc (X5 m)) c 3)).trans
      ((upd_off (X5 m c) main_v32 (Pipeline.arrRef spec1 3) (o6 m c) (by decide)).symm.trans (congrFun (X6_def m c) _).symm)
  | ⟨4, _⟩ => (((dat1 (atTc (X5 m)) c).arrAt_in 4 rfl _).trans (A_eq1 (atTc (X5 m)) c 4)).trans
      ((upd_off (X5 m c) main_v32 (Pipeline.arrRef spec1 4) (o6 m c) (by decide)).symm.trans (congrFun (X6_def m c) _).symm)
  | ⟨5, _⟩ => (upd_at (X5 m c) main_v32 (o6 m c)).symm.trans (congrFun (X6_def m c) _).symm
theorem hrest1 (c : Dev nD) : ∀ b, b ∉ Finset.univ.image (Pipeline.arrRef spec1) → atTc (X6 m) c b = atTc (X5 m) c b :=
  fun b hb => (congrFun (X6_def m c) _).trans (upd_off (X5 m c) main_v32 b (o6 m c) (fun e => hb (Finset.mem_image.mpr ⟨5, Finset.mem_univ _, e.symm⟩)))

set_option maxHeartbeats 4000000 in
theorem hF2 (c : Dev nD) (w : Fin cfg2.W) : (dat2 (atTc (X9 m)) c).arrAt w cfg2.N = atTc (X10 m) c (Pipeline.arrRef spec2 w) :=
  match w with
  | ⟨0, _⟩ => (((dat2 (atTc (X9 m)) c).arrAt_in 0 rfl _).trans (A_eq2 (atTc (X9 m)) c 0)).trans
      ((upd_off (X9 m c) main_v51 (Pipeline.arrRef spec2 0) (o10 m c) (by decide)).symm.trans (congrFun (X10_def m c) _).symm)
  | ⟨1, _⟩ => (((dat2 (atTc (X9 m)) c).arrAt_in 1 rfl _).trans (A_eq2 (atTc (X9 m)) c 1)).trans
      ((upd_off (X9 m c) main_v51 (Pipeline.arrRef spec2 1) (o10 m c) (by decide)).symm.trans (congrFun (X10_def m c) _).symm)
  | ⟨2, _⟩ => (((dat2 (atTc (X9 m)) c).arrAt_in 2 rfl _).trans (A_eq2 (atTc (X9 m)) c 2)).trans
      ((upd_off (X9 m c) main_v51 (Pipeline.arrRef spec2 2) (o10 m c) (by decide)).symm.trans (congrFun (X10_def m c) _).symm)
  | ⟨3, _⟩ => (((dat2 (atTc (X9 m)) c).arrAt_in 3 rfl _).trans (A_eq2 (atTc (X9 m)) c 3)).trans
      ((upd_off (X9 m c) main_v51 (Pipeline.arrRef spec2 3) (o10 m c) (by decide)).symm.trans (congrFun (X10_def m c) _).symm)
  | ⟨4, _⟩ => (((dat2 (atTc (X9 m)) c).arrAt_in 4 rfl _).trans (A_eq2 (atTc (X9 m)) c 4)).trans
      ((upd_off (X9 m c) main_v51 (Pipeline.arrRef spec2 4) (o10 m c) (by decide)).symm.trans (congrFun (X10_def m c) _).symm)
  | ⟨5, _⟩ => (upd_at (X9 m c) main_v51 (o10 m c)).symm.trans (congrFun (X10_def m c) _).symm
set_option maxHeartbeats 4000000 in
theorem hrest2 (c : Dev nD) : ∀ b, b ∉ Finset.univ.image (Pipeline.arrRef spec2) → atTc (X10 m) c b = atTc (X9 m) c b :=
  fun b hb => (congrFun (X10_def m c) _).trans (upd_off (X9 m c) main_v51 b (o10 m c) (fun e => hb (Finset.mem_image.mpr ⟨5, Finset.mem_univ _, e.symm⟩)))

set_option maxHeartbeats 4000000 in
theorem hF3 (c : Dev nD) (w : Fin cfg3.W) : (dat3 (atTc (X11 m)) c).arrAt w cfg3.N = atTc (X12 m) c (Pipeline.arrRef spec3 w) :=
  match w with
  | ⟨0, _⟩ => (((dat3 (atTc (X11 m)) c).arrAt_in 0 rfl _).trans (A_eq3 (atTc (X11 m)) c 0)).trans
      ((upd_off (X11 m c) main_v60 (Pipeline.arrRef spec3 0) (o12 m c) (by decide)).symm.trans (congrFun (X12_def m c) _).symm)
  | ⟨1, _⟩ => (((dat3 (atTc (X11 m)) c).arrAt_in 1 rfl _).trans (A_eq3 (atTc (X11 m)) c 1)).trans
      ((upd_off (X11 m c) main_v60 (Pipeline.arrRef spec3 1) (o12 m c) (by decide)).symm.trans (congrFun (X12_def m c) _).symm)
  | ⟨2, _⟩ => (((dat3 (atTc (X11 m)) c).arrAt_in 2 rfl _).trans (A_eq3 (atTc (X11 m)) c 2)).trans
      ((upd_off (X11 m c) main_v60 (Pipeline.arrRef spec3 2) (o12 m c) (by decide)).symm.trans (congrFun (X12_def m c) _).symm)
  | ⟨3, _⟩ => (((dat3 (atTc (X11 m)) c).arrAt_in 3 rfl _).trans (A_eq3 (atTc (X11 m)) c 3)).trans
      ((upd_off (X11 m c) main_v60 (Pipeline.arrRef spec3 3) (o12 m c) (by decide)).symm.trans (congrFun (X12_def m c) _).symm)
  | ⟨4, _⟩ => (((dat3 (atTc (X11 m)) c).arrAt_in 4 rfl _).trans (A_eq3 (atTc (X11 m)) c 4)).trans
      ((upd_off (X11 m c) main_v60 (Pipeline.arrRef spec3 4) (o12 m c) (by decide)).symm.trans (congrFun (X12_def m c) _).symm)
  | ⟨5, _⟩ => (upd_at (X11 m c) main_v60 (o12 m c)).symm.trans (congrFun (X12_def m c) _).symm
set_option maxHeartbeats 4000000 in
theorem hrest3 (c : Dev nD) : ∀ b, b ∉ Finset.univ.image (Pipeline.arrRef spec3) → atTc (X12 m) c b = atTc (X11 m) c b :=
  fun b hb => (congrFun (X12_def m c) _).trans (upd_off (X11 m c) main_v60 b (o12 m c) (fun e => hb (Finset.mem_image.mpr ⟨5, Finset.mem_univ _, e.symm⟩)))

end Cert.Kernel.Fr

end
-- ==== Proof.K.Segs.lean ====
/-
  The program as segments: a host segment per stretch of host operations and one record per kernel region, entered from
  and left at "every unscoped buffer at the boundary's contents". The launch over them says: every weakly fair execution
  terminates, the result buffer ends at what the pooling kernel's write-back leaves there, and every argument buffer ends as
  launched (no stretch and no region writes one). The frame is that run with the result forgotten.
-/
import proofs.«425859_j79671643341337_2_alg».proof.Proof.K.Conts

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev E : Fin 5 → Dev nD → sProp 𝕄 := fun _ c => R c

set_option backward.isDefEq.respectTransparency.types false in
/-- Region 0 over the thread state "every unscoped buffer at the boundary's contents, the generator register at some
    state, nothing owed": its arrays split out of the unscoped buffers at entry and put back at the exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (X1 m)) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (atTc (X1 m) c)
  hentry c := by
    rw [Pipeline.ownSems0_none, V1_eq]
    have hsplit := Pipeline.arrays_of_unscopedBufs (p := 0) (pcfgs (F := F)) adm (pdats m) launch0.win launch0.arr_whole c
      ((pdats m 0 c).share_full fun _ => rfl) (atTc (X1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [V2_eq]
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (X1 m) c) (atTc (X2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers at entry and put back at the exit contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (X5 m)) c).loose
  hwaits := Pipeline.hwaits_of_owed_zero _ _ _ _ L lv 1 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (atTc (X5 m) c)
  hentry c := by
    rw [Pipeline.ownSems0_none, V5_eq]
    have hsplit := Pipeline.arrays_of_unscopedBufs (p := 1) (pcfgs (F := F)) adm (pdats m) launch1.win launch1.arr_whole c
      ((pdats m 1 c).share_full fun _ => rfl) (atTc (X5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [V6_eq]
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (X5 m) c) (atTc (X6 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some
    state, nothing owed": its arrays split out of the unscoped buffers at entry and put back at the exit contents. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (X9 m)) c).loose
  hwaits := Pipeline.hwaits_of_owed_zero _ _ _ _ L lv 2 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec2 c (atTc (X9 m) c)
  hentry c := by
    rw [Pipeline.ownSems0_none, V9_eq]
    have hsplit := Pipeline.arrays_of_unscopedBufs (p := 2) (pcfgs (F := F)) adm (pdats m) launch2.win launch2.arr_whole c
      ((pdats m 2 c).share_full fun _ => rfl) (atTc (X9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    rw [V10_eq]
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (X9 m) c) (atTc (X10 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state "every unscoped buffer at the boundary's contents, the generator register at some
    state, nothing owed": its arrays split out of the unscoped buffers at entry and put back at the exit contents. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (X11 m)) c).loose
  hwaits := Pipeline.hwaits_of_owed_zero _ _ _ _ L lv 3 fun _ _ => rfl
  pre c := iprop(StableHlo.held (c : Thread nD τ) (Pipeline.ucRefs τ sig) (V11 m (outs m) c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := UR sig nD τ) (Lvl := ℕ) spec3 c (atTc (X11 m) c)
  hentry c := by
    rw [Pipeline.ownSems0_none, V11_eq]
    have hsplit := Pipeline.arrays_of_unscopedBufs (p := 3) (pcfgs (F := F)) adm (pdats m) launch3.win launch3.arr_whole c
      ((pdats m 3 c).share_full fun _ => rfl) (atTc (X11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (atTc (X11 m)) c); unfold Pipeline.ΦA
    iintro ⟨Hp, -, Hr⟩
    isplitl [Hr]; · iexact Hr
    iexact Hp
  hout c := by
    refine (hout3 (atTc (X11 m)) c).trans ?_; rw [Pipeline.ownSems0_none]; unfold Pipeline.ΦA
    iintro ⟨Hr, Hp⟩
    isplitl [Hp]; · iexact Hp
    isplitr; · iempintro
    iexact Hr
  hexit c := by
    rw [V12_eq]
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (X11 m) c) (atTc (X12 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last thread state is the final buffers and generator register beside the core owing nothing. -/
theorem post_end (c : Dev nD) :
    iprop(StableHlo.held (c : Thread nD τ) (Pipeline.ucRefs τ sig) (V12 m (outs m) c) ∗ R c)
      ⊢ (iprop(iprop(StableHlo.held (c : Thread nD τ) (Pipeline.ucRefs τ sig) (V12 m (outs m) c) ∗ ∃ r, prngReg c r)
          ∗ ∃ W, owes (c : Thread nD τ) (0 : CellTallies nD τ sig Unit) W) : sProp 𝕄) := by
  iintro ⟨Hh, Hp, HO⟩
  isplitl [Hh Hp]
  · isplitl [Hh] <;> iassumption
  iexact HO

/-! ## The launch -/

variable (ρ : Dev nD → PrngReg)

set_option backward.isDefEq.respectTransparency.types false in
/-- THE RUN. Every weakly fair execution of the program from memory m with zero counters terminates; the result buffer ends
    at the pooling kernel's written-back block and every argument buffer as launched. -/
theorem run_main : θ_run defs (onTc (τ := τ) (main (F := F))) ⟨m, fun _ => 0, ρ⟩ (fun r => ∀ c : Dev nD,
      r.2.mem ((c.tc : Thread nD τ).loc main_v60) = o12 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m) (reg3 m))
    (fun c Q => by
      rewrite [main_chain c, Seg.run_eq_chain,
        show (segs m (outs m) 𝒱₀ L lv E () (pdats m) (reg0 m) (reg1 m) (reg2 m) (reg3 m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V12 m (outs m) c) ∗ ∃ r, prngReg c r))
    (hch := fun c => ⟨.rfl, .rfl, .rfl, .rfl, .rfl, .rfl, .rfl, .rfl, .rfl, .rfl, .rfl, .rfl, post_end m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v60) = o12 m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13))
    (hfin := fun c s' => ?_) (hQ := fun _ h => h)
  -- the end: the result and each argument read off the last valuation
  unfold StableHlo.held
  iintro ⟨⟨Hh, -⟩, HSI⟩
  ihave Hr := (pointsTo_read_all (Pipeline.ucRefs τ sig) (fun b => ((c : Thread nD τ).1, b)) (V12 m (outs m) c) s') $$ [Hh HSI]
  · isplitl [Hh] <;> iassumption
  icases Hr with ⟨%h, HSI⟩
  imodintro
  isplitr
  · ipureintro
    exact ⟨(h (Proc.devRef .tc main_v60) (Finset.mem_filter.mpr ⟨StableHlo.devRef_mem_tcRefs main_v60, by decide⟩)).trans
        ((congrFun (V12_eq m c) _).trans ((congrFun (X12_def m c) _).trans (upd_at (X11 m c) main_v60 (o12 m c)))),
      (h (Proc.devRef .tc main_arg0) (Finset.mem_filter.mpr ⟨StableHlo.devRef_mem_tcRefs main_arg0, by decide⟩)).trans (V12_main_arg0 m (outs m) c),
      (h (Proc.devRef .tc main_arg1) (Finset.mem_filter.mpr ⟨StableHlo.devRef_mem_tcRefs main_arg1, by decide⟩)).trans (V12_main_arg1 m (outs m) c),
      (h (Proc.devRef .tc main_arg2) (Finset.mem_filter.mpr ⟨StableHlo.devRef_mem_tcRefs main_arg2, by decide⟩)).trans (V12_main_arg2 m (outs m) c),
      (h (Proc.devRef .tc main_arg3) (Finset.mem_filter.mpr ⟨StableHlo.devRef_mem_tcRefs main_arg3, by decide⟩)).trans (V12_main_arg3 m (outs m) c),
      (h (Proc.devRef .tc main_arg4) (Finset.mem_filter.mpr ⟨StableHlo.devRef_mem_tcRefs main_arg4, by decide⟩)).trans (V12_main_arg4 m (outs m) c),
      (h (Proc.devRef .tc main_arg5) (Finset.mem_filter.mpr ⟨StableHlo.devRef_mem_tcRefs main_arg5, by decide⟩)).trans (V12_main_arg5 m (outs m) c),
      (h (Proc.devRef .tc main_arg6) (Finset.mem_filter.mpr ⟨StableHlo.devRef_mem_tcRefs main_arg6, by decide⟩)).trans (V12_main_arg6 m (outs m) c),
      (h (Proc.devRef .tc main_arg7) (Finset.mem_filter.mpr ⟨StableHlo.devRef_mem_tcRefs main_arg7, by decide⟩)).trans (V12_main_arg7 m (outs m) c),
      (h (Proc.devRef .tc main_arg8) (Finset.mem_filter.mpr ⟨StableHlo.devRef_mem_tcRefs main_arg8, by decide⟩)).trans (V12_main_arg8 m (outs m) c),
      (h (Proc.devRef .tc main_arg9) (Finset.mem_filter.mpr ⟨StableHlo.devRef_mem_tcRefs main_arg9, by decide⟩)).trans (V12_main_arg9 m (outs m) c),
      (h (Proc.devRef .tc main_arg10) (Finset.mem_filter.mpr ⟨StableHlo.devRef_mem_tcRefs main_arg10, by decide⟩)).trans (V12_main_arg10 m (outs m) c),
      (h (Proc.devRef .tc main_arg11) (Finset.mem_filter.mpr ⟨StableHlo.devRef_mem_tcRefs main_arg11, by decide⟩)).trans (V12_main_arg11 m (outs m) c),
      (h (Proc.devRef .tc main_arg12) (Finset.mem_filter.mpr ⟨StableHlo.devRef_mem_tcRefs main_arg12, by decide⟩)).trans (V12_main_arg12 m (outs m) c),
      (h (Proc.devRef .tc main_arg13) (Finset.mem_filter.mpr ⟨StableHlo.devRef_mem_tcRefs main_arg13, by decide⟩)).trans (V12_main_arg13 m (outs m) c)⟩
  · iexact HSI

/-- THE FRAME: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => (h c).2) (run_main m ρ)

end Cert.Kernel.Fr

end
-- ==== Proof.KI.Reg0.lean ====
/-
  The edge projection (first pallas_call): 200 grid points, point t taking rows 8000·t … 8000·t+7999 of the
  edge features, the whole 22×18 weight and the 1×18 bias row, and leaving in the output block the payload
  "edge rows · weight + bias row" of those three blocks. Stated at a parameter V (the buffer contents when the
  region is entered) and at any float instance: the blocks read off V, what the body leaves in the output's
  staging buffer as the canon of its one whole store, the body's triple, the proof data and the body obligation.
-/
import proofs.«425859_j79671643341337_2_alg».proof.Proof.Gen.KernelIdeal.Launch
import proofs.«425859_j79671643341337_2_alg».proof.Proof.Gen.KernelIdeal.Skeleton
import proofs.«425859_j79671643341337_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: an unfetched
    window's block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_a : Rect S8000x22 := Rect.unit (s := S8000x22) ![0, 0] S8000x22.size inb_S8000x22_S8000x22_0_0
abbrev r0_w : Rect S22x18 := Rect.unit (s := S22x18) ![0, 0] S22x18.size inb_S22x18_S22x18_0_0
abbrev r0_b : Rect S1x18 := Rect.unit (s := S1x18) ![0, 0] S1x18.size inb_S1x18_S1x18_0_0
abbrev r0_o : Rect S8000x18 := Rect.unit (s := S8000x18) ![0, 0] S8000x18.size inb_S8000x18_S8000x18_0_0

/-! ## What the body leaves in the output window's buffer -/

/-- The output's staging buffer after the body, from the three input blocks: its one store, of the payload. -/
def out0_3 (x0 : Vec F S8000x22 .f32) (x1 : Vec F S22x18 .f32) (x2 : Vec F S1x18 .f32) : Vec F S8000x18 .f32 :=
  View.canon [⟨r0_o, k0_pay1 (View.ld x0 r0_a) (View.ld x1 r0_w) (View.ld x2 r0_b)⟩]

/-- The store is of the whole buffer, so it covers it. -/
theorem cover0_3 (p0 : Vec F S8000x18 .f32) (y : S8000x18.Idx) :
    ∃ pc ∈ ([⟨r0_o, p0⟩] : List (View.Piece (Elt F) S8000x18 .f32)), y ∈ pc.1.set :=
  View.cover_of_tiled [⟨r0_o, p0⟩] S8000x18.size (by rfl) y

/-! ## The body's triple -/

set_option maxHeartbeats 1000000 in
/-- The kernel body on whole staging memrefs, the inputs' at read contents and the output's at anything, runs to the
    continuation holding the inputs' as they were and the output's at out0_3 of the inputs'. -/
theorem sound_kernel0 (c : Dev nD) (E : Set ℕ) (i : grid0.Coords)
    (arg1 : Memref sig .tc .vmem S8000x22 .f32) (harg1 : arg1.IsWhole) (arg2 : Memref sig .tc .vmem S22x18 .f32) (harg2 : arg2.IsWhole)
    (arg3 : Memref sig .tc .vmem S1x18 .f32) (harg3 : arg3.IsWhole) (arg4 : Memref sig .tc .vmem S8000x18 .f32) (harg4 : arg4.IsWhole)
    (x0 : Vec F S8000x22 .f32) (x1 : Vec F S22x18 .f32) (x2 : Vec F S1x18 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__edge_fc_kernel i arg1 harg1 arg2 harg2 arg3 harg3 arg4 harg4) K := by
  simp only [cc0__edge_fc_kernel_eq_skeleton]; unfold cc0__edge_fc_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core c: the arrays as the region finds them; after the body at point t each
    input's buffer at its block and the output's at out0_3 of the input blocks; nothing else touched, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
/-
  The SAGE linear layer on 18 input features (a pallas_call of 50 grid points): point t takes rows 2000·t … 2000·t+1999
  of the neighbour-mean array and the same rows of the node array, the two whole 18×64 weights and the 1×64 bias
  row, and leaves in the output block, entrywise, the larger of 0 and
  "(mean rows · first weight + bias row) + node rows · second weight", each product's two operands rounded to
  bf16 first. Stated at a parameter V (the buffer contents when the region is entered) and at any float instance:
  the blocks read off V, what the body leaves in the output's staging buffer as the canon of its one whole store,
  the body's triple, the proof data and the body obligation.
-/
import proofs.«425859_j79671643341337_2_alg».proof.Proof.Gen.KernelIdeal.Launch
import proofs.«425859_j79671643341337_2_alg».proof.Proof.Gen.KernelIdeal.Skeleton
import proofs.«425859_j79671643341337_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each of the five input windows' current staging buffer holds its block at every point, fetched there or not:
    the two row blocks are fetched at every point, and the weights' and the bias row's block index never moves. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev r1_x : Rect S2000x18 := Rect.unit (s := S2000x18) ![0, 0] S2000x18.size inb_S2000x18_S2000x18_0_0
abbrev r1_w : Rect S18x64 := Rect.unit (s := S18x64) ![0, 0] S18x64.size inb_S18x64_S18x64_0_0
abbrev r1_b : Rect S1x64 := Rect.unit (s := S1x64) ![0, 0] S1x64.size inb_S1x64_S1x64_0_0
abbrev r1_o : Rect S2000x64 := Rect.unit (s := S2000x64) ![0, 0] S2000x64.size inb_S2000x64_S2000x64_0_0

/-! ## What the body leaves in the output window's buffer -/

/-- The output's staging buffer after the body, from the five input blocks in window order (mean rows, node rows,
    first weight, bias row, second weight): its one store, of the payload. The payload takes the second weight
    before the bias row. -/
def out1_5 (x0 x1 : Vec F S2000x18 .f32) (x2 : Vec F S18x64 .f32) (x3 : Vec F S1x64 .f32) (x4 : Vec F S18x64 .f32) : Vec F S2000x64 .f32 :=
  View.canon [⟨r1_o, k1_pay1 (View.ld x0 r1_x) (View.ld x1 r1_x) (View.ld x2 r1_w) (View.ld x4 r1_w) (View.ld x3 r1_b)⟩]

/-- The store is of the whole buffer, so it covers it. -/
theorem cover1_5 (p0 : Vec F S2000x64 .f32) (y : S2000x64.Idx) :
    ∃ pc ∈ ([⟨r1_o, p0⟩] : List (View.Piece (Elt F) S2000x64 .f32)), y ∈ pc.1.set :=
  View.cover_of_tiled [⟨r1_o, p0⟩] S2000x64.size (by rfl) y

/-! ## The body's triple -/

set_option maxHeartbeats 1000000 in
/-- The kernel body on whole staging memrefs, the five inputs' at read contents and the output's at anything, runs to
    the continuation holding the inputs' as they were and the output's at out1_5 of the inputs'. -/
theorem sound_kernel1 (c : Dev nD) (E : Set ℕ) (i : grid1.Coords)
    (arg1 : Memref sig .tc .vmem S2000x18 .f32) (harg1 : arg1.IsWhole) (arg2 : Memref sig .tc .vmem S2000x18 .f32) (harg2 : arg2.IsWhole)
    (arg3 : Memref sig .tc .vmem S18x64 .f32) (harg3 : arg3.IsWhole) (arg4 : Memref sig .tc .vmem S1x64 .f32) (harg4 : arg4.IsWhole)
    (arg5 : Memref sig .tc .vmem S18x64 .f32) (harg5 : arg5.IsWhole) (arg6 : Memref sig .tc .vmem S2000x64 .f32) (harg6 : arg6.IsWhole)
    (x0 x1 : Vec F S2000x18 .f32) (x2 : Vec F S18x64 .f32) (x3 : Vec F S1x64 .f32) (x4 : Vec F S18x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__sage_linear_kernel i arg1 harg1 arg2 harg2 arg3 harg3 arg4 harg4 arg5 harg5 arg6 harg6) K := by
  simp only [cc1__sage_linear_kernel_eq_skeleton]; unfold cc1__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core c: the arrays as the region finds them; after the body at point t each
    input's buffer at its block and the output's at out1_5 of the five input blocks; nothing else touched, nothing
    owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2.lean ====
/-
  The SAGE linear layer on 64 input features (a pallas_call of 50 grid points): point t takes rows 2000·t … 2000·t+1999
  of the neighbour-mean array and the same rows of the node array, the two whole 64×64 weights and the 1×64 bias
  row, and leaves in the output block, entrywise, the larger of 0 and
  "(mean rows · first weight + bias row) + node rows · second weight", each product's two operands rounded to
  bf16 first. Stated at a parameter V (the buffer contents when the region is entered) and at any float instance:
  the blocks read off V, what the body leaves in the output's staging buffer as the canon of its one whole store,
  the body's triple, the proof data and the body obligation.
-/
import proofs.«425859_j79671643341337_2_alg».proof.Proof.Gen.KernelIdeal.Launch
import proofs.«425859_j79671643341337_2_alg».proof.Proof.Gen.KernelIdeal.Skeleton
import proofs.«425859_j79671643341337_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each of the five input windows' current staging buffer holds its block at every point, fetched there or not:
    the two row blocks are fetched at every point, and the weights' and the bias row's block index never moves. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole buffer -/

abbrev r2_x : Rect S2000x64 := Rect.unit (s := S2000x64) ![0, 0] S2000x64.size inb_S2000x64_S2000x64_0_0
abbrev r2_w : Rect S64x64 := Rect.unit (s := S64x64) ![0, 0] S64x64.size inb_S64x64_S64x64_0_0
abbrev r2_b : Rect S1x64 := Rect.unit (s := S1x64) ![0, 0] S1x64.size inb_S1x64_S1x64_0_0
abbrev r2_o : Rect S2000x64 := Rect.unit (s := S2000x64) ![0, 0] S2000x64.size inb_S2000x64_S2000x64_0_0

/-! ## What the body leaves in the output window's buffer -/

/-- The output's staging buffer after the body, from the five input blocks in window order (mean rows, node rows,
    first weight, bias row, second weight): its one store, of the payload. The payload takes the second weight
    before the bias row. -/
def out2_5 (x0 x1 : Vec F S2000x64 .f32) (x2 : Vec F S64x64 .f32) (x3 : Vec F S1x64 .f32) (x4 : Vec F S64x64 .f32) : Vec F S2000x64 .f32 :=
  View.canon [⟨r2_o, k2_pay1 (View.ld x0 r2_x) (View.ld x1 r2_x) (View.ld x2 r2_w) (View.ld x4 r2_w) (View.ld x3 r2_b)⟩]

/-- The store is of the whole buffer, so it covers it. -/
theorem cover2_5 (p0 : Vec F S2000x64 .f32) (y : S2000x64.Idx) :
    ∃ pc ∈ ([⟨r2_o, p0⟩] : List (View.Piece (Elt F) S2000x64 .f32)), y ∈ pc.1.set :=
  View.cover_of_tiled [⟨r2_o, p0⟩] S2000x64.size (by rfl) y

/-! ## The body's triple -/

set_option maxHeartbeats 1000000 in
/-- The kernel body on whole staging memrefs, the five inputs' at read contents and the output's at anything, runs to
    the continuation holding the inputs' as they were and the output's at out2_5 of the inputs'. -/
theorem sound_kernel2 (c : Dev nD) (E : Set ℕ) (i : grid2.Coords)
    (arg1 : Memref sig .tc .vmem S2000x64 .f32) (harg1 : arg1.IsWhole) (arg2 : Memref sig .tc .vmem S2000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S2000x64 .f32) (harg6 : arg6.IsWhole)
    (x0 x1 : Vec F S2000x64 .f32) (x2 : Vec F S64x64 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__sage_linear_kernel i arg1 harg1 arg2 harg2 arg3 harg3 arg4 harg4 arg5 harg5 arg6 harg6) K := by
  simp only [cc2__sage_linear_kernel_eq_skeleton]; unfold cc2__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of this pipeline on core c: the arrays as the region finds them; after the body at point t each
    input's buffer at its block and the output's at out2_5 of the five input blocks; nothing else touched, nothing
    owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Reg3.lean ====
/-
  The pooling and projection (fourth pallas_call): 50 grid points, point t taking rows 2000·t … 2000·t+1999 of the
  node features and of the graph ids, and the whole count column, 64×128 weight and 1×128 bias row. The body keeps a
  64×64 accumulator in a scratch buffer that lives across the points: the first point clears it, every point adds to
  it the segment sums of its 2000 rows, and the last point alone divides by the counts, projects, adds the bias and
  stores the 64×128 result. Stated at a parameter V (the buffer contents when the region is entered) and at any float
  instance: the blocks read off V, the accumulator after each point as a recursion over the points, what the last
  point leaves in the output's staging buffer, one triple of the body per control case (first point, a middle point,
  last point), the proof data whose invariant carries the accumulator from point to point, and the body obligation.
-/
import proofs.«425859_j79671643341337_2_alg».proof.Proof.Gen.KernelIdeal.Launch
import proofs.«425859_j79671643341337_2_alg».proof.Proof.Gen.KernelIdeal.Skeleton
import proofs.«425859_j79671643341337_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: each a whole buffer -/

abbrev r3_x : Rect S2000x64 := Rect.unit (s := S2000x64) ![0, 0] S2000x64.size inb_S2000x64_S2000x64_0_0
abbrev r3_g : Rect S2000x1 := Rect.unit (s := S2000x1) ![0, 0] S2000x1.size inb_S2000x1_S2000x1_0_0
abbrev r3_n : Rect S64x1 := Rect.unit (s := S64x1) ![0, 0] S64x1.size inb_S64x1_S64x1_0_0
abbrev r3_w : Rect S64x128 := Rect.unit (s := S64x128) ![0, 0] S64x128.size inb_S64x128_S64x128_0_0
abbrev r3_b : Rect S1x128 := Rect.unit (s := S1x128) ![0, 0] S1x128.size inb_S1x128_S1x128_0_0
abbrev r3_o : Rect S64x128 := Rect.unit (s := S64x128) ![0, 0] S64x128.size inb_S64x128_S64x128_0_0
abbrev r3_s : Rect S64x64 := Rect.unit (s := S64x64) ![0, 0] S64x64.size inb_S64x64_S64x64_0_0

/-! ## The accumulator and the output, as the body's stores leave them -/

/-- The accumulator after the first point's clearing store: all zeros. -/
def zero3 : Vec F S64x64 .f32 := View.canon [⟨r3_s, k3_pay1 (F := F)⟩]

/-- The accumulator after one point's accumulating store, from that point's feature block x, id block g and what
    the accumulator held: held + (one-hot of g)ᵀ · x, the payload of the store. -/
def step3 (x : Vec F S2000x64 .f32) (g : Vec F S2000x1 .i32) (a : Vec F S64x64 .f32) : Vec F S64x64 .f32 :=
  View.canon [⟨r3_s, k3_pay2 (View.ld x r3_x) (View.ld g r3_g) (View.ld a r3_s)⟩]

/-- The output's staging buffer after the last point's store, from the final accumulator a, the counts n, the weight
    w and the bias row b: (a / n) · w + b, the payload of the store. -/
def out3_5 (a : Vec F S64x64 .f32) (n : Vec F S64x1 .f32) (w : Vec F S64x128 .f32) (b : Vec F S1x128 .f32) : Vec F S64x128 .f32 :=
  View.canon [⟨r3_o, k3_pay3 (View.ld a r3_s) (View.ld n r3_n) (View.ld w r3_w) (View.ld b r3_b)⟩]

/-- Each of the three stores is of its whole buffer, so it covers it. -/
theorem cover3_s (p0 : Vec F S64x64 .f32) (y : S64x64.Idx) :
    ∃ pc ∈ ([⟨r3_s, p0⟩] : List (View.Piece (Elt F) S64x64 .f32)), y ∈ pc.1.set :=
  View.cover_of_tiled [⟨r3_s, p0⟩] S64x64.size (by rfl) y
theorem cover3_o (p0 : Vec F S64x128 .f32) (y : S64x128.Idx) :
    ∃ pc ∈ ([⟨r3_o, p0⟩] : List (View.Piece (Elt F) S64x128 .f32)), y ∈ pc.1.set :=
  View.cover_of_tiled [⟨r3_o, p0⟩] S64x128.size (by rfl) y

/-- THE ACCUMULATION. The accumulator after the body at point n: the first point clears it and adds its rows' segment
    sums; every later point adds its own to what the point before left. -/
def acc3 (c : Dev nD) : (n : ℕ) → n < cfg3.N → Vec F S64x64 .f32
  | 0, h => step3 (iblk3 V c 0 ⟨0, h⟩) (iblk3 V c 1 ⟨0, h⟩) zero3
  | n + 1, h => step3 (iblk3 V c 0 ⟨n + 1, h⟩) (iblk3 V c 1 ⟨n + 1, h⟩) (acc3 c n (Nat.lt_of_succ_lt h))

theorem acc3_zero (c : Dev nD) (h : 0 < cfg3.N) :
    acc3 V c 0 h = step3 (iblk3 V c 0 ⟨0, h⟩) (iblk3 V c 1 ⟨0, h⟩) zero3 := rfl
theorem acc3_succ (c : Dev nD) (n : ℕ) (h : n + 1 < cfg3.N) :
    acc3 V c (n + 1) h = step3 (iblk3 V c 0 ⟨n + 1, h⟩) (iblk3 V c 1 ⟨n + 1, h⟩) (acc3 V c n (Nat.lt_of_succ_lt h)) := rfl

/-- At the first point, stated at a point. -/
theorem acc3_first (c : Dev nD) (t : Fin cfg3.N) (hz : t.val = 0) :
    acc3 V c t.val t.isLt = step3 (iblk3 V c 0 t) (iblk3 V c 1 t) zero3 := by
  obtain ⟨n, hn⟩ := t
  cases n with
  | zero => rfl
  | succ n => exact absurd hz (Nat.succ_ne_zero n)

/-- At a later point, stated at a point: over what the point before left. -/
theorem acc3_later (c : Dev nD) (t : Fin cfg3.N) (hz : t.val ≠ 0) :
    acc3 V c t.val t.isLt = step3 (iblk3 V c 0 t) (iblk3 V c 1 t) (acc3 V c (t.val - 1) (Nat.lt_of_le_of_lt (Nat.sub_le _ _) t.isLt)) := by
  obtain ⟨n, hn⟩ := t
  cases n with
  | zero => exact absurd rfl hz
  | succ n => rfl

/-- A list of stores whose newest is of the whole accumulator leaves that store's payload, whatever lay under it. -/
theorem whole3_s {sp : Space} (v : View sig .tc sp S64x64 .f32) (f : v.ty.Contents (Elt F)) (w : Vec F S64x64 .f32)
    (L : List (View.Piece (Elt F) S64x64 .f32)) :
    v.read (Elt F) (v.writes (Elt F) f (⟨r3_s, w⟩ :: L)) = View.canon [⟨r3_s, w⟩] := by
  funext y
  obtain ⟨pc, hm, hy⟩ := cover3_s w y
  rw [List.mem_singleton] at hm; subst hm
  obtain ⟨x, rfl⟩ : ∃ x, r3_s.emb x = y := r3_s.exists_idx_of_mem hy
  rw [View.read_writes_cons_emb, View.canon_cons_emb]

/-! ## The invariant: the accumulator carried from point to point -/

/-- The scratch operand: a whole scoped buffer of the kernel's own, passed beside the windows. -/
abbrev scM3 : Memref sig .tc .vmem S64x64 .f32 := Memref.whole cc3_scratch0

/-- The region invariant before position n: before the first point every scoped buffer that is no staging buffer at
    anything and the generator register at some state; afterwards the accumulator at what the point before left in it
    (acc3), the other such buffers at anything, and the register at some state. -/
def PhiS3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0])
      ∗ (∃ r, prngReg c r))

theorem PhiS3_zero (c : Dev nD) (n : ℕ) (h : n ≤ cfg3.N) (hz : n = 0) : PhiS3 V c n h = Pipeline.ΦA spec3 c := by
  subst hz; rfl

/-- After point n (before point n + 1): the accumulator at that point's contents. -/
theorem PhiS3_succ (c : Dev nD) (n : ℕ) (hn : n < cfg3.N) :
    PhiS3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0])
      ∗ (∃ r, prngReg c r)) := rfl

/-- Before a point that is not the first: the accumulator at what the point before left. -/
theorem PhiS3_pos (c : Dev nD) (n : ℕ) (h : n ≤ cfg3.N) (hz : n ≠ 0) :
    PhiS3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0])
      ∗ (∃ r, prngReg c r)) := by
  cases n with
  | zero => exact absurd rfl hz
  | succ n => rfl

/-! ## The pipeline's proof data -/

/-- The proof data of this pipeline on core c: the arrays as the region finds them; after the body at point t each
    input's buffer at its block and the output's at out3_5 of the accumulator after t and the three whole inputs (the
    value the last point stores; at the other points the output's buffer is handed back untouched and this term is not
    consulted); the invariant carrying the accumulator; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (acc3 V c t.val t.isLt) (iblk3 V c 2 t) (iblk3 V c 3 t) (iblk3 V c 4 t)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (acc3 V c t.val t.isLt) (iblk3 V c 2 t) (iblk3 V c 3 t) (iblk3 V c 4 t) := by dsimp only [dat3]

/-- At the last point, the one that writes the output back, the output's buffer holds the projection of the final
    accumulator. -/
theorem after3_5_last (c : Dev nD) (t : Fin cfg3.N) (ht : t.val = 49) :
    (dat3 V c).after 5 t = out3_5 (acc3 V c t.val t.isLt) (iblk3 V c 2 t) (iblk3 V c 3 t) (iblk3 V c 4 t) :=
  after3_5 V c t

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-! ## The body's two branch conditions -/

/-- The first conditional's condition, from the grid coordinates: the point's position is 0. -/
abbrev cond3_0 (i : grid3.Coords) : Prop :=
  (Scalar.cmpi .ne (Scalar.extui (Scalar.cmpi .eq (BitVec.ofNat 32 (i 0).val) 0#32)) 0#32) = 1#1
/-- The second conditional's condition: the point's position is 49. -/
abbrev cond3_1 (i : grid3.Coords) : Prop := k3_cond2 i = 1#1

/-- The first holds at the first point only, the second at the last only: decided over the 50 points. -/
theorem hcond3_0 : ∀ t : Fin cfg3.N, cond3_0 (grid3.coords t) ↔ t.val = 0 :=
  (by decide +kernel : ∀ t : Fin grid3.N, cond3_0 (grid3.coords t) ↔ t.val = 0)
theorem hcond3_1 : ∀ t : Fin cfg3.N, cond3_1 (grid3.coords t) ↔ t.val = 49 :=
  (by decide +kernel : ∀ t : Fin grid3.N, cond3_1 (grid3.coords t) ↔ t.val = 49)

/-- The output window is idle, and not written back, at every point but the last; there it is live. -/
theorem idleAt3_5 : ∀ t : Fin cfg3.N, t.val ≠ 49 → cfg3.idle 5 (grid3.coords t) = true := by decide +kernel
theorem noFlush3_5 : ∀ t : Fin cfg3.N, t.val ≠ 49 → (cfg3.win 5).flush t = false := by decide +kernel
theorem liveAt3_5 : ∀ t : Fin cfg3.N, t.val = 49 → cfg3.idle 5 (grid3.coords t) = false := by decide +kernel

/-! ## The body's triples, one per control case -/

set_option maxHeartbeats 1000000 in
/-- At the first point: the accumulator, at anything, is cleared and takes the point's segment sums; the output's
    buffer and the three whole inputs are not touched. -/
theorem sound_kernel3_first (c : Dev nD) (E : Set ℕ) (i : grid3.Coords) (hc0 : cond3_0 i) (hc1 : ¬cond3_1 i)
    (arg1 : Memref sig .tc .vmem S2000x64 .f32) (harg1 : arg1.IsWhole) (arg2 : Memref sig .tc .vmem S2000x1 .i32) (harg2 : arg2.IsWhole)
    (arg3 : Memref sig .tc .vmem S64x1 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S64x128 .f32) (harg6 : arg6.IsWhole)
    (x : Vec F S2000x64 .f32) (g : Vec F S2000x1 .i32) (K : PUnit → sProp 𝕄) :
    iprop(owns (c : Thread nD τ) arg1 fullShare x ∗ owns (c : Thread nD τ) arg2 fullShare g
        ∗ (∃ a, owns (c : Thread nD τ) scM3 fullShare a)
        ∗ (iprop(owns (c : Thread nD τ) arg1 fullShare x ∗ owns (c : Thread nD τ) arg2 fullShare g
            ∗ owns (c : Thread nD τ) scM3 fullShare (step3 x g zero3)) -∗ K ⟨⟩))
      ⊢ wp frame (wpE (defs₀ (F := F)) Variants.none c none) E
          (cc3__pool_project_kernel i arg1 harg1 arg2 harg2 arg3 harg3 arg4 harg4 arg5 harg5 arg6 harg6 scM3 (Memref.isWhole_whole _)) K := by
  simp only [cc3__pool_project_kernel_eq_skeleton]; unfold cc3__pool_project_kernel_skel
  unfold owns
  iintro ⟨⟨%f0, %hf0, H0⟩, ⟨%f1, %hf1, H1⟩, ⟨%a, %fs, -, HS⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [whole3_s, View.readCov_eq_canon_ld _ _ r3_s (cover3_s _)]
  unfold step3 zero3; rfl

set_option maxHeartbeats 1000000 in
/-- At a point that is neither the first nor the last: the accumulator takes the point's segment sums over what it
    held; nothing else is touched. -/
theorem sound_kernel3_mid (c : Dev nD) (E : Set ℕ) (i : grid3.Coords) (hc0 : ¬cond3_0 i) (hc1 : ¬cond3_1 i)
    (arg1 : Memref sig .tc .vmem S2000x64 .f32) (harg1 : arg1.IsWhole) (arg2 : Memref sig .tc .vmem S2000x1 .i32) (harg2 : arg2.IsWhole)
    (arg3 : Memref sig .tc .vmem S64x1 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S64x128 .f32) (harg6 : arg6.IsWhole)
    (x : Vec F S2000x64 .f32) (g : Vec F S2000x1 .i32) (a : Vec F S64x64 .f32) (K : PUnit → sProp 𝕄) :
    iprop(owns (c : Thread nD τ) arg1 fullShare x ∗ owns (c : Thread nD τ) arg2 fullShare g
        ∗ owns (c : Thread nD τ) scM3 fullShare a
        ∗ (iprop(owns (c : Thread nD τ) arg1 fullShare x ∗ owns (c : Thread nD τ) arg2 fullShare g
            ∗ owns (c : Thread nD τ) scM3 fullShare (step3 x g a)) -∗ K ⟨⟩))
      ⊢ wp frame (wpE (defs₀ (F := F)) Variants.none c none) E
          (cc3__pool_project_kernel i arg1 harg1 arg2 harg2 arg3 harg3 arg4 harg4 arg5 harg5 arg6 harg6 scM3 (Memref.isWhole_whole _)) K := by
  simp only [cc3__pool_project_kernel_eq_skeleton]; unfold cc3__pool_project_kernel_skel
  unfold owns
  iintro ⟨⟨%f0, %hf0, H0⟩, ⟨%f1, %hf1, H1⟩, ⟨%fs, %hfs, HS⟩, Hk⟩
  subst hf0; subst hf1; subst hfs
  sl_exec
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [whole3_s]
  unfold step3; rfl

set_option maxHeartbeats 1000000 in
/-- At the last point: the accumulator takes the point's segment sums over what it held, and the output's buffer, at
    anything, is left at the projection of that final accumulator. -/
theorem sound_kernel3_last (c : Dev nD) (E : Set ℕ) (i : grid3.Coords) (hc0 : ¬cond3_0 i) (hc1 : cond3_1 i)
    (arg1 : Memref sig .tc .vmem S2000x64 .f32) (harg1 : arg1.IsWhole) (arg2 : Memref sig .tc .vmem S2000x1 .i32) (harg2 : arg2.IsWhole)
    (arg3 : Memref sig .tc .vmem S64x1 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S64x128 .f32) (harg6 : arg6.IsWhole)
    (x : Vec F S2000x64 .f32) (g : Vec F S2000x1 .i32) (a : Vec F S64x64 .f32)
    (n : Vec F S64x1 .f32) (w : Vec F S64x128 .f32) (b : Vec F S1x128 .f32) (K : PUnit → sProp 𝕄) :
    iprop(owns (c : Thread nD τ) arg1 fullShare x ∗ owns (c : Thread nD τ) arg2 fullShare g
        ∗ owns (c : Thread nD τ) arg3 fullShare n ∗ owns (c : Thread nD τ) arg4 fullShare w ∗ owns (c : Thread nD τ) arg5 fullShare b
        ∗ (∃ d, owns (c : Thread nD τ) arg6 fullShare d)
        ∗ owns (c : Thread nD τ) scM3 fullShare a
        ∗ (iprop(owns (c : Thread nD τ) arg1 fullShare x ∗ owns (c : Thread nD τ) arg2 fullShare g
            ∗ owns (c : Thread nD τ) arg3 fullShare n ∗ owns (c : Thread nD τ) arg4 fullShare w ∗ owns (c : Thread nD τ) arg5 fullShare b
            ∗ owns (c : Thread nD τ) arg6 fullShare (out3_5 (step3 x g a) n w b)
            ∗ owns (c : Thread nD τ) scM3 fullShare (step3 x g a)) -∗ K ⟨⟩))
      ⊢ wp frame (wpE (defs₀ (F := F)) Variants.none c none) E
          (cc3__pool_project_kernel i arg1 harg1 arg2 harg2 arg3 harg3 arg4 harg4 arg5 harg5 arg6 harg6 scM3 (Memref.isWhole_whole _)) K := by
  simp only [cc3__pool_project_kernel_eq_skeleton]; unfold cc3__pool_project_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0; subst hf1; subst hf2; subst hf3; subst hf4; subst hfs
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [View.read_writes_eq_canon _ _ _ (cover3_o _), View.readCov_eq_canon_ld _ _ r3_s (cover3_s _)]
    unfold out3_5 step3; rfl
  iexists _; isplitr
  swap; · iexact HS
  ipureintro
  sl_unfold_run_names
  rw [whole3_s]
  unfold step3; rfl

/-! ## What the body finds in the inputs' buffers -/

/-- An input window's current staging buffer holds its block at every point, fetched there or not: an unfetched
    window's block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- The inputs are live at every point: the body leaves each one's buffer at its block. -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
theorem leaves3_0 (c : Dev nD) (t : Fin cfg3.N) :
    (dat3 V c).leavesExact 0 t = owns (c : Thread nD τ) (st3_0 t) fullShare (iblk3 V c 0 t) := by
  unfold Dat.leavesExact; rw [liveAt3_0 t, after3_0]
theorem leaves3_1 (c : Dev nD) (t : Fin cfg3.N) :
    (dat3 V c).leavesExact 1 t = owns (c : Thread nD τ) (st3_1 t) fullShare (iblk3 V c 1 t) := by
  unfold Dat.leavesExact; rw [liveAt3_1 t, after3_1]
theorem leaves3_2 (c : Dev nD) (t : Fin cfg3.N) :
    (dat3 V c).leavesExact 2 t = owns (c : Thread nD τ) (st3_2 t) fullShare (iblk3 V c 2 t) := by
  unfold Dat.leavesExact; rw [liveAt3_2 t, after3_2]
theorem leaves3_3 (c : Dev nD) (t : Fin cfg3.N) :
    (dat3 V c).leavesExact 3 t = owns (c : Thread nD τ) (st3_3 t) fullShare (iblk3 V c 3 t) := by
  unfold Dat.leavesExact; rw [liveAt3_3 t, after3_3]
theorem leaves3_4 (c : Dev nD) (t : Fin cfg3.N) :
    (dat3 V c).leavesExact 4 t = owns (c : Thread nD τ) (st3_4 t) fullShare (iblk3 V c 4 t) := by
  unfold Dat.leavesExact; rw [liveAt3_4 t, after3_4]

/-- At the last point the output is live: the body leaves its buffer at the projection of the final accumulator. -/
theorem leaves3_5_last (c : Dev nD) (t : Fin cfg3.N) (ht : t.val = 49) :
    (dat3 V c).leavesExact 5 t = owns (c : Thread nD τ) (st3_5 t) fullShare
      (out3_5 (acc3 V c t.val t.isLt) (iblk3 V c 2 t) (iblk3 V c 3 t) (iblk3 V c 4 t)) := by
  unfold Dat.leavesExact; rw [liveAt3_5 t ht, after3_5]

/-- What the region is entered with, with the accumulator's buffer named: at anything, beside the other scoped buffers
    and the generator register. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [scM3, owns_whole]; try rfl

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4000000 in
/-- The body at any point: the inputs' buffers hold their blocks; the point's position says which control case it is
    in; the invariant hands the body the accumulator at what the point before left (at anything at the first point) and
    takes it back at this point's contents; where the output is idle its buffer goes back as it came; nothing is owed
    throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3, leaves3_4]
  have hN : t.val < 50 := lt_of_lt_of_eq t.isLt (show cfg3.N = 50 from N_3)
  by_cases hz : t.val = 0
  · have h0 : cond3_0 (grid3.coords t) := (hcond3_0 t).mpr hz
    have h1 : ¬cond3_1 (grid3.coords t) := fun h => by have := (hcond3_1 t).mp h; omega
    rw [Dat.leavesExact_idle (dat3 V c) 5 t (idleAt3_5 t (by omega)) (noFlush3_5 t (by omega))]
    rw [acc3_first V c t hz]
    rw [PhiS3_castSucc V c t, PhiS3_zero V c _ _ hz, PhiA3_eq]
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply (sound_kernel3_first c Set.univ _ h0 h1 _ _ _ _ _ _ _ _ _ _ _ _ (iblk3 V c 0 t) (iblk3 V c 1 t) _)
    isplitl [H0]; · iexact H0
    isplitl [H1]; · iexact H1
    isplitl [HS]; · iexact HS
    iintro ⟨H0, H1, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have h0 : ¬cond3_0 (grid3.coords t) := fun h => hz ((hcond3_0 t).mp h)
    rw [acc3_later V c t hz]
    rw [PhiS3_castSucc V c t, PhiS3_pos V c _ _ hz]
    by_cases hl : t.val = 49
    · have h1 : cond3_1 (grid3.coords t) := (hcond3_1 t).mpr hl
      rw [leaves3_5_last V c t hl, acc3_later V c t hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (sound_kernel3_last c Set.univ _ h0 h1 _ _ _ _ _ _ _ _ _ _ _ _ (iblk3 V c 0 t) (iblk3 V c 1 t)
        (acc3 V c (t.val - 1) (Nat.lt_of_le_of_lt (Nat.sub_le _ _) t.isLt)) (iblk3 V c 2 t) (iblk3 V c 3 t) (iblk3 V c 4 t) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · have h1 : ¬cond3_1 (grid3.coords t) := fun h => hl ((hcond3_1 t).mp h)
      rw [Dat.leavesExact_idle (dat3 V c) 5 t (idleAt3_5 t hl) (noFlush3_5 t hl)]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (sound_kernel3_mid c Set.univ _ h0 h1 _ _ _ _ _ _ _ _ _ _ _ _ (iblk3 V c 0 t) (iblk3 V c 1 t)
        (acc3 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's two ends -/

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives back what the region was entered with: the accumulator's named contents are
    forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, Hr⟩, Hg⟩
  isplitl [HS Hr]
  · isplitl [HS]
    · iexists _; iexact HS
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 50 := N_3; omega)

end Cert.KernelIdeal.Fr

end
-- ==== Proof.KI.Conts.lean ====
/-
  What each buffer holds between the items of the program, built forward from the launch memory: a stretch of host
  operations applies its operations; a kernel region changes exactly one buffer, its result, to what its pipeline's
  write-backs leave there (the fold of its blocks over the grid). From these: the contents each region is entered with,
  every pipeline's proof data at those contents, what each region's arrays hold at its exit, and that an argument buffer
  is never among the changed ones.
-/
import proofs.«425859_j79671643341337_2_alg».proof.Proof.Gen.KernelIdeal.Regions
import proofs.«425859_j79671643341337_2_alg».proof.Proof.KI.Reg0
import proofs.«425859_j79671643341337_2_alg».proof.Proof.KI.Reg1
import proofs.«425859_j79671643341337_2_alg».proof.Proof.KI.Reg2
import proofs.«425859_j79671643341337_2_alg».proof.Proof.KI.Reg3

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- A core's buffer contents read at the TensorCore's references (what a region's half is stated at). -/
abbrev atTc (W : Dev nD → Valuation τ sig (Elt F)) : (c : Dev nD) → (b : Ref sig .tc) → Buf (Elt F) ((c : Thread nD τ).loc b) :=
  fun c b => W c b

/-- Changing one buffer of a valuation: read at that buffer, -/
theorem upd_at (W : Valuation τ sig (Elt F)) (r : Ref sig .tc) (v : _) :
    Function.update W (Proc.devRef (τ := τ) .tc r) v (Proc.devRef .tc r) = v := Function.update_self ..
/-- and at any other. -/
theorem upd_off (W : Valuation τ sig (Elt F)) (r b : Ref sig .tc) (v : _) (h : b ≠ r) :
    Function.update W (Proc.devRef (τ := τ) .tc r) v (Proc.devRef .tc b) = W (Proc.devRef .tc b) :=
  Function.update_of_ne (StableHlo.devRef_ne_of_ne h) _ _

/-! ## The contents between items -/

/-- After the first host stretch: what the edge projection is entered with. -/
def X1 (c : Dev nD) : Valuation τ sig (Elt F) := StableHlo.after hostOps0 (V0 m c)
/-- What the edge projection leaves in its result buffer: its 200 blocks written back. -/
def o2 (c : Dev nD) : Buf (Elt F) ((c : Thread nD τ).loc main_v5) := (dat0 (atTc (X1 m)) c).arrAt 3 cfg0.N
/-- After the edge projection: only its result buffer changed. -/
def X2 (c : Dev nD) : Valuation τ sig (Elt F) := Function.update (X1 m c) main_v5 (o2 m c)
def X3 (c : Dev nD) : Valuation τ sig (Elt F) := StableHlo.after hostOps1 (X2 m c)
def X4 (c : Dev nD) : Valuation τ sig (Elt F) := StableHlo.after hostOps1_1 (X3 m c)
/-- What the first SAGE combine is entered with. -/
def X5 (c : Dev nD) : Valuation τ sig (Elt F) := StableHlo.after hostOps1_2 (X4 m c)
def o6 (c : Dev nD) : Buf (Elt F) ((c : Thread nD τ).loc main_v32) := (dat1 (atTc (X5 m)) c).arrAt 5 cfg1.N
def X6 (c : Dev nD) : Valuation τ sig (Elt F) := Function.update (X5 m c) main_v32 (o6 m c)
def X7 (c : Dev nD) : Valuation τ sig (Elt F) := StableHlo.after hostOps2 (X6 m c)
def X8 (c : Dev nD) : Valuation τ sig (Elt F) := StableHlo.after hostOps2_1 (X7 m c)
/-- What the second SAGE combine is entered with. -/
def X9 (c : Dev nD) : Valuation τ sig (Elt F) := StableHlo.after hostOps2_2 (X8 m c)
def o10 (c : Dev nD) : Buf (Elt F) ((c : Thread nD τ).loc main_v51) := (dat2 (atTc (X9 m)) c).arrAt 5 cfg2.N
def X10 (c : Dev nD) : Valuation τ sig (Elt F) := Function.update (X9 m c) main_v51 (o10 m c)
/-- What the pooling kernel is entered with. -/
def X11 (c : Dev nD) : Valuation τ sig (Elt F) := StableHlo.after hostOps3 (X10 m c)
def o12 (c : Dev nD) : Buf (Elt F) ((c : Thread nD τ).loc main_v60) := (dat3 (atTc (X11 m)) c).arrAt 5 cfg3.N
/-- At the return. -/
def X12 (c : Dev nD) : Valuation τ sig (Elt F) := Function.update (X11 m c) main_v60 (o12 m c)

/-- The defining equations, for the places that must open a boundary's contents (everywhere else they stay closed). -/
theorem X1_def (c : Dev nD) : X1 m c = StableHlo.after hostOps0 (V0 m c) := rfl
theorem X2_def (c : Dev nD) : X2 m c = Function.update (X1 m c) main_v5 (o2 m c) := rfl
theorem X3_def (c : Dev nD) : X3 m c = StableHlo.after hostOps1 (X2 m c) := rfl
theorem X4_def (c : Dev nD) : X4 m c = StableHlo.after hostOps1_1 (X3 m c) := rfl
theorem X5_def (c : Dev nD) : X5 m c = StableHlo.after hostOps1_2 (X4 m c) := rfl
theorem X6_def (c : Dev nD) : X6 m c = Function.update (X5 m c) main_v32 (o6 m c) := rfl
theorem X7_def (c : Dev nD) : X7 m c = StableHlo.after hostOps2 (X6 m c) := rfl
theorem X8_def (c : Dev nD) : X8 m c = StableHlo.after hostOps2_1 (X7 m c) := rfl
theorem X9_def (c : Dev nD) : X9 m c = StableHlo.after hostOps2_2 (X8 m c) := rfl
theorem X10_def (c : Dev nD) : X10 m c = Function.update (X9 m c) main_v51 (o10 m c) := rfl
theorem X11_def (c : Dev nD) : X11 m c = StableHlo.after hostOps3 (X10 m c) := rfl
theorem X12_def (c : Dev nD) : X12 m c = Function.update (X11 m c) main_v60 (o12 m c) := rfl

/-- What the regions leave in the buffers they may change, as the family the conditional frame is stated over:
    read off the contents above at the four points it is consulted. -/
def outs : Outs (F := F) := fun J r c => match J with
  | 2 => X2 m c r
  | 6 => X6 m c r
  | 10 => X10 m c r
  | 12 => X12 m c r
  | _ => V0 m c r

theorem outs_2 (c : Dev nD) : outs m 2 main_v5 c = o2 m c := by
  show X2 m c (Proc.devRef .tc main_v5) = _; rw [X2_def]; exact upd_at _ _ _
theorem outs_6 (c : Dev nD) : outs m 6 main_v32 c = o6 m c := by
  show X6 m c (Proc.devRef .tc main_v32) = _; rw [X6_def]; exact upd_at _ _ _
theorem outs_10 (c : Dev nD) : outs m 10 main_v51 c = o10 m c := by
  show X10 m c (Proc.devRef .tc main_v51) = _; rw [X10_def]; exact upd_at _ _ _
theorem outs_12 (c : Dev nD) : outs m 12 main_v60 c = o12 m c := by
  show X12 m c (Proc.devRef .tc main_v60) = _; rw [X12_def]; exact upd_at _ _ _

/-- The conditional frame's contents at these unknowns are the contents above. -/
theorem V1_eq (c : Dev nD) : V1 m c = X1 m c := (X1_def m c).symm
theorem V2_eq (c : Dev nD) : V2 m (outs m) c = X2 m c := by
  rw [X2_def, ← V1_eq]; show Function.update (V1 m c) main_v5 (outs m 2 main_v5 c) = _; rw [outs_2]
theorem V5_eq (c : Dev nD) : V5 m (outs m) c = X5 m c := by
  rw [X5_def, X4_def, X3_def, ← V2_eq]
theorem V6_eq (c : Dev nD) : V6 m (outs m) c = X6 m c := by
  rw [X6_def, ← V5_eq]; show Function.update (V5 m (outs m) c) main_v32 (outs m 6 main_v32 c) = _; rw [outs_6]
theorem V9_eq (c : Dev nD) : V9 m (outs m) c = X9 m c := by
  rw [X9_def, X8_def, X7_def, ← V6_eq]
theorem V10_eq (c : Dev nD) : V10 m (outs m) c = X10 m c := by
  rw [X10_def, ← V9_eq]; show Function.update (V9 m (outs m) c) main_v51 (outs m 10 main_v51 c) = _; rw [outs_10]
theorem V11_eq (c : Dev nD) : V11 m (outs m) c = X11 m c := by
  rw [X11_def, ← V10_eq]
theorem V12_eq (c : Dev nD) : V12 m (outs m) c = X12 m c := by
  rw [X12_def, ← V11_eq]; show Function.update (V11 m (outs m) c) main_v60 (outs m 12 main_v60 c) = _; rw [outs_12]

-- from here on a boundary's contents are opened only through the equations above
attribute [irreducible] X1 X2 X3 X4 X5 X6 X7 X8 X9 X10 X11 X12

/-! ## The proof data family -/

/-- Every pipeline's proof data, each at its region's entry contents. -/
def pdats : (p : Fin 4) → (c : Dev nD) → Dat τ (Elt F) Unit ℕ (UR sig nD τ) ℕ (cfgs p) c
  | ⟨0, _⟩ => fun c => dat0 (atTc (X1 m)) c
  | ⟨1, _⟩ => fun c => dat1 (atTc (X5 m)) c
  | ⟨2, _⟩ => fun c => dat2 (atTc (X9 m)) c
  | ⟨3, _⟩ => fun c => dat3 (atTc (X11 m)) c

/-! ## What each region's arrays hold at its exit: the result at the write-backs' fold, an input as entered -/

theorem hF0 (c : Dev nD) (w : Fin cfg0.W) : (dat0 (atTc (X1 m)) c).arrAt w cfg0.N = atTc (X2 m) c (Pipeline.arrRef spec0 w) :=
  match w with
  | ⟨0, _⟩ => (((dat0 (atTc (X1 m)) c).arrAt_in 0 rfl _).trans (A_eq0 (atTc (X1 m)) c 0)).trans
      ((upd_off (X1 m c) main_v5 (Pipeline.arrRef spec0 0) (o2 m c) (by decide)).symm.trans (congrFun (X2_def m c) _).symm)
  | ⟨1, _⟩ => (((dat0 (atTc (X1 m)) c).arrAt_in 1 rfl _).trans (A_eq0 (atTc (X1 m)) c 1)).trans
      ((upd_off (X1 m c) main_v5 (Pipeline.arrRef spec0 1) (o2 m c) (by decide)).symm.trans (congrFun (X2_def m c) _).symm)
  | ⟨2, _⟩ => (((dat0 (atTc (X1 m)) c).arrAt_in 2 rfl _).trans (A_eq0 (atTc (X1 m)) c 2)).trans
      ((upd_off (X1 m c) main_v5 (Pipeline.arrRef spec0 2) (o2 m c) (by decide)).symm.trans (congrFun (X2_def m c) _).symm)
  | ⟨3, _⟩ => (upd_at (X1 m c) main_v5 (o2 m c)).symm.trans (congrFun (X2_def m c) _).symm
theorem hrest0 (c : Dev nD) : ∀ b, b ∉ Finset.univ.image (Pipeline.arrRef spec0) → atTc (X2 m) c b = atTc (X1 m) c b :=
  fun b hb => (congrFun (X2_def m c) _).trans (upd_off (X1 m c) main_v5 b (o2 m c) (fun e => hb (Finset.mem_image.mpr ⟨3, Finset.mem_univ _, e.symm⟩)))

theorem hF1 (c : Dev nD) (w : Fin cfg1.W) : (dat1 (atTc (X5 m)) c).arrAt w cfg1.N = atTc (X6 m) c (Pipeline.arrRef spec1 w) :=
  match w with
  | ⟨0, _⟩ => (((dat1 (atTc (X5 m)) c).arrAt_in 0 rfl _).trans (A_eq1 (atTc (X5 m)) c 0)).trans
      ((upd_off (X5 m c) main_v32 (Pipeline.arrRef spec1 0) (o6 m c) (by decide)).symm.trans (congrFun (X6_def m c) _).symm)
  | ⟨1, _⟩ => (((dat1 (atTc (X5 m)) c).arrAt_in 1 rfl _).trans (A_eq1 (atTc (X5 m)) c 1)).trans
      ((upd_off (X5 m c) main_v32 (Pipeline.arrRef spec1 1) (o6 m c) (by decide)).symm.trans (congrFun (X6_def m c) _).symm)
  | ⟨2, _⟩ => (((dat1 (atTc (X5 m)) c).arrAt_in 2 rfl _).trans (A_eq1 (atTc (X5 m)) c 2)).trans
      ((upd_off (X5 m c) main_v32 (Pipeline.arrRef spec1 2) (o6 m c) (by decide)).symm.trans (congrFun (X6_def m c) _).symm)
  | ⟨3, _⟩ => (((dat1 (atTc (X5 m)) c).arrAt_in 3 rfl _).trans (A_eq1 (atTc (X5 m)) c 3)).trans
      ((upd_off (X5 m c) main_v32 (Pipeline.arrRef spec1 3) (o6 m c) (by decide)).symm.trans (congrFun (X6_def m c) _).symm)
  | ⟨4, _⟩ => (((dat1 (atTc (X5 m)) c).arrAt_in 4 rfl _).trans (A_eq1 (atTc (X5 m)) c 4)).trans
      ((upd_off (X5 m c) main_v32 (Pipeline.arrRef spec1 4) (o6 m c) (by decide)).symm.trans (congrFun (X6_def m c) _).symm)
  | ⟨5, _⟩ => (upd_at (X5 m c) main_v32 (o6 m c)).symm.trans (congrFun (X6_def m c) _).symm
theorem hrest1 (c : Dev nD) : ∀ b, b ∉ Finset.univ.image (Pipeline.arrRef spec1) → atTc (X6 m) c b = atTc (X5 m) c b :=
  fun b hb => (congrFun (X6_def m c) _).trans (upd_off (X5 m c) main_v32 b (o6 m c) (fun e => hb (Finset.mem_image.mpr ⟨5, Finset.mem_univ _, e.symm⟩)))

set_option maxHeartbeats 4000000 in
theorem hF2 (c : Dev nD) (w : Fin cfg2.W) : (dat2 (atTc (X9 m)) c).arrAt w cfg2.N = atTc (X10 m) c (Pipeline.arrRef spec2 w) :=
  match w with
  | ⟨0, _⟩ => (((dat2 (atTc (X9 m)) c).arrAt_in 0 rfl _).trans (A_eq2 (atTc (X9 m)) c 0)).trans
      ((upd_off (X9 m c) main_v51 (Pipeline.arrRef spec2 0) (o10 m c) (by decide)).symm.trans (congrFun (X10_def m c) _).symm)
  | ⟨1, _⟩ => (((dat2 (atTc (X9 m)) c).arrAt_in 1 rfl _).trans (A_eq2 (atTc (X9 m)) c 1)).trans
      ((upd_off (X9 m c) main_v51 (Pipeline.arrRef spec2 1) (o10 m c) (by decide)).symm.trans (congrFun (X10_def m c) _).symm)
  | ⟨2, _⟩ => (((dat2 (atTc (X9 m)) c).arrAt_in 2 rfl _).trans (A_eq2 (atTc (X9 m)) c 2)).trans
      ((upd_off (X9 m c) main_v51 (Pipeline.arrRef spec2 2) (o10 m c) (by decide)).symm.trans (congrFun (X10_def m c) _).symm)
  | ⟨3, _⟩ => (((dat2 (atTc (X9 m)) c).arrAt_in 3 rfl _).trans (A_eq2 (atTc (X9 m)) c 3)).trans
      ((upd_off (X9 m c) main_v51 (Pipeline.arrRef spec2 3) (o10 m c) (by decide)).symm.trans (congrFun (X10_def m c) _).symm)
  | ⟨4, _⟩ => (((dat2 (atTc (X9 m)) c).arrAt_in 4 rfl _).trans (A_eq2 (atTc (X9 m)) c 4)).trans
      ((upd_off (X9 m c) main_v51 (Pipeline.arrRef spec2 4) (o10 m c) (by decide)).symm.trans (congrFun (X10_def m c) _).symm)
  | ⟨5, _⟩ => (upd_at (X9 m c) main_v51 (o10 m c)).symm.trans (congrFun (X10_def m c) _).symm
set_option maxHeartbeats 4000000 in
theorem hrest2 (c : Dev nD) : ∀ b, b ∉ Finset.univ.image (Pipeline.arrRef spec2) → atTc (X10 m) c b = atTc (X9 m) c b :=
  fun b hb => (congrFun (X10_def m c) _).trans (upd_off (X9 m c) main_v51 b (o10 m c) (fun e => hb (Finset.mem_image.mpr ⟨5, Finset.mem_univ _, e.symm⟩)))

set_option maxHeartbeats 4000000 in
theorem hF3 (c : Dev nD) (w : Fin cfg3.W) : (dat3 (atTc (X11 m)) c).arrAt w cfg3.N = atTc (X12 m) c (Pipeline.arrRef spec3 w) :=
  match w with
  | ⟨0, _⟩ => (((dat3 (atTc (X11 m)) c).arrAt_in 0 rfl _).trans (A_eq3 (atTc (X11 m)) c 0)).trans
      ((upd_off (X11 m c) main_v60 (Pipeline.arrRef spec3 0) (o12 m c) (by decide)).symm.trans (congrFun (X12_def m c) _).symm)
  | ⟨1, _⟩ => (((dat3 (atTc (X11 m)) c).arrAt_in 1 rfl _).trans (A_eq3 (atTc (X11 m)) c 1)).trans
      ((upd_off (X11 m c) main_v60 (Pipeline.arrRef spec3 1) (o12 m c) (by decide)).symm.trans (congrFun (X12_def m c) _).symm)
  | ⟨2, _⟩ => (((dat3 (atTc (X11 m)) c).arrAt_in 2 rfl _).trans (A_eq3 (atTc (X11 m)) c 2)).trans
      ((upd_off (X11 m c) main_v60 (Pipeline.arrRef spec3 2) (o12 m c) (by decide)).symm.trans (congrFun (X12_def m c) _).symm)
  | ⟨3, _⟩ => (((dat3 (atTc (X11 m)) c).arrAt_in 3 rfl _).trans (A_eq3 (atTc (X11 m)) c 3)).trans
      ((upd_off (X11 m c) main_v60 (Pipeline.arrRef spec3 3) (o12 m c) (by decide)).symm.trans (congrFun (X12_def m c) _).symm)
  | ⟨4, _⟩ => (((dat3 (atTc (X11 m)) c).arrAt_in 4 rfl _).trans (A_eq3 (atTc (X11 m)) c 4)).trans
      ((upd_off (X11 m c) main_v60 (Pipeline.arrRef spec3 4) (o12 m c) (by decide)).symm.trans (congrFun (X12_def m c) _).symm)
  | ⟨5, _⟩ => (upd_at (X11 m c) main_v60 (o12 m c)).symm.trans (congrFun (X12_def m c) _).symm
set_option maxHeartbeats 4000000 in
theorem hrest3 (c : Dev nD) : ∀ b, b ∉ Finset.univ.image (Pipeline.arrRef spec3) → atTc (X12 m) c b = atTc (X11 m) c b :=
  fun b hb => (congrFun (X12_def m c) _).trans (upd_off (X11 m c) main_v60 b (o12 m c) (fun e => hb (Finset.mem_image.mpr ⟨5, Finset.mem_univ _, e.symm⟩)))

end Cert.KernelIdeal.Fr

end
-- ==== Proof.KI.Segs.lean ====
/-
  The program as segments: a host segment per stretch of host operations and one record per kernel region, entered from
  and left at "every unscoped buffer at the boundary's contents". The launch over them says: every weakly fair execution
  terminates, the result buffer ends at what the pooling kernel's write-back leaves there, and every argument buffer ends as
  launched (no stretch and no region writes one). The frame is that run with the result forgotten.
-/
import proofs.«425859_j79671643341337_2_alg».proof.Proof.KI.Conts

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev E : Fin 5 → Dev nD → sProp 𝕄 := fun _ c => R c

set_option backward.isDefEq.respectTransparency.types false in
/-- Region 0 over the thread state "every unscoped buffer at the boundary's contents, the generator register at some
    state, nothing owed": its arrays split out of the unscoped buffers at entry and put back at the exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (X1 m)) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (atTc (X1 m) c)
  hentry c := by
    rw [Pipeline.ownSems0_none, V1_eq]
    have hsplit := Pipeline.arrays_of_unscopedBufs (p := 0) (pcfgs (F := F)) adm (pdats m) launch0.win launch0.arr_whole c
      ((pdats m 0 c).share_full fun _ => rfl) (atTc (X1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [V2_eq]
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (X1 m) c) (atTc (X2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers at entry and put back at the exit contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (X5 m)) c).loose
  hwaits := Pipeline.hwaits_of_owed_zero _ _ _ _ L lv 1 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (atTc (X5 m) c)
  hentry c := by
    rw [Pipeline.ownSems0_none, V5_eq]
    have hsplit := Pipeline.arrays_of_unscopedBufs (p := 1) (pcfgs (F := F)) adm (pdats m) launch1.win launch1.arr_whole c
      ((pdats m 1 c).share_full fun _ => rfl) (atTc (X5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [V6_eq]
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (X5 m) c) (atTc (X6 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some
    state, nothing owed": its arrays split out of the unscoped buffers at entry and put back at the exit contents. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (X9 m)) c).loose
  hwaits := Pipeline.hwaits_of_owed_zero _ _ _ _ L lv 2 fun _ _ => rfl
  pre c := iprop(StableHlo.held (c : Thread nD τ) (Pipeline.ucRefs τ sig) (V9 m (outs m) c) ∗ R c)
  post c := iprop(StableHlo.held (c : Thread nD τ) (Pipeline.ucRefs τ sig) (V10 m (outs m) c) ∗ R c)
  X c := iprop(∃ r, prngReg c r)
  Y c := iprop(∃ r, prngReg c r)
  Z c := Pipeline.unscopedRest (Ix := Unit) (Name := ℕ) (U := UR sig nD τ) (Lvl := ℕ) spec2 c (atTc (X9 m) c)
  hentry c := by
    rw [Pipeline.ownSems0_none, V9_eq]
    have hsplit := Pipeline.arrays_of_unscopedBufs (p := 2) (pcfgs (F := F)) adm (pdats m) launch2.win launch2.arr_whole c
      ((pdats m 2 c).share_full fun _ => rfl) (atTc (X9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    rw [V10_eq]
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (X9 m) c) (atTc (X10 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state "every unscoped buffer at the boundary's contents, the generator register at some
    state, nothing owed": its arrays split out of the unscoped buffers at entry and put back at the exit contents. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (X11 m)) c).loose
  hwaits := Pipeline.hwaits_of_owed_zero _ _ _ _ L lv 3 fun _ _ => rfl
  pre c := iprop(StableHlo.held (c : Thread nD τ) (Pipeline.ucRefs τ sig) (V11 m (outs m) c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := UR sig nD τ) (Lvl := ℕ) spec3 c (atTc (X11 m) c)
  hentry c := by
    rw [Pipeline.ownSems0_none, V11_eq]
    have hsplit := Pipeline.arrays_of_unscopedBufs (p := 3) (pcfgs (F := F)) adm (pdats m) launch3.win launch3.arr_whole c
      ((pdats m 3 c).share_full fun _ => rfl) (atTc (X11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (atTc (X11 m)) c); unfold Pipeline.ΦA
    iintro ⟨Hp, -, Hr⟩
    isplitl [Hr]; · iexact Hr
    iexact Hp
  hout c := by
    refine (hout3 (atTc (X11 m)) c).trans ?_; rw [Pipeline.ownSems0_none]; unfold Pipeline.ΦA
    iintro ⟨Hr, Hp⟩
    isplitl [Hp]; · iexact Hp
    isplitr; · iempintro
    iexact Hr
  hexit c := by
    rw [V12_eq]
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (X11 m) c) (atTc (X12 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last thread state is the final buffers and generator register beside the core owing nothing. -/
theorem post_end (c : Dev nD) :
    iprop(StableHlo.held (c : Thread nD τ) (Pipeline.ucRefs τ sig) (V12 m (outs m) c) ∗ R c)
      ⊢ (iprop(iprop(StableHlo.held (c : Thread nD τ) (Pipeline.ucRefs τ sig) (V12 m (outs m) c) ∗ ∃ r, prngReg c r)
          ∗ ∃ W, owes (c : Thread nD τ) (0 : CellTallies nD τ sig Unit) W) : sProp 𝕄) := by
  iintro ⟨Hh, Hp, HO⟩
  isplitl [Hh Hp]
  · isplitl [Hh] <;> iassumption
  iexact HO

/-! ## The launch -/

variable (ρ : Dev nD → PrngReg)

set_option backward.isDefEq.respectTransparency.types false in
/-- THE RUN. Every weakly fair execution of the program from memory m with zero counters terminates; the result buffer ends
    at the pooling kernel's written-back block and every argument buffer as launched. -/
theorem run_main : θ_run defs (onTc (τ := τ) (main (F := F))) ⟨m, fun _ => 0, ρ⟩ (fun r => ∀ c : Dev nD,
      r.2.mem ((c.tc : Thread nD τ).loc main_v60) = o12 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m) (reg3 m))
    (fun c Q => by
      rewrite [main_chain c, Seg.run_eq_chain,
        show (segs m (outs m) 𝒱₀ L lv E () (pdats m) (reg0 m) (reg1 m) (reg2 m) (reg3 m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V12 m (outs m) c) ∗ ∃ r, prngReg c r))
    (hch := fun c => ⟨.rfl, .rfl, .rfl, .rfl, .rfl, .rfl, .rfl, .rfl, .rfl, .rfl, .rfl, .rfl, post_end m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v60) = o12 m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13))
    (hfin := fun c s' => ?_) (hQ := fun _ h => h)
  -- the end: the result and each argument read off the last valuation
  unfold StableHlo.held
  iintro ⟨⟨Hh, -⟩, HSI⟩
  ihave Hr := (pointsTo_read_all (Pipeline.ucRefs τ sig) (fun b => ((c : Thread nD τ).1, b)) (V12 m (outs m) c) s') $$ [Hh HSI]
  · isplitl [Hh] <;> iassumption
  icases Hr with ⟨%h, HSI⟩
  imodintro
  isplitr
  · ipureintro
    exact ⟨(h (Proc.devRef .tc main_v60) (Finset.mem_filter.mpr ⟨StableHlo.devRef_mem_tcRefs main_v60, by decide⟩)).trans
        ((congrFun (V12_eq m c) _).trans ((congrFun (X12_def m c) _).trans (upd_at (X11 m c) main_v60 (o12 m c)))),
      (h (Proc.devRef .tc main_arg0) (Finset.mem_filter.mpr ⟨StableHlo.devRef_mem_tcRefs main_arg0, by decide⟩)).trans (V12_main_arg0 m (outs m) c),
      (h (Proc.devRef .tc main_arg1) (Finset.mem_filter.mpr ⟨StableHlo.devRef_mem_tcRefs main_arg1, by decide⟩)).trans (V12_main_arg1 m (outs m) c),
      (h (Proc.devRef .tc main_arg2) (Finset.mem_filter.mpr ⟨StableHlo.devRef_mem_tcRefs main_arg2, by decide⟩)).trans (V12_main_arg2 m (outs m) c),
      (h (Proc.devRef .tc main_arg3) (Finset.mem_filter.mpr ⟨StableHlo.devRef_mem_tcRefs main_arg3, by decide⟩)).trans (V12_main_arg3 m (outs m) c),
      (h (Proc.devRef .tc main_arg4) (Finset.mem_filter.mpr ⟨StableHlo.devRef_mem_tcRefs main_arg4, by decide⟩)).trans (V12_main_arg4 m (outs m) c),
      (h (Proc.devRef .tc main_arg5) (Finset.mem_filter.mpr ⟨StableHlo.devRef_mem_tcRefs main_arg5, by decide⟩)).trans (V12_main_arg5 m (outs m) c),
      (h (Proc.devRef .tc main_arg6) (Finset.mem_filter.mpr ⟨StableHlo.devRef_mem_tcRefs main_arg6, by decide⟩)).trans (V12_main_arg6 m (outs m) c),
      (h (Proc.devRef .tc main_arg7) (Finset.mem_filter.mpr ⟨StableHlo.devRef_mem_tcRefs main_arg7, by decide⟩)).trans (V12_main_arg7 m (outs m) c),
      (h (Proc.devRef .tc main_arg8) (Finset.mem_filter.mpr ⟨StableHlo.devRef_mem_tcRefs main_arg8, by decide⟩)).trans (V12_main_arg8 m (outs m) c),
      (h (Proc.devRef .tc main_arg9) (Finset.mem_filter.mpr ⟨StableHlo.devRef_mem_tcRefs main_arg9, by decide⟩)).trans (V12_main_arg9 m (outs m) c),
      (h (Proc.devRef .tc main_arg10) (Finset.mem_filter.mpr ⟨StableHlo.devRef_mem_tcRefs main_arg10, by decide⟩)).trans (V12_main_arg10 m (outs m) c),
      (h (Proc.devRef .tc main_arg11) (Finset.mem_filter.mpr ⟨StableHlo.devRef_mem_tcRefs main_arg11, by decide⟩)).trans (V12_main_arg11 m (outs m) c),
      (h (Proc.devRef .tc main_arg12) (Finset.mem_filter.mpr ⟨StableHlo.devRef_mem_tcRefs main_arg12, by decide⟩)).trans (V12_main_arg12 m (outs m) c),
      (h (Proc.devRef .tc main_arg13) (Finset.mem_filter.mpr ⟨StableHlo.devRef_mem_tcRefs main_arg13, by decide⟩)).trans (V12_main_arg13 m (outs m) c)⟩
  · iexact HSI

/-- THE FRAME: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => (h c).2) (run_main m ρ)

end Cert.KernelIdeal.Fr

end
-- ==== Proof.KI.Keep.lean ====
/-
  Which buffers pass unchanged across the items of the program. A stretch of host operations changes only the buffers
  its operations write; a kernel region changes only its result buffer. So an argument is as launched wherever it is
  read, the two edge index vectors and the values computed between the regions survive to the regions that consume
  them, and right after a region its result buffer holds what the region's write-backs left.
-/
import proofs.«425859_j79671643341337_2_alg».proof.Proof.KI.Conts

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-! ## One item at a time: a buffer the item does not write keeps its contents -/

theorem X1_of (c : Dev nD) (r : Ref sig .tc) (h : r ∉ hostOps0_W) : X1 m c (Proc.devRef .tc r) = V0 m c (Proc.devRef .tc r) :=
  (congrFun (X1_def m c) _).trans (StableHlo.after_of_writes_sub hostOps0 _ hostOps0_writes h)
theorem X2_of (c : Dev nD) (r : Ref sig .tc) (h : r ≠ main_v5) : X2 m c (Proc.devRef .tc r) = X1 m c (Proc.devRef .tc r) :=
  (congrFun (X2_def m c) _).trans (upd_off (X1 m c) main_v5 r (o2 m c) h)
theorem X3_of (c : Dev nD) (r : Ref sig .tc) (h : r ∉ hostOps1_W) : X3 m c (Proc.devRef .tc r) = X2 m c (Proc.devRef .tc r) :=
  (congrFun (X3_def m c) _).trans (StableHlo.after_of_writes_sub hostOps1 _ hostOps1_writes h)
theorem X4_of (c : Dev nD) (r : Ref sig .tc) (h : r ∉ hostOps1_1_W) : X4 m c (Proc.devRef .tc r) = X3 m c (Proc.devRef .tc r) :=
  (congrFun (X4_def m c) _).trans (StableHlo.after_of_writes_sub hostOps1_1 _ hostOps1_1_writes h)
theorem X5_of (c : Dev nD) (r : Ref sig .tc) (h : r ∉ hostOps1_2_W) : X5 m c (Proc.devRef .tc r) = X4 m c (Proc.devRef .tc r) :=
  (congrFun (X5_def m c) _).trans (StableHlo.after_of_writes_sub hostOps1_2 _ hostOps1_2_writes h)
theorem X6_of (c : Dev nD) (r : Ref sig .tc) (h : r ≠ main_v32) : X6 m c (Proc.devRef .tc r) = X5 m c (Proc.devRef .tc r) :=
  (congrFun (X6_def m c) _).trans (upd_off (X5 m c) main_v32 r (o6 m c) h)
theorem X7_of (c : Dev nD) (r : Ref sig .tc) (h : r ∉ hostOps2_W) : X7 m c (Proc.devRef .tc r) = X6 m c (Proc.devRef .tc r) :=
  (congrFun (X7_def m c) _).trans (StableHlo.after_of_writes_sub hostOps2 _ hostOps2_writes h)
theorem X8_of (c : Dev nD) (r : Ref sig .tc) (h : r ∉ hostOps2_1_W) : X8 m c (Proc.devRef .tc r) = X7 m c (Proc.devRef .tc r) :=
  (congrFun (X8_def m c) _).trans (StableHlo.after_of_writes_sub hostOps2_1 _ hostOps2_1_writes h)
theorem X9_of (c : Dev nD) (r : Ref sig .tc) (h : r ∉ hostOps2_2_W) : X9 m c (Proc.devRef .tc r) = X8 m c (Proc.devRef .tc r) :=
  (congrFun (X9_def m c) _).trans (StableHlo.after_of_writes_sub hostOps2_2 _ hostOps2_2_writes h)
theorem X10_of (c : Dev nD) (r : Ref sig .tc) (h : r ≠ main_v51) : X10 m c (Proc.devRef .tc r) = X9 m c (Proc.devRef .tc r) :=
  (congrFun (X10_def m c) _).trans (upd_off (X9 m c) main_v51 r (o10 m c) h)
theorem X11_of (c : Dev nD) (r : Ref sig .tc) (h : r ∉ hostOps3_W) : X11 m c (Proc.devRef .tc r) = X10 m c (Proc.devRef .tc r) :=
  (congrFun (X11_def m c) _).trans (StableHlo.after_of_writes_sub hostOps3 _ hostOps3_writes h)
theorem X12_of (c : Dev nD) (r : Ref sig .tc) (h : r ≠ main_v60) : X12 m c (Proc.devRef .tc r) = X11 m c (Proc.devRef .tc r) :=
  (congrFun (X12_def m c) _).trans (upd_off (X11 m c) main_v60 r (o12 m c) h)

/-! ## An argument is as launched where it is read -/

theorem keep_X1_arg1 (c : Dev nD) : X1 m c (Proc.devRef .tc main_arg1) = m ((c : Thread nD τ).loc main_arg1) :=
  (X1_of m c main_arg1 (by decide)).trans <| rfl
theorem keep_X1_arg4 (c : Dev nD) : X1 m c (Proc.devRef .tc main_arg4) = m ((c : Thread nD τ).loc main_arg4) :=
  (X1_of m c main_arg4 (by decide)).trans <| rfl
theorem keep_X2_arg0 (c : Dev nD) : X2 m c (Proc.devRef .tc main_arg0) = m ((c : Thread nD τ).loc main_arg0) :=
  (X2_of m c main_arg0 (by decide)).trans <| (X1_of m c main_arg0 (by decide)).trans <| rfl
theorem keep_X4_arg7 (c : Dev nD) : X4 m c (Proc.devRef .tc main_arg7) = m ((c : Thread nD τ).loc main_arg7) :=
  (X4_of m c main_arg7 (by decide)).trans <| (X3_of m c main_arg7 (by decide)).trans <| (X2_of m c main_arg7 (by decide)).trans <| (X1_of m c main_arg7 (by decide)).trans <| rfl
theorem keep_X5_arg6 (c : Dev nD) : X5 m c (Proc.devRef .tc main_arg6) = m ((c : Thread nD τ).loc main_arg6) :=
  (X5_of m c main_arg6 (by decide)).trans <| (X4_of m c main_arg6 (by decide)).trans <| (X3_of m c main_arg6 (by decide)).trans <| (X2_of m c main_arg6 (by decide)).trans <| (X1_of m c main_arg6 (by decide)).trans <| rfl
theorem keep_X5_arg8 (c : Dev nD) : X5 m c (Proc.devRef .tc main_arg8) = m ((c : Thread nD τ).loc main_arg8) :=
  (X5_of m c main_arg8 (by decide)).trans <| (X4_of m c main_arg8 (by decide)).trans <| (X3_of m c main_arg8 (by decide)).trans <| (X2_of m c main_arg8 (by decide)).trans <| (X1_of m c main_arg8 (by decide)).trans <| rfl
theorem keep_X8_arg10 (c : Dev nD) : X8 m c (Proc.devRef .tc main_arg10) = m ((c : Thread nD τ).loc main_arg10) :=
  (X8_of m c main_arg10 (by decide)).trans <| (X7_of m c main_arg10 (by decide)).trans <| (X6_of m c main_arg10 (by decide)).trans <| (X5_of m c main_arg10 (by decide)).trans <| (X4_of m c main_arg10 (by decide)).trans <| (X3_of m c main_arg10 (by decide)).trans <| (X2_of m c main_arg10 (by decide)).trans <| (X1_of m c main_arg10 (by decide)).trans <| rfl
theorem keep_X9_arg9 (c : Dev nD) : X9 m c (Proc.devRef .tc main_arg9) = m ((c : Thread nD τ).loc main_arg9) :=
  (X9_of m c main_arg9 (by decide)).trans <| (X8_of m c main_arg9 (by decide)).trans <| (X7_of m c main_arg9 (by decide)).trans <| (X6_of m c main_arg9 (by decide)).trans <| (X5_of m c main_arg9 (by decide)).trans <| (X4_of m c main_arg9 (by decide)).trans <| (X3_of m c main_arg9 (by decide)).trans <| (X2_of m c main_arg9 (by decide)).trans <| (X1_of m c main_arg9 (by decide)).trans <| rfl
theorem keep_X9_arg11 (c : Dev nD) : X9 m c (Proc.devRef .tc main_arg11) = m ((c : Thread nD τ).loc main_arg11) :=
  (X9_of m c main_arg11 (by decide)).trans <| (X8_of m c main_arg11 (by decide)).trans <| (X7_of m c main_arg11 (by decide)).trans <| (X6_of m c main_arg11 (by decide)).trans <| (X5_of m c main_arg11 (by decide)).trans <| (X4_of m c main_arg11 (by decide)).trans <| (X3_of m c main_arg11 (by decide)).trans <| (X2_of m c main_arg11 (by decide)).trans <| (X1_of m c main_arg11 (by decide)).trans <| rfl
theorem keep_X10_arg3 (c : Dev nD) : X10 m c (Proc.devRef .tc main_arg3) = m ((c : Thread nD τ).loc main_arg3) :=
  (X10_of m c main_arg3 (by decide)).trans <| (X9_of m c main_arg3 (by decide)).trans <| (X8_of m c main_arg3 (by decide)).trans <| (X7_of m c main_arg3 (by decide)).trans <| (X6_of m c main_arg3 (by decide)).trans <| (X5_of m c main_arg3 (by decide)).trans <| (X4_of m c main_arg3 (by decide)).trans <| (X3_of m c main_arg3 (by decide)).trans <| (X2_of m c main_arg3 (by decide)).trans <| (X1_of m c main_arg3 (by decide)).trans <| rfl
theorem keep_X10_arg13 (c : Dev nD) : X10 m c (Proc.devRef .tc main_arg13) = m ((c : Thread nD τ).loc main_arg13) :=
  (X10_of m c main_arg13 (by decide)).trans <| (X9_of m c main_arg13 (by decide)).trans <| (X8_of m c main_arg13 (by decide)).trans <| (X7_of m c main_arg13 (by decide)).trans <| (X6_of m c main_arg13 (by decide)).trans <| (X5_of m c main_arg13 (by decide)).trans <| (X4_of m c main_arg13 (by decide)).trans <| (X3_of m c main_arg13 (by decide)).trans <| (X2_of m c main_arg13 (by decide)).trans <| (X1_of m c main_arg13 (by decide)).trans <| rfl
theorem keep_X11_arg12 (c : Dev nD) : X11 m c (Proc.devRef .tc main_arg12) = m ((c : Thread nD τ).loc main_arg12) :=
  (X11_of m c main_arg12 (by decide)).trans <| (X10_of m c main_arg12 (by decide)).trans <| (X9_of m c main_arg12 (by decide)).trans <| (X8_of m c main_arg12 (by decide)).trans <| (X7_of m c main_arg12 (by decide)).trans <| (X6_of m c main_arg12 (by decide)).trans <| (X5_of m c main_arg12 (by decide)).trans <| (X4_of m c main_arg12 (by decide)).trans <| (X3_of m c main_arg12 (by decide)).trans <| (X2_of m c main_arg12 (by decide)).trans <| (X1_of m c main_arg12 (by decide)).trans <| rfl

/-! ## The edge index vectors survive to the regions that read them -/

theorem keep_X2_v1 (c : Dev nD) : X2 m c (Proc.devRef .tc main_v1) = X1 m c (Proc.devRef .tc main_v1) :=
  (X2_of m c main_v1 (by decide))
theorem keep_X2_v3 (c : Dev nD) : X2 m c (Proc.devRef .tc main_v3) = X1 m c (Proc.devRef .tc main_v3) :=
  (X2_of m c main_v3 (by decide))
theorem keep_X6_v1 (c : Dev nD) : X6 m c (Proc.devRef .tc main_v1) = X1 m c (Proc.devRef .tc main_v1) :=
  (X6_of m c main_v1 (by decide)).trans <| (X5_of m c main_v1 (by decide)).trans <| (X4_of m c main_v1 (by decide)).trans <| (X3_of m c main_v1 (by decide)).trans <| (X2_of m c main_v1 (by decide))
theorem keep_X6_v3 (c : Dev nD) : X6 m c (Proc.devRef .tc main_v3) = X1 m c (Proc.devRef .tc main_v3) :=
  (X6_of m c main_v3 (by decide)).trans <| (X5_of m c main_v3 (by decide)).trans <| (X4_of m c main_v3 (by decide)).trans <| (X3_of m c main_v3 (by decide)).trans <| (X2_of m c main_v3 (by decide))

/-! ## Values computed between the regions survive to where they are consumed -/

theorem keep_X6_v13 (c : Dev nD) : X6 m c (Proc.devRef .tc main_v13) = X3 m c (Proc.devRef .tc main_v13) :=
  (X6_of m c main_v13 (by decide)).trans <| (X5_of m c main_v13 (by decide)).trans <| (X4_of m c main_v13 (by decide))
theorem keep_X5_v9 (c : Dev nD) : X5 m c (Proc.devRef .tc main_v9) = X3 m c (Proc.devRef .tc main_v9) :=
  (X5_of m c main_v9 (by decide)).trans <| (X4_of m c main_v9 (by decide))
theorem keep_X5_v30 (c : Dev nD) : X5 m c (Proc.devRef .tc main_v30) = X4 m c (Proc.devRef .tc main_v30) :=
  (X5_of m c main_v30 (by decide))
theorem keep_X9_v32 (c : Dev nD) : X9 m c (Proc.devRef .tc main_v32) = X6 m c (Proc.devRef .tc main_v32) :=
  (X9_of m c main_v32 (by decide)).trans <| (X8_of m c main_v32 (by decide)).trans <| (X7_of m c main_v32 (by decide))
theorem keep_X9_v49 (c : Dev nD) : X9 m c (Proc.devRef .tc main_v49) = X8 m c (Proc.devRef .tc main_v49) :=
  (X9_of m c main_v49 (by decide))
theorem keep_X11_v51 (c : Dev nD) : X11 m c (Proc.devRef .tc main_v51) = X10 m c (Proc.devRef .tc main_v51) :=
  (X11_of m c main_v51 (by decide))

/-! ## A region's result buffer right after it -/

theorem at_X2_v5 (c : Dev nD) : X2 m c (Proc.devRef .tc main_v5) = o2 m c :=
  (congrFun (X2_def m c) _).trans (upd_at (X1 m c) main_v5 (o2 m c))
theorem at_X6_v32 (c : Dev nD) : X6 m c (Proc.devRef .tc main_v32) = o6 m c :=
  (congrFun (X6_def m c) _).trans (upd_at (X5 m c) main_v32 (o6 m c))
theorem at_X10_v51 (c : Dev nD) : X10 m c (Proc.devRef .tc main_v51) = o10 m c :=
  (congrFun (X10_def m c) _).trans (upd_at (X9 m c) main_v51 (o10 m c))
theorem at_X12_v60 (c : Dev nD) : X12 m c (Proc.devRef .tc main_v60) = o12 m c :=
  (congrFun (X12_def m c) _).trans (upd_at (X11 m c) main_v60 (o12 m c))

end Cert.KernelIdeal.Fr

end
-- ==== Proof.LibReshapeBcast.lean ====
/-
  A reshape that only inserts a unit axis is a broadcast along the other axis.

  A vector of `n` elements can be made a one-row matrix `[1, n]` or a one-column matrix `[n, 1]` in two ways: by a
  shape cast (the same elements in row-major order under the new shape) or by a `broadcast_in_dim` that sends the
  vector's axis to the matrix's long axis. Both read, at entry `(0, j)` of the row (at `(r, 0)` of the column), element
  `j` (element `r`) of the vector, so they are the same array. These are facts about indices only: they hold for
  elements of any type.
-/
import Idealize.ShloMosaic.Lib.ValueLayout

namespace Cert.Lib

open Idealize.ShloMosaic Idealize.ShloMosaic.ValueIdx

variable {α : Type}

/-! ## Each operation read at an entry -/

/-- An `[a]` array cast to the column `[a, 1]` reads, at `(i, u)`, the operand at `i`, whatever the unit coordinate `u`:
    the row-major position of `(i, u)` in `[a, 1]` is `i * 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array broadcast to the row `[1, a]` along axis 1 reads, at `(u, i)`, the operand at `i`. (When `a = 1` the
    operand's axis counts as a stretched one and is read at `0`, which is then the only coordinate there is.) -/
theorem broadcastInDim_a_1a_apply {a : ℕ} (x : (⟨1, ![a]⟩ : Shape).Idx → α)
    (h : (⟨1, ![a]⟩ : Shape).BroadcastsInDim ⟨2, ![1, a]⟩ ![1]) (u : Fin 1) (i : Fin a) :
    broadcastInDim ⟨2, ![1, a]⟩ ![1] h x (ix2 u i) = x (ix1 i) := by
  refine broadcastInDim_apply _ h x (ix2 u i) (ix1 i) fun ax => ?_
  match ax with
  | ⟨0, _⟩ =>
    show i.val = if a = 1 then 0 else i.val
    split
    · have := i.isLt; omega
    · rfl

/-- An `[a]` array broadcast to the column `[a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## The two arrays are equal -/

/-- ROW. A vector of `n` elements reshaped to `[1, n]` is the vector broadcast to `[1, n]` along axis 1: entry `(0, j)` of
    both is element `j`. -/
theorem shapeCast_a_1a_eq_broadcastInDim {n : ℕ} (x : (⟨1, ![n]⟩ : Shape).Idx → α)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ x h = broadcastInDim ⟨2, ![1, n]⟩ ![1] h' x := by
  funext j
  obtain ⟨u, i, rfl⟩ : ∃ u i, j = ix2 u i := ⟨_, _, eq_ix2 j⟩
  rw [shapeCast_a_1a_apply, broadcastInDim_a_1a_apply]

/-- COLUMN. A vector of `n` elements reshaped to `[n, 1]` is the vector broadcast to `[n, 1]` along axis 0: entry `(r, 0)`
    of both is element `r`. -/
theorem shapeCast_a_a1_eq_broadcastInDim {n : ℕ} (x : (⟨1, ![n]⟩ : Shape).Idx → α)
    (h : (⟨1, ![n]⟩ : Shape).ShapeCasts ⟨2, ![n, 1]⟩) (h' : (⟨1, ![n]⟩ : Shape).BroadcastsInDim ⟨2, ![n, 1]⟩ ![0]) :
    shapeCast ⟨2, ![n, 1]⟩ x h = broadcastInDim ⟨2, ![n, 1]⟩ ![0] h' x := by
  funext j
  obtain ⟨i, u, rfl⟩ : ∃ i u, j = ix2 i u := ⟨_, _, eq_ix2 j⟩
  rw [shapeCast_a_a1_apply, broadcastInDim_a_a1_apply]

/-! ## The same with each entry carried along an equation of element types

A host reshape writes each entry of its result carried along an equation between the operand's element type and the
result's. When the two are the same type the carrying is the identity (any two proofs of an equation are equal, and
carrying along `rfl` does nothing), so the array is still the broadcast. -/

/-- ROW, entries carried along `e = e`: still the broadcast along axis 1. -/
theorem shapeCast_a_1a_cast_eq_broadcastInDim {ι : Type} {Val : ι → Type} (e : ι) (he : e = e) {n : ℕ}
    (x : (⟨1, ![n]⟩ : Shape).Idx → Val e) (h : (⟨1, ![n]⟩ : Shape).ShapeCasts ⟨2, ![1, n]⟩)
    (h' : (⟨1, ![n]⟩ : Shape).BroadcastsInDim ⟨2, ![1, n]⟩ ![1]) :
    (fun i => he ▸ shapeCast ⟨2, ![1, n]⟩ x h i) = broadcastInDim ⟨2, ![1, n]⟩ ![1] h' x :=
  shapeCast_a_1a_eq_broadcastInDim x h h'

/-- COLUMN, entries carried along `e = e`: still the broadcast along axis 0. -/
theorem shapeCast_a_a1_cast_eq_broadcastInDim {ι : Type} {Val : ι → Type} (e : ι) (he : e = e) {n : ℕ}
    (x : (⟨1, ![n]⟩ : Shape).Idx → Val e) (h : (⟨1, ![n]⟩ : Shape).ShapeCasts ⟨2, ![n, 1]⟩)
    (h' : (⟨1, ![n]⟩ : Shape).BroadcastsInDim ⟨2, ![n, 1]⟩ ![0]) :
    (fun i => he ▸ shapeCast ⟨2, ![n, 1]⟩ x h i) = broadcastInDim ⟨2, ![n, 1]⟩ ![0] h' x :=
  shapeCast_a_a1_eq_broadcastInDim x h h'

/-! ## The sizes met -/

/-- A vector of 18 elements as a one-row matrix: the reshape is the broadcast along axis 1. -/
theorem reshape_1x18_eq_bcast (x : (⟨1, ![18]⟩ : Shape).Idx → α)
    (h : (⟨1, ![18]⟩ : Shape).ShapeCasts ⟨2, ![1, 18]⟩) (h' : (⟨1, ![18]⟩ : Shape).BroadcastsInDim ⟨2, ![1, 18]⟩ ![1]) :
    shapeCast ⟨2, ![1, 18]⟩ x h = broadcastInDim ⟨2, ![1, 18]⟩ ![1] h' x :=
  shapeCast_a_1a_eq_broadcastInDim x h h'

/-- A vector of 64 elements as a one-row matrix: the reshape is the broadcast along axis 1. -/
theorem reshape_1x64_eq_bcast (x : (⟨1, ![64]⟩ : Shape).Idx → α)
    (h : (⟨1, ![64]⟩ : Shape).ShapeCasts ⟨2, ![1, 64]⟩) (h' : (⟨1, ![64]⟩ : Shape).BroadcastsInDim ⟨2, ![1, 64]⟩ ![1]) :
    shapeCast ⟨2, ![1, 64]⟩ x h = broadcastInDim ⟨2, ![1, 64]⟩ ![1] h' x :=
  shapeCast_a_1a_eq_broadcastInDim x h h'

/-- A vector of 128 elements as a one-row matrix: the reshape is the broadcast along axis 1. -/
theorem reshape_1x128_eq_bcast (x : (⟨1, ![128]⟩ : Shape).Idx → α)
    (h : (⟨1, ![128]⟩ : Shape).ShapeCasts ⟨2, ![1, 128]⟩) (h' : (⟨1, ![128]⟩ : Shape).BroadcastsInDim ⟨2, ![1, 128]⟩ ![1]) :
    shapeCast ⟨2, ![1, 128]⟩ x h = broadcastInDim ⟨2, ![1, 128]⟩ ![1] h' x :=
  shapeCast_a_1a_eq_broadcastInDim x h h'

/-- A vector of 100000 elements as a one-column matrix: the reshape is the broadcast along axis 0. -/
theorem reshape_100000x1_eq_bcast (x : (⟨1, ![100000]⟩ : Shape).Idx → α)
    (h : (⟨1, ![100000]⟩ : Shape).ShapeCasts ⟨2, ![100000, 1]⟩)
    (h' : (⟨1, ![100000]⟩ : Shape).BroadcastsInDim ⟨2, ![100000, 1]⟩ ![0]) :
    shapeCast ⟨2, ![100000, 1]⟩ x h = broadcastInDim ⟨2, ![100000, 1]⟩ ![0] h' x :=
  shapeCast_a_a1_eq_broadcastInDim x h h'

end Cert.Lib
-- ==== Proof.KI.Glue.lean ====
/-
  The host operations between the kernel regions, stretch by stretch, against the reference program's stages. The two
  programs apply the same host operations around their differing parts, so each stretch of the kernel's program, started
  from buffers that hold the reference's earlier stage values, leaves the reference's next stage values: the stretch's
  operations composed (read back off the list of operations) are, term for term, the reference's definitions unfolded.
  The reference computes the in-degree twice and the kernel's program once; the two definitions unfold to one term.
  Stated at any float instance and over a variable valuation W (what the buffers hold when the stretch starts).
-/
import proofs.«425859_j79671643341337_2_alg».proof.Proof.Gen.KernelIdeal.Regions
import proofs.«425859_j79671643341337_2_alg».proof.Proof.RefRead
import Idealize.ShloMosaic.Lib.StableHlo.Run
import proofs.«425859_j79671643341337_2_alg».proof.Proof.LibReshapeBcast

noncomputable section

namespace Cert.Glue

open Idealize.ShloMosaic Idealize.ShloMosaic.TcCoe Idealize.SL.Sem Idealize.ShloMosaic.StableHlo
open Cert.KernelIdeal Cert.KernelIdeal.Gen
open Cert.ReferenceIdeal.Read

variable {F : FTy → Type} [FloatOps F] (W : Valuation τ sig (Elt F))

/-! ## The first stretch: source and destination ids as vectors -/

theorem src_ids (x2 : (⟨Cert.ReferenceIdeal.S2x1600000, .i32⟩ : BufTy).Contents (Elt F)) (h2 : W (Proc.devRef .tc main_arg2) = x2) :
    StableHlo.after hostOps0 W (Proc.devRef .tc main_v1) = val_main_v1 x2 := by
  after_results; rw [h2]; unfold val_main_v1 val_main_v0; rfl

theorem dst_ids (x2 : (⟨Cert.ReferenceIdeal.S2x1600000, .i32⟩ : BufTy).Contents (Elt F)) (h2 : W (Proc.devRef .tc main_arg2) = x2) :
    StableHlo.after hostOps0 W (Proc.devRef .tc main_v3) = val_main_v3 x2 := by
  after_results; rw [h2]; unfold val_main_v3 val_main_v2; rfl

/-! ## The stretch after the edge projection: node features plus the scattered edge update, the in-degree, the neighbour mean -/

/-- x + Σ of the edge updates landing on each source node. -/
theorem nodes1 (x0 : (⟨Cert.ReferenceIdeal.S100000x18, .f32⟩ : BufTy).Contents (Elt F)) (x1 : (⟨Cert.ReferenceIdeal.S1600000x22, .f32⟩ : BufTy).Contents (Elt F)) (x2 : (⟨Cert.ReferenceIdeal.S2x1600000, .i32⟩ : BufTy).Contents (Elt F)) (x4 : (⟨Cert.ReferenceIdeal.S22x18, .f32⟩ : BufTy).Contents (Elt F)) (x5 : (⟨Cert.ReferenceIdeal.S18, .f32⟩ : BufTy).Contents (Elt F))
    (h0 : W (Proc.devRef .tc main_arg0) = x0) (h1 : W (Proc.devRef .tc main_v1) = val_main_v1 x2) (h5 : W (Proc.devRef .tc main_v5) = val_main_v7 x1 x4 x5) :
    StableHlo.after hostOps1 W (Proc.devRef .tc main_v9) = val_main_v11 x0 x1 x2 x4 x5 := by
  after_results; rw [h0, h1, h5]
  unfold val_main_v11 val_main_v10 val_main_v9 val_main_v8 val_main_cst; rfl

/-- The in-degree of every node (the count of edges whose destination it is). -/
theorem indeg (x2 : (⟨Cert.ReferenceIdeal.S2x1600000, .i32⟩ : BufTy).Contents (Elt F)) (h3 : W (Proc.devRef .tc main_v3) = val_main_v3 x2) :
    StableHlo.after hostOps1 W (Proc.devRef .tc main_v13) = val_main_v25 x2 := by
  after_results; rw [h3]
  unfold val_main_v25 val_main_v24 val_main_v23 val_main_cst_3 val_main_v22 val_main_cst_2; rfl

/-- Where the in-degree is positive. -/
theorem indeg_pos (x2 : (⟨Cert.ReferenceIdeal.S2x1600000, .i32⟩ : BufTy).Contents (Elt F)) (h3 : W (Proc.devRef .tc main_v3) = val_main_v3 x2) :
    StableHlo.after hostOps1 W (Proc.devRef .tc main_v25) = val_main_v27 x2 := by
  after_results; rw [h3]
  unfold val_main_v27 val_main_v26 val_main_cst_4 val_main_v25 val_main_v24 val_main_v23 val_main_cst_3 val_main_v22 val_main_cst_2; rfl

set_option maxHeartbeats 8000000 in
/-- The neighbour sum over max(in-degree, 1), before the mask. -/
theorem mean1_raw (x0 : (⟨Cert.ReferenceIdeal.S100000x18, .f32⟩ : BufTy).Contents (Elt F)) (x1 : (⟨Cert.ReferenceIdeal.S1600000x22, .f32⟩ : BufTy).Contents (Elt F)) (x2 : (⟨Cert.ReferenceIdeal.S2x1600000, .i32⟩ : BufTy).Contents (Elt F)) (x4 : (⟨Cert.ReferenceIdeal.S22x18, .f32⟩ : BufTy).Contents (Elt F)) (x5 : (⟨Cert.ReferenceIdeal.S18, .f32⟩ : BufTy).Contents (Elt F))
    (h0 : W (Proc.devRef .tc main_arg0) = x0) (h1 : W (Proc.devRef .tc main_v1) = val_main_v1 x2) (h3 : W (Proc.devRef .tc main_v3) = val_main_v3 x2) (h5 : W (Proc.devRef .tc main_v5) = val_main_v7 x1 x4 x5) :
    StableHlo.after hostOps1 W (Proc.devRef .tc main_v29) = val_main_v31 x0 x1 x2 x4 x5 := by
  after_results; rw [h0, h1, h3, h5]
  unfold val_main_v31 val_main_v30 val_main_v29 val_main_v28 val_main_cst_5 val_main_v25 val_main_v24 val_main_v23 val_main_cst_3 val_main_v22 val_main_cst_2
    val_main_v21 val_main_v20 val_main_v19 val_main_cst_1 val_main_v18 val_main_v17 val_main_v16 val_main_v15 val_main_v14 val_main_c_0 val_main_v13 val_main_v12 val_main_c
    val_main_v11 val_main_v10 val_main_v9 val_main_v8 val_main_cst
  rfl

theorem zero6 : StableHlo.after hostOps1 W (Proc.devRef .tc main_cst_6) = val_main_cst_6 (F := F) := by
  after_results; unfold val_main_cst_6; rfl

/-- The mask: the mean where the in-degree is positive, zero elsewhere (jnp.where inlined). -/
theorem mean1 (x0 : (⟨Cert.ReferenceIdeal.S100000x18, .f32⟩ : BufTy).Contents (Elt F)) (x1 : (⟨Cert.ReferenceIdeal.S1600000x22, .f32⟩ : BufTy).Contents (Elt F)) (x2 : (⟨Cert.ReferenceIdeal.S2x1600000, .i32⟩ : BufTy).Contents (Elt F)) (x4 : (⟨Cert.ReferenceIdeal.S22x18, .f32⟩ : BufTy).Contents (Elt F)) (x5 : (⟨Cert.ReferenceIdeal.S18, .f32⟩ : BufTy).Contents (Elt F))
    (h25 : W (Proc.devRef .tc main_v25) = val_main_v27 x2) (h29 : W (Proc.devRef .tc main_v29) = val_main_v31 x0 x1 x2 x4 x5) (h6 : W (Proc.devRef .tc main_cst_6) = val_main_cst_6) :
    StableHlo.after hostOps1_1 W (Proc.devRef .tc main_v30) = val_main_v32 x0 x1 x2 x4 x5 := by
  after_results; simp only [TRef.ofBuf, TRef.toBuf, cast_eq]; rw [h25, h29, h6]
  unfold val_main_v32 val_main_call0_v1 val_main_call0_v2 val_main_call0_v0; rfl

/-! ## The stretch after the first combine: the same over 64 channels, the in-degree reused -/

theorem indeg_pos2 (x2 : (⟨Cert.ReferenceIdeal.S2x1600000, .i32⟩ : BufTy).Contents (Elt F)) (h13 : W (Proc.devRef .tc main_v13) = val_main_v25 x2) :
    StableHlo.after hostOps2 W (Proc.devRef .tc main_v44) = val_main_v55 x2 := by
  after_results; rw [h13]
  unfold val_main_v55 val_main_v54 val_main_cst_12 val_main_v53 val_main_v52 val_main_v51 val_main_cst_11 val_main_v50 val_main_cst_10
    val_main_v25 val_main_v24 val_main_v23 val_main_cst_3 val_main_v22 val_main_cst_2
  rfl

set_option maxHeartbeats 8000000 in
theorem mean2_raw (x0 : (⟨Cert.ReferenceIdeal.S100000x18, .f32⟩ : BufTy).Contents (Elt F)) (x1 : (⟨Cert.ReferenceIdeal.S1600000x22, .f32⟩ : BufTy).Contents (Elt F)) (x2 : (⟨Cert.ReferenceIdeal.S2x1600000, .i32⟩ : BufTy).Contents (Elt F)) (x4 : (⟨Cert.ReferenceIdeal.S22x18, .f32⟩ : BufTy).Contents (Elt F)) (x5 : (⟨Cert.ReferenceIdeal.S18, .f32⟩ : BufTy).Contents (Elt F)) (x6 : (⟨Cert.ReferenceIdeal.S18x64, .f32⟩ : BufTy).Contents (Elt F)) (x7 : (⟨Cert.ReferenceIdeal.S64, .f32⟩ : BufTy).Contents (Elt F)) (x8 : (⟨Cert.ReferenceIdeal.S18x64, .f32⟩ : BufTy).Contents (Elt F))
    (h1 : W (Proc.devRef .tc main_v1) = val_main_v1 x2) (h3 : W (Proc.devRef .tc main_v3) = val_main_v3 x2) (h13 : W (Proc.devRef .tc main_v13) = val_main_v25 x2)
    (h32 : W (Proc.devRef .tc main_v32) = val_main_v39 x0 x1 x2 x4 x5 x6 x7 x8) :
    StableHlo.after hostOps2 W (Proc.devRef .tc main_v48) = val_main_v59 x0 x1 x2 x4 x5 x6 x7 x8 := by
  after_results; rw [h1, h3, h13, h32]
  unfold val_main_v59 val_main_v58 val_main_v57 val_main_v56 val_main_cst_13 val_main_v53 val_main_v52 val_main_v51 val_main_cst_11 val_main_v50 val_main_cst_10
    val_main_v49 val_main_v48 val_main_v47 val_main_cst_9 val_main_v46 val_main_v45 val_main_v44 val_main_v43 val_main_v42 val_main_c_8 val_main_v41 val_main_v40 val_main_c_7
    val_main_v25 val_main_v24 val_main_v23 val_main_cst_3 val_main_v22 val_main_cst_2
  rfl

theorem zero12 : StableHlo.after hostOps2 W (Proc.devRef .tc main_cst_12) = val_main_cst_14 (F := F) := by
  after_results; unfold val_main_cst_14; rfl

theorem mean2 (x0 : (⟨Cert.ReferenceIdeal.S100000x18, .f32⟩ : BufTy).Contents (Elt F)) (x1 : (⟨Cert.ReferenceIdeal.S1600000x22, .f32⟩ : BufTy).Contents (Elt F)) (x2 : (⟨Cert.ReferenceIdeal.S2x1600000, .i32⟩ : BufTy).Contents (Elt F)) (x4 : (⟨Cert.ReferenceIdeal.S22x18, .f32⟩ : BufTy).Contents (Elt F)) (x5 : (⟨Cert.ReferenceIdeal.S18, .f32⟩ : BufTy).Contents (Elt F)) (x6 : (⟨Cert.ReferenceIdeal.S18x64, .f32⟩ : BufTy).Contents (Elt F)) (x7 : (⟨Cert.ReferenceIdeal.S64, .f32⟩ : BufTy).Contents (Elt F)) (x8 : (⟨Cert.ReferenceIdeal.S18x64, .f32⟩ : BufTy).Contents (Elt F))
    (h44 : W (Proc.devRef .tc main_v44) = val_main_v55 x2) (h48 : W (Proc.devRef .tc main_v48) = val_main_v59 x0 x1 x2 x4 x5 x6 x7 x8) (h12 : W (Proc.devRef .tc main_cst_12) = val_main_cst_14) :
    StableHlo.after hostOps2_1 W (Proc.devRef .tc main_v49) = val_main_v60 x0 x1 x2 x4 x5 x6 x7 x8 := by
  after_results; simp only [TRef.ofBuf, TRef.toBuf, cast_eq]; rw [h44, h48, h12]
  unfold val_main_v60 val_main_call2_v1 val_main_call2_v2 val_main_call2_v0; rfl

/-! ## The last stretch: the node count of every graph id, at least one -/

theorem counts (x3 : (⟨Cert.ReferenceIdeal.S100000, .i32⟩ : BufTy).Contents (Elt F)) (h3 : W (Proc.devRef .tc main_arg3) = x3) :
    StableHlo.after hostOps3 W (Proc.devRef .tc main_v57) = val_main_v76 x3 := by
  after_results; rw [h3]
  unfold val_main_v76 val_main_v75 val_main_cst_18 val_main_v74 val_main_v73 val_main_v72 val_main_cst_17 val_main_v71 val_main_cst_16; rfl

/-! ## A vector as a one-row or one-column matrix: the kernel's program reshapes where the reference broadcasts along the
    other axis; entry by entry the two are the same array -/

theorem bias_row0 (x5 : (⟨Cert.ReferenceIdeal.S18, .f32⟩ : BufTy).Contents (Elt F)) (h5 : W (Proc.devRef .tc main_arg5) = x5) :
    StableHlo.after hostOps0 W (Proc.devRef .tc main_v4) = val_main_v5 x5 := by
  subst h5; after_results; unfold val_main_v5; exact Cert.Lib.reshape_1x18_eq_bcast _ _ _

theorem bias_row1 (x7 : (⟨Cert.ReferenceIdeal.S64, .f32⟩ : BufTy).Contents (Elt F)) (h7 : W (Proc.devRef .tc main_arg7) = x7) :
    StableHlo.after hostOps1_2 W (Proc.devRef .tc main_v31) = val_main_v34 x7 := by
  subst h7; after_results; unfold val_main_v34; exact Cert.Lib.reshape_1x64_eq_bcast _ _ _

theorem bias_row2 (x10 : (⟨Cert.ReferenceIdeal.S64, .f32⟩ : BufTy).Contents (Elt F)) (h10 : W (Proc.devRef .tc main_arg10) = x10) :
    StableHlo.after hostOps2_2 W (Proc.devRef .tc main_v50) = val_main_v62 x10 := by
  subst h10; after_results; unfold val_main_v62; exact Cert.Lib.reshape_1x64_eq_bcast _ _ _

theorem ids_col (x3 : (⟨Cert.ReferenceIdeal.S100000, .i32⟩ : BufTy).Contents (Elt F)) (h3 : W (Proc.devRef .tc main_arg3) = x3) :
    StableHlo.after hostOps3 W (Proc.devRef .tc main_v58) = val_main_v69 x3 := by
  subst h3; after_results; unfold val_main_v69; exact Cert.Lib.reshape_100000x1_eq_bcast _ _ _

theorem bias_row3 (x13 : (⟨Cert.ReferenceIdeal.S128, .f32⟩ : BufTy).Contents (Elt F)) (h13 : W (Proc.devRef .tc main_arg13) = x13) :
    StableHlo.after hostOps3 W (Proc.devRef .tc main_v59) = val_main_v80 x13 := by
  subst h13; after_results; unfold val_main_v80; exact Cert.Lib.reshape_1x128_eq_bcast _ _ _

end Cert.Glue

end
-- ==== Proof.KI.Spec.lean ====
/-
  The four kernel regions as whole-array functions, each written with the reference program's own host operations
  and dimension records, so that the bridge between the two programs is a comparison of terms:
  G0  the edge projection          A · W + (bias row broadcast down the rows)
  G1, G2  the two SAGE combines    max(0, (M · Wl + bias row) + X · Wr)
  G3  the pooling and projection   ((Σ over the nodes of each graph id of X) / counts) · Pw + bias row.
-/
import proofs.«425859_j79671643341337_2_alg».proof.ReferenceIdeal
import Idealize.ShloMosaic.PureOps.Ideal

noncomputable section

namespace Cert.Spec

open Idealize.ShloMosaic Cert.ReferenceIdeal

variable {F : FTy → Type} [FloatOps F]
-- the reference program's stated side conditions: its dimension records and broadcast witnesses cite them
variable [Cert.ReferenceIdeal.Facts]
open Cert.ReferenceIdeal.Facts₀ Cert.ReferenceIdeal.Facts

/-- Edge rows times the weight, plus the 1×18 bias row on every row. -/
def G0 (A : FVec F S1600000x22 .f32) (W : FVec F S22x18 .f32) (B : FVec F S1x18 .f32) : FVec F S1600000x18 .f32 :=
  addf (Host.dotGeneral dot_S1600000x22_S22x18_S1600000x18_1_0_0_1_n_n none A W)
    (broadcastInDim S1600000x18 ![0, 1] bcast_S1x18_S1600000x18_0_1 B)

/-- The first SAGE combine: the positive part of (neighbour mean · Wl + bias row) + node · Wr. -/
def G1 (M X : FVec F S100000x18 .f32) (Wl : FVec F S18x64 .f32) (B : FVec F S1x64 .f32) (Wr : FVec F S18x64 .f32) : FVec F S100000x64 .f32 :=
  maximumf
    (addf (addf (Host.dotGeneral dot_S100000x18_S18x64_S100000x64_1_0_0_1_n_n none M Wl)
        (broadcastInDim S100000x64 ![0, 1] bcast_S1x64_S100000x64_0_1 B))
      (Host.dotGeneral dot_S100000x18_S18x64_S100000x64_1_0_0_1_n_n none X Wr))
    (broadcastInDim S100000x64 ![] bcast_S_S100000x64 (constant S_ .f32 0x00000000#32))

/-- The second SAGE combine: the same over 64 input channels. -/
def G2 (M X : FVec F S100000x64 .f32) (Wl : FVec F S64x64 .f32) (B : FVec F S1x64 .f32) (Wr : FVec F S64x64 .f32) : FVec F S100000x64 .f32 :=
  maximumf
    (addf (addf (Host.dotGeneral dot_S100000x64_S64x64_S100000x64_1_0_0_1_n_n none M Wl)
        (broadcastInDim S100000x64 ![0, 1] bcast_S1x64_S100000x64_0_1 B))
      (Host.dotGeneral dot_S100000x64_S64x64_S100000x64_1_0_0_1_n_n none X Wr))
    (broadcastInDim S100000x64 ![] bcast_S_S100000x64 (constant S_ .f32 0x00000000#32))

/-- Pooling and projection: per graph id the sum of its nodes' rows, over the count column, times Pw, plus the bias row. -/
def G3 (X : FVec F S100000x64 .f32) (Gid : IVec S100000x1 32) (Cnt : FVec F S64x1 .f32) (Pw : FVec F S64x128 .f32) (Pb : FVec F S1x128 .f32) : FVec F S64x128 .f32 :=
  addf
    (Host.dotGeneral dot_S64x64_S64x128_S64x128_1_0_0_1_n_n none
      (Host.divf
        (Host.scatterAdd scatter_S64x64_S100000x1_S100000x64_1_0_0_1
          (broadcastInDim S64x64 ![] bcast_S_S64x64 (constant S_ .f32 0x00000000#32)) Gid X)
        (broadcastInDim S64x64 ![0, 1] bcast_S64x1_S64x64_0_1 Cnt))
      Pw)
    (broadcastInDim S64x128 ![0, 1] bcast_S1x128_S64x128_0_1 Pb)

end Cert.Spec

end
-- ==== Proof.KI.Val0.lean ====
/-
  The value of the edge projection (the program's first kernel region) on the extended reals: the output array after the region is
  edge features · weight + (bias row on every row), as ONE function of the three arrays the region reads.
  Entry (r, j) of the output is written by the grid point t = r / 8000, whose 8000-row block holds row r at
  p = r − 8000·t; there the body leaves Σ_k A[8000·t + p, k] · W[k, j] + B[0, j] — its matrix product into a zero
  accumulator over the 22 feature columns, then the bias row broadcast down the block — and the specification's
  host product and broadcast read the same sum at (r, j). No algebraic law beyond 0 + x = x is used, so no
  finiteness is needed.
-/
import proofs.«425859_j79671643341337_2_alg».proof.Proof.KI.Reg0
import proofs.«425859_j79671643341337_2_alg».proof.Proof.KI.Spec
import proofs.«425859_j79671643341337_2_alg».proof.Proof.Gen.ReferenceIdeal
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.Val

open Idealize.ShloMosaic Idealize.ShloMosaic.TcCoe Idealize.SL.Sem Cert.KernelIdeal Cert.KernelIdeal.Gen Cert.KernelIdeal.Fr
open Idealize.ShloMosaic.ValueIdx
open Idealize.ShloMosaic.Pipeline (Dat)

/-! ## The block product at an entry -/

/-- The left operand's index on its row axis is the output's row. -/
theorem lhs_edge_0 (i : S8000x18.Idx) (q : dot_S8000x22_S22x18_S8000x18_1_0_0_1_n_n.contr.Idx) :
    (dot_S8000x22_S22x18_S8000x18_1_0_0_1_n_n.lhsIdx i q 0).val = (i 0).val := by
  unfold DotDims.lhsIdx
  rw [dif_neg (show ¬(0 : Fin S8000x22.rank) ∈ dot_S8000x22_S22x18_S8000x18_1_0_0_1_n_n.lhsBatch by decide),
    dif_pos (show (0 : Fin S8000x22.rank) ∈ dot_S8000x22_S22x18_S8000x18_1_0_0_1_n_n.lhsNonContracting by decide)]
  rfl
/-- The left operand's index on its column axis is the contraction position. -/
theorem lhs_edge_1 (i : S8000x18.Idx) (q : dot_S8000x22_S22x18_S8000x18_1_0_0_1_n_n.contr.Idx) :
    (dot_S8000x22_S22x18_S8000x18_1_0_0_1_n_n.lhsIdx i q 1).val = (q ⟨0, by decide⟩).val :=
  dot_S8000x22_S22x18_S8000x18_1_0_0_1_n_n.lhsIdx_val_of_single rfl i q
/-- The right operand's index on its row axis is the contraction position. -/
theorem rhs_edge_0 (i : S8000x18.Idx) (q : dot_S8000x22_S22x18_S8000x18_1_0_0_1_n_n.contr.Idx) :
    (dot_S8000x22_S22x18_S8000x18_1_0_0_1_n_n.rhsIdx i q 0).val = (q ⟨0, by decide⟩).val :=
  dot_S8000x22_S22x18_S8000x18_1_0_0_1_n_n.rhsIdx_val_of_single rfl i q
/-- The right operand's index on its column axis is the output's column. -/
theorem rhs_edge_1 (i : S8000x18.Idx) (q : dot_S8000x22_S22x18_S8000x18_1_0_0_1_n_n.contr.Idx) :
    (dot_S8000x22_S22x18_S8000x18_1_0_0_1_n_n.rhsIdx i q 1).val = (i 1).val := by
  unfold DotDims.rhsIdx
  rw [dif_neg (show ¬(1 : Fin S22x18.rank) ∈ dot_S8000x22_S22x18_S8000x18_1_0_0_1_n_n.rhsBatch by decide),
    dif_pos (show (1 : Fin S22x18.rank) ∈ dot_S8000x22_S22x18_S8000x18_1_0_0_1_n_n.rhsNonContracting by decide)]
  rfl

/-- The block's matrix product into a zero accumulator, at entry (p, q): the sum over the 22 feature columns of
    row p of the left block times column q of the weight. -/
theorem edgeMatmul_apply (x : FVec Ideal S8000x22 .bf16) (w : FVec Ideal S22x18 .bf16) (p : Fin 8000) (q : Fin 18) :
    matmul dot_S8000x22_S22x18_S8000x18_1_0_0_1_n_n none x w (constant (F := Ideal) S8000x18 .f32 0x00000000#32) (ix2 p q)
      = ∑ k : Fin 22, x (ix2 p k) * w (ix2 k q) := by
  show FloatOps.matmul dot_S8000x22_S22x18_S8000x18_1_0_0_1_n_n none x w (constant (F := Ideal) S8000x18 .f32 0x00000000#32) (ix2 p q) = _
  rw [Ideal.matmul_constant_zero_apply, ← Equiv.sum_comp (contrEquiv1 dot_S8000x22_S22x18_S8000x18_1_0_0_1_n_n 22 rfl rfl).symm]
  refine Finset.sum_congr rfl fun k _ => ?_
  have hk := contrEquiv1_symm_val dot_S8000x22_S22x18_S8000x18_1_0_0_1_n_n 22 rfl rfl k
  have el : dot_S8000x22_S22x18_S8000x18_1_0_0_1_n_n.lhsIdx (ix2 p q) ((contrEquiv1 dot_S8000x22_S22x18_S8000x18_1_0_0_1_n_n 22 rfl rfl).symm k) = ix2 p k :=
    funext fun a => Fin.ext (by
      match a with
      | ⟨0, _⟩ => exact lhs_edge_0 _ _
      | ⟨1, _⟩ => exact (lhs_edge_1 _ _).trans hk)
  have er : dot_S8000x22_S22x18_S8000x18_1_0_0_1_n_n.rhsIdx (ix2 p q) ((contrEquiv1 dot_S8000x22_S22x18_S8000x18_1_0_0_1_n_n 22 rfl rfl).symm k) = ix2 k q :=
    funext fun a => Fin.ext (by
      match a with
      | ⟨0, _⟩ => exact (rhs_edge_0 _ _).trans hk
      | ⟨1, _⟩ => exact rhs_edge_1 _ _)
  rw [el, er]

/-- The body's payload at entry (p, q) of the output block: row p of the edge block times column q of the weight,
    plus the bias row's entry q. The change of float format is the identity on the extended reals. -/
theorem edgePayload_apply (x0 : Vec Ideal S8000x22 .f32) (w : Vec Ideal S22x18 .f32) (b : Vec Ideal S1x18 .f32) (p : Fin 8000) (q : Fin 18) :
    k0_pay1 x0 w b (ix2 p q) = (∑ k : Fin 22, x0 (ix2 p k) * w (ix2 k q)) + b (ix2 (0 : Fin 1) q) := by
  unfold k0_pay1
  rw [shapeCast_self]
  show matmul dot_S8000x22_S22x18_S8000x18_1_0_0_1_n_n none (truncf .bf16 x0 bitsLt_bf16_f32) (truncf .bf16 w bitsLt_bf16_f32)
      (constant (F := Ideal) S8000x18 .f32 0x00000000#32) (ix2 p q) + broadcastTo S8000x18 b broadcasts_S1x18_S8000x18 (ix2 p q) = _
  rw [edgeMatmul_apply, broadcastTo_1b_ab_apply]
  rfl

/-! ## The whole-array product at an entry -/

/-- The left array's index on its row axis is the output's row. -/
theorem lhs_ref_0 (i : Cert.ReferenceIdeal.S1600000x18.Idx) (q : Cert.ReferenceIdeal.dot_S1600000x22_S22x18_S1600000x18_1_0_0_1_n_n.contr.Idx) :
    (Cert.ReferenceIdeal.dot_S1600000x22_S22x18_S1600000x18_1_0_0_1_n_n.lhsIdx i q 0).val = (i 0).val := by
  unfold DotDims.lhsIdx
  rw [dif_neg (show ¬(0 : Fin Cert.ReferenceIdeal.S1600000x22.rank) ∈ Cert.ReferenceIdeal.dot_S1600000x22_S22x18_S1600000x18_1_0_0_1_n_n.lhsBatch by decide),
    dif_pos (show (0 : Fin Cert.ReferenceIdeal.S1600000x22.rank) ∈ Cert.ReferenceIdeal.dot_S1600000x22_S22x18_S1600000x18_1_0_0_1_n_n.lhsNonContracting by decide)]
  rfl
/-- The left array's index on its column axis is the contraction position. -/
theorem lhs_ref_1 (i : Cert.ReferenceIdeal.S1600000x18.Idx) (q : Cert.ReferenceIdeal.dot_S1600000x22_S22x18_S1600000x18_1_0_0_1_n_n.contr.Idx) :
    (Cert.ReferenceIdeal.dot_S1600000x22_S22x18_S1600000x18_1_0_0_1_n_n.lhsIdx i q 1).val = (q ⟨0, by decide⟩).val :=
  Cert.ReferenceIdeal.dot_S1600000x22_S22x18_S1600000x18_1_0_0_1_n_n.lhsIdx_val_of_single rfl i q
/-- The weight's index on its row axis is the contraction position. -/
theorem rhs_ref_0 (i : Cert.ReferenceIdeal.S1600000x18.Idx) (q : Cert.ReferenceIdeal.dot_S1600000x22_S22x18_S1600000x18_1_0_0_1_n_n.contr.Idx) :
    (Cert.ReferenceIdeal.dot_S1600000x22_S22x18_S1600000x18_1_0_0_1_n_n.rhsIdx i q 0).val = (q ⟨0, by decide⟩).val :=
  Cert.ReferenceIdeal.dot_S1600000x22_S22x18_S1600000x18_1_0_0_1_n_n.rhsIdx_val_of_single rfl i q
/-- The weight's index on its column axis is the output's column. -/
theorem rhs_ref_1 (i : Cert.ReferenceIdeal.S1600000x18.Idx) (q : Cert.ReferenceIdeal.dot_S1600000x22_S22x18_S1600000x18_1_0_0_1_n_n.contr.Idx) :
    (Cert.ReferenceIdeal.dot_S1600000x22_S22x18_S1600000x18_1_0_0_1_n_n.rhsIdx i q 1).val = (i 1).val := by
  unfold DotDims.rhsIdx
  rw [dif_neg (show ¬(1 : Fin Cert.ReferenceIdeal.S22x18.rank) ∈ Cert.ReferenceIdeal.dot_S1600000x22_S22x18_S1600000x18_1_0_0_1_n_n.rhsBatch by decide),
    dif_pos (show (1 : Fin Cert.ReferenceIdeal.S22x18.rank) ∈ Cert.ReferenceIdeal.dot_S1600000x22_S22x18_S1600000x18_1_0_0_1_n_n.rhsNonContracting by decide)]
  rfl

/-- The edge projection's specification at entry (r, j): row r of the edge features times column j of the weight
    (the host's product is that sum on the extended reals), plus the bias row's entry j (the row broadcast down
    the 1 600 000 rows reads its one row everywhere). -/
theorem edgeSpec_apply (A : FVec Ideal Cert.ReferenceIdeal.S1600000x22 .f32) (W : FVec Ideal Cert.ReferenceIdeal.S22x18 .f32)
    (B : FVec Ideal Cert.ReferenceIdeal.S1x18 .f32) (r : Fin 1600000) (j : Fin 18) :
    Cert.Spec.G0 (F := Ideal) A W B (ix2 r j) = (∑ k : Fin 22, A (ix2 r k) * W (ix2 k j)) + B (ix2 (0 : Fin 1) j) := by
  unfold Cert.Spec.G0
  show FloatOps.dotGeneral Cert.ReferenceIdeal.dot_S1600000x22_S22x18_S1600000x18_1_0_0_1_n_n none .single A W (ix2 r j)
      + broadcastInDim Cert.ReferenceIdeal.S1600000x18 ![0, 1] Cert.ReferenceIdeal.Facts₀.bcast_S1x18_S1600000x18_0_1 B (ix2 r j) = _
  rw [Ideal.dotGeneral_apply, ← Equiv.sum_comp (contrEquiv1 Cert.ReferenceIdeal.dot_S1600000x22_S22x18_S1600000x18_1_0_0_1_n_n 22 rfl rfl).symm,
    broadcastInDim_apply _ _ B (ix2 r j) (ix2 (0 : Fin 1) j) (fun a => by
      match a with
      | ⟨0, _⟩ => rfl
      | ⟨1, _⟩ => rfl)]
  refine congrArg (· + B (ix2 (0 : Fin 1) j)) (Finset.sum_congr rfl fun k _ => ?_)
  have hk := contrEquiv1_symm_val Cert.ReferenceIdeal.dot_S1600000x22_S22x18_S1600000x18_1_0_0_1_n_n 22 rfl rfl k
  have el : Cert.ReferenceIdeal.dot_S1600000x22_S22x18_S1600000x18_1_0_0_1_n_n.lhsIdx (ix2 r j)
      ((contrEquiv1 Cert.ReferenceIdeal.dot_S1600000x22_S22x18_S1600000x18_1_0_0_1_n_n 22 rfl rfl).symm k) = ix2 r k :=
    funext fun a => Fin.ext (by
      match a with
      | ⟨0, _⟩ => exact lhs_ref_0 _ _
      | ⟨1, _⟩ => exact (lhs_ref_1 _ _).trans hk)
  have er : Cert.ReferenceIdeal.dot_S1600000x22_S22x18_S1600000x18_1_0_0_1_n_n.rhsIdx (ix2 r j)
      ((contrEquiv1 Cert.ReferenceIdeal.dot_S1600000x22_S22x18_S1600000x18_1_0_0_1_n_n 22 rfl rfl).symm k) = ix2 k j :=
    funext fun a => Fin.ext (by
      match a with
      | ⟨0, _⟩ => exact (rhs_ref_0 _ _).trans hk
      | ⟨1, _⟩ => exact rhs_ref_1 _ _)
  rw [el, er]

/-! ## The blocks as parts of the arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- The four index maps over the 200 grid points: the edge features' and the output's blocks move down the rows
    with the point, the weight's and the bias row's stay at the origin. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's edge block is row 8000·t + p of the edge features. -/
theorem edgeBlock_apply (c : Dev nD) (t : Fin cfg0.N) (p : Fin 8000) (k : Fin 22) (r : Fin 1600000) (hr : r.val = 8000 * t.val + p.val) :
    (iblk0 V c 0 t : Vec Ideal S8000x22 .f32) (ix2 p k) = (V c main_arg1 : S1600000x22.Idx → EReal) (ix2 r k) := by
  obtain ⟨e0, e1, -⟩ := blockIndex0 t
  show V c main_arg1 (((cfg0.win 0).blk t).view.emb (ix2 p k)) = V c main_arg1 (ix2 r k)
  refine congrArg (V c main_arg1) (funext fun a => Fin.ext ?_)
  match a with
  | ⟨0, _⟩ => show win0_0.index t (0 : Fin 2) * 8000 + 1 * p.val = r.val; omega
  | ⟨1, _⟩ => show win0_0.index t (1 : Fin 2) * 22 + 1 * k.val = k.val; omega

/-- The weight's block is the whole weight at every point. -/
theorem weightBlock_apply (c : Dev nD) (t : Fin cfg0.N) (k : Fin 22) (q : Fin 18) :
    (iblk0 V c 1 t : Vec Ideal S22x18 .f32) (ix2 k q) = (V c main_arg4 : S22x18.Idx → EReal) (ix2 k q) := by
  obtain ⟨-, -, e0, e1, -⟩ := blockIndex0 t
  show V c main_arg4 (((cfg0.win 1).blk t).view.emb (ix2 k q)) = V c main_arg4 (ix2 k q)
  refine congrArg (V c main_arg4) (funext fun a => Fin.ext ?_)
  match a with
  | ⟨0, _⟩ => show win0_1.index t (0 : Fin 2) * 22 + 1 * k.val = k.val; omega
  | ⟨1, _⟩ => show win0_1.index t (1 : Fin 2) * 18 + 1 * q.val = q.val; omega

/-- The bias row's block is the whole row at every point. -/
theorem biasBlock_apply (c : Dev nD) (t : Fin cfg0.N) (q : Fin 18) :
    (iblk0 V c 2 t : Vec Ideal S1x18 .f32) (ix2 (0 : Fin 1) q) = (V c main_v4 : S1x18.Idx → EReal) (ix2 (0 : Fin 1) q) := by
  obtain ⟨-, -, -, -, e0, e1, -⟩ := blockIndex0 t
  show V c main_v4 (((cfg0.win 2).blk t).view.emb (ix2 (0 : Fin 1) q)) = V c main_v4 (ix2 (0 : Fin 1) q)
  refine congrArg (V c main_v4) (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 18 + 1 * q.val = q.val; omega

/-- Entry (p, q) of point t's output block sits at row 8000·t + p of the output array. -/
theorem outBlock_emb (t : Fin cfg0.N) (p : Fin 8000) (q : Fin 18) (r : Fin 1600000) (hr : r.val = 8000 * t.val + p.val) :
    ((cfg0.win 3).blk t).view.emb (ix2 p q) = (ix2 r q : S1600000x18.Idx) := by
  obtain ⟨-, -, -, -, -, -, e0, e1⟩ := blockIndex0 t
  refine funext fun a => Fin.ext ?_
  match a with
  | ⟨0, _⟩ => show win0_3.index t (0 : Fin 2) * 8000 + 1 * p.val = r.val; omega
  | ⟨1, _⟩ => show win0_3.index t (1 : Fin 2) * 18 + 1 * q.val = q.val; omega

/-! ## What a point writes back, and the whole output -/

/-- Entry (p, q) of what point t leaves in the output's buffer is the specification at row 8000·t + p: both are
    that row of the edge features times column q of the weight, plus the bias row's entry q. -/
theorem outBlock_apply (c : Dev nD) (t : Fin cfg0.N) (p : Fin 8000) (q : Fin 18) (r : Fin 1600000) (hr : r.val = 8000 * t.val + p.val) :
    k0_pay1 (iblk0 V c 0 t) (iblk0 V c 1 t) (iblk0 V c 2 t) (ix2 p q)
      = Cert.Spec.G0 (F := Ideal) (V c main_arg1) (V c main_arg4) (V c main_v4) (ix2 r q) := by
  refine (edgePayload_apply (iblk0 V c 0 t) (iblk0 V c 1 t) (iblk0 V c 2 t) p q).trans ?_
  refine Eq.trans ?_ (edgeSpec_apply (V c main_arg1) (V c main_arg4) (V c main_v4) r q).symm
  rw [biasBlock_apply V c t q]
  refine congrArg (· + (V c main_v4 : S1x18.Idx → EReal) (ix2 (0 : Fin 1) q)) (Finset.sum_congr rfl fun k _ => ?_)
  rw [edgeBlock_apply V c t p k r hr, weightBlock_apply V c t k q]

/-- What point t writes back is block t of the specification of the arrays as the region finds them. -/
theorem flushed0_eq (c : Dev nD) (t : Fin cfg0.N) :
    (dat0 (F := Ideal) V c).flushed 3 t = ((cfg0.win 3).blk t).view.read (Elt Ideal)
      (Cert.Spec.G0 (F := Ideal) (V c main_arg1) (V c main_arg4) (V c main_v4)) := by
  show (cfg0.win 3).cut (grid0.coords t) ((dat0 V c).after 3 t) = _
  rw [after0_3]
  unfold out0_3
  rw [View.canon_unit_zero zero_offsets]
  simp only [View.ld_unit_zero (S := S8000x22) zero_offsets, View.ld_unit_zero (S := S22x18) zero_offsets, View.ld_unit_zero (S := S1x18) zero_offsets]
  funext y
  obtain ⟨p, q, rfl⟩ : ∃ (p : Fin 8000) (q : Fin 18), y = ix2 p q := ⟨y 0, y 1, eq_ix2 y⟩
  have ht : t.val < 200 := t.isLt
  show k0_pay1 (iblk0 V c 0 t) (iblk0 V c 1 t) (iblk0 V c 2 t) (ix2 p q)
      = Cert.Spec.G0 (F := Ideal) (V c main_arg1) (V c main_arg4) (V c main_v4) (((cfg0.win 3).blk t).view.emb (ix2 p q))
  rw [outBlock_emb t p q ⟨8000 * t.val + p.val, by have := p.isLt; omega⟩ rfl]
  exact outBlock_apply V c t p q _ rfl

/-- An index of the output array is in point t's block iff each coordinate is in the block's range on its axis. -/
theorem mem_outBlock (t : Fin cfg0.N) (i : S1600000x18.Idx) :
    i ∈ ((cfg0.win 3).blk t).view.set ↔ ∀ a : Fin 2, win0_3.index t a * S8000x18.size a ≤ (i a).val
      ∧ (i a).val < win0_3.index t a * S8000x18.size a + S8000x18.size a := by
  show i ∈ ((View.whole main_v5).slice (win0_3.rect t)).set ↔ _
  rw [View.set_slice_whole, Rect.mem_set_unit]
  exact Iff.rfl

/-- Row r of the output lies in the block of point r / 8000: the 200 blocks of 8000 rows tile the 1 600 000 rows. -/
theorem outBlock_cover (i : S1600000x18.Idx) :
    ∃ t : Fin cfg0.N, (cfg0.win 3).flush t = true ∧ i ∈ ((cfg0.win 3).blk t).view.set := by
  have hi0 : (i 0).val < 1600000 := (i 0).isLt
  have hi1 : (i 1).val < 18 := (i 1).isLt
  have hlt : (i 0).val / 8000 < 200 := by omega
  obtain ⟨-, -, -, -, -, -, e0, e1⟩ := blockIndex0 ⟨(i 0).val / 8000, hlt⟩
  have e0' : win0_3.index ⟨(i 0).val / 8000, hlt⟩ (0 : Fin 2) = (i 0).val / 8000 := e0
  refine ⟨⟨(i 0).val / 8000, hlt⟩, flush0_3 _, ?_⟩
  rw [mem_outBlock]
  intro a
  match a with
  | ⟨0, _⟩ =>
    show win0_3.index ⟨(i 0).val / 8000, hlt⟩ (0 : Fin 2) * 8000 ≤ (i 0).val
      ∧ (i 0).val < win0_3.index ⟨(i 0).val / 8000, hlt⟩ (0 : Fin 2) * 8000 + 8000
    omega
  | ⟨1, _⟩ =>
    show win0_3.index ⟨(i 0).val / 8000, hlt⟩ (1 : Fin 2) * 18 ≤ (i 1).val
      ∧ (i 1).val < win0_3.index ⟨(i 0).val / 8000, hlt⟩ (1 : Fin 2) * 18 + 18
    omega

/-- After the region the output array is the edge projection of the arrays as the region finds them: every entry
    is in some point's block, and each block written back is that block of the specification. -/
theorem final0 (c : Dev nD) :
    (dat0 (F := Ideal) V c).arrAt 3 cfg0.N = Cert.Spec.G0 (F := Ideal) (V c main_arg1) (V c main_arg4) (V c main_v4) :=
  (dat0 (F := Ideal) V c).arrAt_eq_of_cover 3 (Cert.Spec.G0 (F := Ideal) (V c main_arg1) (V c main_arg4) (V c main_v4))
    (fun t _ => flushed0_eq V c t) outBlock_cover

end Cert.KernelIdeal.Val

end
-- ==== Proof.KI.Val1.lean ====
/-
  The value of the first SAGE combine (a pallas_call of 50 grid points over 18 input channels): the output array after the
  run is, entry by entry, the larger of 0 and "(neighbour-mean row · first weight + bias row) + node row · second weight"
  of the five arrays as the region finds them, which is the reference's expression G1 of those arrays.
  The road: both sides at an index (row r, column q) are the same sum over the 18 channels — the block's two products
  accumulate into zero, the reference's dot_general has no accumulator, and the format changes are the identity on the
  extended reals; point t's two row blocks are rows 2000·t … 2000·t+1999 of their arrays and its weight and bias blocks
  are the whole arrays, so what point t writes back is block t of G1; the 50 output blocks tile the 100000 rows.
-/
import proofs.«425859_j79671643341337_2_alg».proof.Proof.KI.Reg1
import proofs.«425859_j79671643341337_2_alg».proof.Proof.KI.Spec
import proofs.«425859_j79671643341337_2_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.TcCoe Idealize.SL.Sem
open Idealize.ShloMosaic.ValueIdx
open Cert.KernelIdeal Cert.KernelIdeal.Gen Cert.KernelIdeal.Fr
open Idealize.ShloMosaic.Pipeline (Dat)
open scoped BigOperators

/-! ## The 18-deep contraction of a 2000-row block

The product's dimension numbers contract the left operand's columns with the right operand's rows: at output index
(p, q) and contraction position k the left operand is read at (p, k) and the right one at (k, q). -/

theorem lhsBlk18_0 (j : S2000x64.Idx) (k : dot_S2000x18_S18x64_S2000x64_1_0_0_1_n_n.contr.Idx) :
    (dot_S2000x18_S18x64_S2000x64_1_0_0_1_n_n.lhsIdx j k 0 : ℕ) = j 0 := by
  simp [DotDims.lhsIdx, dot_S2000x18_S18x64_S2000x64_1_0_0_1_n_n]; rfl
theorem lhsBlk18_1 (j : S2000x64.Idx) (k : dot_S2000x18_S18x64_S2000x64_1_0_0_1_n_n.contr.Idx) :
    (dot_S2000x18_S18x64_S2000x64_1_0_0_1_n_n.lhsIdx j k 1 : ℕ) = k ⟨0, by decide⟩ := by
  simp [DotDims.lhsIdx, dot_S2000x18_S18x64_S2000x64_1_0_0_1_n_n]; rfl
theorem rhsBlk18_0 (j : S2000x64.Idx) (k : dot_S2000x18_S18x64_S2000x64_1_0_0_1_n_n.contr.Idx) :
    (dot_S2000x18_S18x64_S2000x64_1_0_0_1_n_n.rhsIdx j k 0 : ℕ) = k ⟨0, by decide⟩ := by
  simp [DotDims.rhsIdx, dot_S2000x18_S18x64_S2000x64_1_0_0_1_n_n]; rfl
theorem rhsBlk18_1 (j : S2000x64.Idx) (k : dot_S2000x18_S18x64_S2000x64_1_0_0_1_n_n.contr.Idx) :
    (dot_S2000x18_S18x64_S2000x64_1_0_0_1_n_n.rhsIdx j k 1 : ℕ) = j 1 := by
  simp [DotDims.rhsIdx, dot_S2000x18_S18x64_S2000x64_1_0_0_1_n_n]; rfl

/-- A block product into the zero accumulator, at (p, q): the sum over the 18 channels of row p times column q. -/
theorem matmulBlk18_apply (a : FVec Ideal S2000x18 .bf16) (w : FVec Ideal S18x64 .bf16) (p : Fin 2000) (q : Fin 64) :
    matmul dot_S2000x18_S18x64_S2000x64_1_0_0_1_n_n none a w (constant (F := Ideal) S2000x64 .f32 0x00000000#32) (ix2 p q)
      = ∑ k : Fin 18, a (ix2 p k) * w (ix2 k q) := by
  refine (Ideal.matmul_constant_zero_apply dot_S2000x18_S18x64_S2000x64_1_0_0_1_n_n none a w (ix2 p q)).trans ?_
  rw [← Equiv.sum_comp (contrEquiv1 dot_S2000x18_S18x64_S2000x64_1_0_0_1_n_n 18 rfl rfl).symm]
  refine Finset.sum_congr rfl fun k _ => ?_
  have hk := contrEquiv1_symm_val dot_S2000x18_S18x64_S2000x64_1_0_0_1_n_n 18 rfl rfl k
  congr 2
  · funext ax; apply Fin.ext
    match ax with
    | ⟨0, _⟩ => exact lhsBlk18_0 _ _
    | ⟨1, _⟩ => exact (lhsBlk18_1 _ _).trans hk
  · funext ax; apply Fin.ext
    match ax with
    | ⟨0, _⟩ => exact (rhsBlk18_0 _ _).trans hk
    | ⟨1, _⟩ => exact rhsBlk18_1 _ _

/-! ## The 18-deep contraction of the whole 100000-row arrays -/

theorem lhsArr18_0 (j : Cert.ReferenceIdeal.S100000x64.Idx) (k : Cert.ReferenceIdeal.dot_S100000x18_S18x64_S100000x64_1_0_0_1_n_n.contr.Idx) :
    (Cert.ReferenceIdeal.dot_S100000x18_S18x64_S100000x64_1_0_0_1_n_n.lhsIdx j k 0 : ℕ) = j 0 := by
  simp [DotDims.lhsIdx, Cert.ReferenceIdeal.dot_S100000x18_S18x64_S100000x64_1_0_0_1_n_n]; rfl
theorem lhsArr18_1 (j : Cert.ReferenceIdeal.S100000x64.Idx) (k : Cert.ReferenceIdeal.dot_S100000x18_S18x64_S100000x64_1_0_0_1_n_n.contr.Idx) :
    (Cert.ReferenceIdeal.dot_S100000x18_S18x64_S100000x64_1_0_0_1_n_n.lhsIdx j k 1 : ℕ) = k ⟨0, by decide⟩ := by
  simp [DotDims.lhsIdx, Cert.ReferenceIdeal.dot_S100000x18_S18x64_S100000x64_1_0_0_1_n_n]; rfl
theorem rhsArr18_0 (j : Cert.ReferenceIdeal.S100000x64.Idx) (k : Cert.ReferenceIdeal.dot_S100000x18_S18x64_S100000x64_1_0_0_1_n_n.contr.Idx) :
    (Cert.ReferenceIdeal.dot_S100000x18_S18x64_S100000x64_1_0_0_1_n_n.rhsIdx j k 0 : ℕ) = k ⟨0, by decide⟩ := by
  simp [DotDims.rhsIdx, Cert.ReferenceIdeal.dot_S100000x18_S18x64_S100000x64_1_0_0_1_n_n]; rfl
theorem rhsArr18_1 (j : Cert.ReferenceIdeal.S100000x64.Idx) (k : Cert.ReferenceIdeal.dot_S100000x18_S18x64_S100000x64_1_0_0_1_n_n.contr.Idx) :
    (Cert.ReferenceIdeal.dot_S100000x18_S18x64_S100000x64_1_0_0_1_n_n.rhsIdx j k 1 : ℕ) = j 1 := by
  simp [DotDims.rhsIdx, Cert.ReferenceIdeal.dot_S100000x18_S18x64_S100000x64_1_0_0_1_n_n]; rfl

/-- The reference's product of the whole arrays, at (r, q): the same sum over the 18 channels. -/
theorem dotArr18_apply (a : FVec Ideal S100000x18 .f32) (w : FVec Ideal S18x64 .f32) (r : Fin 100000) (q : Fin 64) :
    Host.dotGeneral (F := Ideal) Cert.ReferenceIdeal.dot_S100000x18_S18x64_S100000x64_1_0_0_1_n_n none a w (ix2 r q)
      = ∑ k : Fin 18, a (ix2 r k) * w (ix2 k q) := by
  refine (Ideal.dotGeneral_apply Cert.ReferenceIdeal.dot_S100000x18_S18x64_S100000x64_1_0_0_1_n_n none .single a w (ix2 r q)).trans ?_
  rw [← Equiv.sum_comp (contrEquiv1 Cert.ReferenceIdeal.dot_S100000x18_S18x64_S100000x64_1_0_0_1_n_n 18 rfl rfl).symm]
  refine Finset.sum_congr rfl fun k _ => ?_
  have hk := contrEquiv1_symm_val Cert.ReferenceIdeal.dot_S100000x18_S18x64_S100000x64_1_0_0_1_n_n 18 rfl rfl k
  congr 2
  · funext ax; apply Fin.ext
    match ax with
    | ⟨0, _⟩ => exact lhsArr18_0 _ _
    | ⟨1, _⟩ => exact (lhsArr18_1 _ _).trans hk
  · funext ax; apply Fin.ext
    match ax with
    | ⟨0, _⟩ => exact (rhsArr18_0 _ _).trans hk
    | ⟨1, _⟩ => exact rhsArr18_1 _ _

/-! ## The bias row and the zero, broadcast over the whole array -/

/-- The 1×64 bias row broadcast down the 100000 rows reads, at (r, q), the row's entry q. -/
theorem biasArr_apply (B : FVec Ideal S1x64 .f32) (r : Fin 100000) (q : Fin 64) :
    broadcastInDim Cert.ReferenceIdeal.S100000x64 ![0, 1] Cert.ReferenceIdeal.Facts₀.bcast_S1x64_S100000x64_0_1 B (ix2 r q) = B (ix2 (0 : Fin 1) q) := by
  refine broadcastInDim_apply _ _ B (ix2 r q) (ix2 (0 : Fin 1) q) fun ax => ?_
  match ax with
  | ⟨0, _⟩ => rfl
  | ⟨1, _⟩ => rfl

/-- The scalar zero broadcast over the array reads the zero word's value everywhere. -/
theorem zeroArr_apply (i : Cert.ReferenceIdeal.S100000x64.Idx) :
    broadcastInDim Cert.ReferenceIdeal.S100000x64 ![] Cert.ReferenceIdeal.Facts₀.bcast_S_S100000x64 (constant (F := Ideal) Cert.ReferenceIdeal.S_ .f32 0x00000000#32) i
      = Ideal.ofBits .f32 0x00000000#32 := rfl

/-! ## The combine of the whole arrays, at an index -/

theorem G1_apply (M X : FVec Ideal S100000x18 .f32) (Wl : FVec Ideal S18x64 .f32) (B : FVec Ideal S1x64 .f32) (Wr : FVec Ideal S18x64 .f32)
    (r : Fin 100000) (q : Fin 64) :
    Cert.Spec.G1 (F := Ideal) M X Wl B Wr (ix2 r q)
      = max (((∑ k : Fin 18, M (ix2 r k) * Wl (ix2 k q)) + B (ix2 (0 : Fin 1) q)) + ∑ k : Fin 18, X (ix2 r k) * Wr (ix2 k q))
          (Ideal.ofBits .f32 0x00000000#32) := by
  unfold Cert.Spec.G1
  rw [maximumf_apply, addf_apply, addf_apply, dotArr18_apply, dotArr18_apply, biasArr_apply, zeroArr_apply]

/-! ## The block's payload, at an index -/

/-- The payload of the five loaded blocks at (p, q): the casts of a shape to itself and the changes of format are the
    identity, each product is the sum over the channels, the bias block's one row is read at column q, and the zero it
    is compared with is the zero word's value. -/
theorem pay1_apply (x0 x1 : Vec Ideal S2000x18 .f32) (wl wr : Vec Ideal S18x64 .f32) (b : Vec Ideal S1x64 .f32) (p : Fin 2000) (q : Fin 64) :
    k1_pay1 (F := Ideal) x0 x1 wl wr b (ix2 p q)
      = max (((∑ k : Fin 18, x0 (ix2 p k) * wl (ix2 k q)) + b (ix2 (0 : Fin 1) q)) + ∑ k : Fin 18, x1 (ix2 p k) * wr (ix2 k q))
          (Ideal.ofBits .f32 0x00000000#32) := by
  unfold k1_pay1
  simp only [shapeCast_self]
  rw [maximumf_apply, addf_apply, addf_apply]
  refine congrArg₂ max (congrArg₂ (· + ·) (congrArg₂ (· + ·) ?_ ?_) ?_) rfl
  · exact matmulBlk18_apply _ _ p q
  · exact broadcastTo_1b_ab_apply b _ p q
  · exact matmulBlk18_apply _ _ p q

/-! ## One block of the combine against the whole arrays -/

/-- If the two row blocks are rows 2000·T … 2000·T+1999 of the two node arrays and the weight and bias blocks are the whole
    weights and bias, the block's payload at (p, q) is the whole-array combine at row 2000·T + p, column q. -/
theorem combineBlock1 (M X : FVec Ideal S100000x18 .f32) (Wl Wr : FVec Ideal S18x64 .f32) (B : FVec Ideal S1x64 .f32)
    (x0 x1 : Vec Ideal S2000x18 .f32) (wl wr : Vec Ideal S18x64 .f32) (b : Vec Ideal S1x64 .f32) (T : ℕ) (hT : T < 50)
    (h0 : ∀ (p : Fin 2000) (k : Fin 18), x0 (ix2 p k) = M (ix2 (⟨T * 2000 + p.val, by have := p.isLt; omega⟩ : Fin 100000) k))
    (h1 : ∀ (p : Fin 2000) (k : Fin 18), x1 (ix2 p k) = X (ix2 (⟨T * 2000 + p.val, by have := p.isLt; omega⟩ : Fin 100000) k))
    (h2 : wl = Wl) (h3 : b = B) (h4 : wr = Wr) (p : Fin 2000) (q : Fin 64) :
    k1_pay1 (F := Ideal) x0 x1 wl wr b (ix2 p q)
      = Cert.Spec.G1 (F := Ideal) M X Wl B Wr (ix2 (⟨T * 2000 + p.val, by have := p.isLt; omega⟩ : Fin 100000) q) := by
  rw [pay1_apply, G1_apply]
  subst h2 h3 h4
  simp only [h0, h1]

/-! ## The output's blocks tile the array -/

theorem origin2 : (![0, 0] : Fin 2 → Nat) = fun _ => 0 := funext fun a => by fin_cases a <;> rfl

/-- The printed index maps, decided over the 50 points: the two row windows and the output window are on block row t,
    the weight and bias windows on their one block. -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- An index of the output array is in point t's block iff each coordinate is in the block's range on its axis. -/
theorem mem_outBlk1 (t : Fin cfg1.N) (i : S100000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v32).slice (win1_5.rect t)).set ↔ _
  rw [View.set_slice_whole, Rect.mem_set_unit]
  exact Iff.rfl

/-- Row r of the output array is in the block of point r / 2000, which is written back. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 50 := N_1
  have hlt : (i 0).val / 2000 < cfg1.N := by rw [hN]; omega
  obtain ⟨-, -, -, -, -, -, -, -, -, -, e0, e1⟩ := blockIdx1 ⟨(i 0).val / 2000, hlt⟩
  refine ⟨⟨(i 0).val / 2000, hlt⟩, flush1_5 _, ?_⟩
  rw [mem_outBlk1]
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, hlt⟩ (1 : Fin 2) * 64 ≤ (i 1).val ∧ (i 1).val < win1_5.index ⟨(i 0).val / 2000, hlt⟩ (1 : Fin 2) * 64 + 64
    rw [e1]; omega

/-! ## What each point writes back, and the array after the run -/

-- the TensorCore's buffer contents when the region is entered
variable (V : (c : Dev nD) → (b : Ref sig .tc) → Buf (Elt Ideal) ((c : Thread nD τ).loc b))

/-- What point t writes back is block t of the whole-array combine: the two row windows move with the output's rows,
    the weight and bias windows stay on their one block. A block's coordinate on an axis is the block index times the
    block's extent plus the coordinate inside the block. -/
theorem flushed1_eq (c : Dev nD) (t : Fin cfg1.N) :
    (dat1 (F := Ideal) V c).flushed 5 t = ((cfg1.win 5).blk t).view.read (Elt Ideal)
      (Cert.Spec.G1 (F := Ideal) (V c main_v30) (V c main_v9) (V c main_arg6) (V c main_v31) (V c main_arg8)) := by
  show (cfg1.win 5).cut (grid1.coords t) ((dat1 (F := Ideal) V c).after 5 t) = _
  rw [after1_5]
  unfold out1_5
  rw [View.canon_unit_zero origin2]
  simp only [View.ld_unit_zero (S := S2000x18) origin2, View.ld_unit_zero (S := S18x64) origin2, View.ld_unit_zero (S := S1x64) origin2]
  have hN : cfg1.N = 50 := N_1
  have hT : t.val < 50 := hN ▸ t.isLt
  obtain ⟨a0, a1, b0, b1, c0, c1, d0, d1, e0, e1, o0, o1⟩ := blockIdx1 t
  funext j
  obtain ⟨p, q, rfl⟩ : ∃ (p : Fin 2000) (q : Fin 64), j = ix2 p q := ⟨j 0, j 1, eq_ix2 (n0 := 2000) (n1 := 64) j⟩
  refine (combineBlock1 (V c main_v30) (V c main_v9) (V c main_arg6) (V c main_arg8) (V c main_v31)
    (iblk1 V c 0 t) (iblk1 V c 1 t) (iblk1 V c 2 t) (iblk1 V c 4 t) (iblk1 V c 3 t) t.val hT ?_ ?_ ?_ ?_ ?_ p q).trans ?_
  · intro p' k
    show V c main_v30 (((cfg1.win 0).blk t).view.emb (ix2 p' k)) = V c main_v30 _
    refine congrArg (V c main_v30) (funext fun a => Fin.ext ?_)
    match a with
    | ⟨0, _⟩ => show win1_0.index t (0 : Fin 2) * 2000 + 1 * p'.val = t.val * 2000 + p'.val; rw [a0]; omega
    | ⟨1, _⟩ => show win1_0.index t (1 : Fin 2) * 18 + 1 * k.val = k.val; rw [a1]; omega
  · intro p' k
    show V c main_v9 (((cfg1.win 1).blk t).view.emb (ix2 p' k)) = V c main_v9 _
    refine congrArg (V c main_v9) (funext fun a => Fin.ext ?_)
    match a with
    | ⟨0, _⟩ => show win1_1.index t (0 : Fin 2) * 2000 + 1 * p'.val = t.val * 2000 + p'.val; rw [b0]; omega
    | ⟨1, _⟩ => show win1_1.index t (1 : Fin 2) * 18 + 1 * k.val = k.val; rw [b1]; omega
  · funext (y : S18x64.Idx)
    show V c main_arg6 (((cfg1.win 2).blk t).view.emb y) = V c main_arg6 y
    refine congrArg (V c main_arg6) (funext fun a => Fin.ext ?_)
    match a with
    | ⟨0, _⟩ => show win1_2.index t (0 : Fin 2) * 18 + 1 * (y 0).val = (y 0).val; rw [c0]; omega
    | ⟨1, _⟩ => show win1_2.index t (1 : Fin 2) * 64 + 1 * (y 1).val = (y 1).val; rw [c1]; omega
  · funext (y : S1x64.Idx)
    show V c main_v31 (((cfg1.win 3).blk t).view.emb y) = V c main_v31 y
    refine congrArg (V c main_v31) (funext fun a => Fin.ext ?_)
    match a with
    | ⟨0, _⟩ => show win1_3.index t (0 : Fin 2) * 1 + 1 * (y 0).val = (y 0).val; rw [d0]; omega
    | ⟨1, _⟩ => show win1_3.index t (1 : Fin 2) * 64 + 1 * (y 1).val = (y 1).val; rw [d1]; omega
  · funext (y : S18x64.Idx)
    show V c main_arg8 (((cfg1.win 4).blk t).view.emb y) = V c main_arg8 y
    refine congrArg (V c main_arg8) (funext fun a => Fin.ext ?_)
    match a with
    | ⟨0, _⟩ => show win1_4.index t (0 : Fin 2) * 18 + 1 * (y 0).val = (y 0).val; rw [e0]; omega
    | ⟨1, _⟩ => show win1_4.index t (1 : Fin 2) * 64 + 1 * (y 1).val = (y 1).val; rw [e1]; omega
  · show _ = Cert.Spec.G1 (F := Ideal) (V c main_v30) (V c main_v9) (V c main_arg6) (V c main_v31) (V c main_arg8)
      (((cfg1.win 5).blk t).view.emb (ix2 p q))
    refine congrArg (Cert.Spec.G1 (F := Ideal) (V c main_v30) (V c main_v9) (V c main_arg6) (V c main_v31) (V c main_arg8))
      (funext fun a => Fin.ext ?_)
    match a with
    | ⟨0, _⟩ => show t.val * 2000 + p.val = win1_5.index t (0 : Fin 2) * 2000 + 1 * p.val; rw [o0]; omega
    | ⟨1, _⟩ => show q.val = win1_5.index t (1 : Fin 2) * 64 + 1 * q.val; rw [o1]; omega

/-- The output array after the run is the whole-array combine of the five arrays as the region finds them. -/
theorem final1 (c : Dev nD) :
    (dat1 (F := Ideal) V c).arrAt 5 cfg1.N
      = Cert.Spec.G1 (F := Ideal) (V c main_v30) (V c main_v9) (V c main_arg6) (V c main_v31) (V c main_arg8) :=
  (dat1 (F := Ideal) V c).arrAt_eq_of_cover 5 _ (fun t _ => flushed1_eq V c t) cover1

end Cert.KernelIdeal.Val

end
-- ==== Proof.KI.Val2.lean ====
/-
  The value of the second SAGE combine (a pallas_call of 50 grid points over 64 input channels): the output array after the
  run is, entry by entry, the larger of 0 and "(neighbour-mean row · first weight + bias row) + node row · second weight"
  of the five arrays as the region finds them, which is the reference's expression G2 of those arrays.
  The road: both sides at an index (row r, column q) are the same sum over the 64 channels — the block's two products
  accumulate into zero, the reference's dot_general has no accumulator, and the format changes are the identity on the
  extended reals; point t's two row blocks are rows 2000·t … 2000·t+1999 of their arrays and its weight and bias blocks
  are the whole arrays, so what point t writes back is block t of G2; the 50 output blocks tile the 100000 rows.
-/
import proofs.«425859_j79671643341337_2_alg».proof.Proof.KI.Reg2
import proofs.«425859_j79671643341337_2_alg».proof.Proof.KI.Spec
import proofs.«425859_j79671643341337_2_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.TcCoe Idealize.SL.Sem
open Idealize.ShloMosaic.ValueIdx
open Cert.KernelIdeal Cert.KernelIdeal.Gen Cert.KernelIdeal.Fr
open Idealize.ShloMosaic.Pipeline (Dat)
open scoped BigOperators

/-! ## The 64-deep contraction of a 2000-row block

The product's dimension numbers contract the left operand's columns with the right operand's rows: at output index
(p, q) and contraction position k the left operand is read at (p, k) and the right one at (k, q). -/

theorem lhsBlk64_0 (j : S2000x64.Idx) (k : dot_S2000x64_S64x64_S2000x64_1_0_0_1_n_n.contr.Idx) :
    (dot_S2000x64_S64x64_S2000x64_1_0_0_1_n_n.lhsIdx j k 0 : ℕ) = j 0 := by
  simp [DotDims.lhsIdx, dot_S2000x64_S64x64_S2000x64_1_0_0_1_n_n]; rfl
theorem lhsBlk64_1 (j : S2000x64.Idx) (k : dot_S2000x64_S64x64_S2000x64_1_0_0_1_n_n.contr.Idx) :
    (dot_S2000x64_S64x64_S2000x64_1_0_0_1_n_n.lhsIdx j k 1 : ℕ) = k ⟨0, by decide⟩ := by
  simp [DotDims.lhsIdx, dot_S2000x64_S64x64_S2000x64_1_0_0_1_n_n]; rfl
theorem rhsBlk64_0 (j : S2000x64.Idx) (k : dot_S2000x64_S64x64_S2000x64_1_0_0_1_n_n.contr.Idx) :
    (dot_S2000x64_S64x64_S2000x64_1_0_0_1_n_n.rhsIdx j k 0 : ℕ) = k ⟨0, by decide⟩ := by
  simp [DotDims.rhsIdx, dot_S2000x64_S64x64_S2000x64_1_0_0_1_n_n]; rfl
theorem rhsBlk64_1 (j : S2000x64.Idx) (k : dot_S2000x64_S64x64_S2000x64_1_0_0_1_n_n.contr.Idx) :
    (dot_S2000x64_S64x64_S2000x64_1_0_0_1_n_n.rhsIdx j k 1 : ℕ) = j 1 := by
  simp [DotDims.rhsIdx, dot_S2000x64_S64x64_S2000x64_1_0_0_1_n_n]; rfl

/-- A block product into the zero accumulator, at (p, q): the sum over the 64 channels of row p times column q. -/
theorem matmulBlk64_apply (a : FVec Ideal S2000x64 .bf16) (w : FVec Ideal S64x64 .bf16) (p : Fin 2000) (q : Fin 64) :
    matmul dot_S2000x64_S64x64_S2000x64_1_0_0_1_n_n none a w (constant (F := Ideal) S2000x64 .f32 0x00000000#32) (ix2 p q)
      = ∑ k : Fin 64, a (ix2 p k) * w (ix2 k q) := by
  refine (Ideal.matmul_constant_zero_apply dot_S2000x64_S64x64_S2000x64_1_0_0_1_n_n none a w (ix2 p q)).trans ?_
  rw [← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  congr 2
  · funext ax; apply Fin.ext
    match ax with
    | ⟨0, _⟩ => exact lhsBlk64_0 _ _
    | ⟨1, _⟩ => exact (lhsBlk64_1 _ _).trans hk
  · funext ax; apply Fin.ext
    match ax with
    | ⟨0, _⟩ => exact (rhsBlk64_0 _ _).trans hk
    | ⟨1, _⟩ => exact rhsBlk64_1 _ _

/-! ## The 64-deep contraction of the whole 100000-row arrays -/

theorem lhsArr64_0 (j : Cert.ReferenceIdeal.S100000x64.Idx) (k : Cert.ReferenceIdeal.dot_S100000x64_S64x64_S100000x64_1_0_0_1_n_n.contr.Idx) :
    (Cert.ReferenceIdeal.dot_S100000x64_S64x64_S100000x64_1_0_0_1_n_n.lhsIdx j k 0 : ℕ) = j 0 := by
  simp [DotDims.lhsIdx, Cert.ReferenceIdeal.dot_S100000x64_S64x64_S100000x64_1_0_0_1_n_n]; rfl
theorem lhsArr64_1 (j : Cert.ReferenceIdeal.S100000x64.Idx) (k : Cert.ReferenceIdeal.dot_S100000x64_S64x64_S100000x64_1_0_0_1_n_n.contr.Idx) :
    (Cert.ReferenceIdeal.dot_S100000x64_S64x64_S100000x64_1_0_0_1_n_n.lhsIdx j k 1 : ℕ) = k ⟨0, by decide⟩ := by
  simp [DotDims.lhsIdx, Cert.ReferenceIdeal.dot_S100000x64_S64x64_S100000x64_1_0_0_1_n_n]; rfl
theorem rhsArr64_0 (j : Cert.ReferenceIdeal.S100000x64.Idx) (k : Cert.ReferenceIdeal.dot_S100000x64_S64x64_S100000x64_1_0_0_1_n_n.contr.Idx) :
    (Cert.ReferenceIdeal.dot_S100000x64_S64x64_S100000x64_1_0_0_1_n_n.rhsIdx j k 0 : ℕ) = k ⟨0, by decide⟩ := by
  simp [DotDims.rhsIdx, Cert.ReferenceIdeal.dot_S100000x64_S64x64_S100000x64_1_0_0_1_n_n]; rfl
theorem rhsArr64_1 (j : Cert.ReferenceIdeal.S100000x64.Idx) (k : Cert.ReferenceIdeal.dot_S100000x64_S64x64_S100000x64_1_0_0_1_n_n.contr.Idx) :
    (Cert.ReferenceIdeal.dot_S100000x64_S64x64_S100000x64_1_0_0_1_n_n.rhsIdx j k 1 : ℕ) = j 1 := by
  simp [DotDims.rhsIdx, Cert.ReferenceIdeal.dot_S100000x64_S64x64_S100000x64_1_0_0_1_n_n]; rfl

/-- The reference's product of the whole arrays, at (r, q): the same sum over the 64 channels. -/
theorem dotArr64_apply (a : FVec Ideal S100000x64 .f32) (w : FVec Ideal S64x64 .f32) (r : Fin 100000) (q : Fin 64) :
    Host.dotGeneral (F := Ideal) Cert.ReferenceIdeal.dot_S100000x64_S64x64_S100000x64_1_0_0_1_n_n none a w (ix2 r q)
      = ∑ k : Fin 64, a (ix2 r k) * w (ix2 k q) := by
  refine (Ideal.dotGeneral_apply Cert.ReferenceIdeal.dot_S100000x64_S64x64_S100000x64_1_0_0_1_n_n none .single a w (ix2 r q)).trans ?_
  rw [← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  congr 2
  · funext ax; apply Fin.ext
    match ax with
    | ⟨0, _⟩ => exact lhsArr64_0 _ _
    | ⟨1, _⟩ => exact (lhsArr64_1 _ _).trans hk
  · funext ax; apply Fin.ext
    match ax with
    | ⟨0, _⟩ => exact (rhsArr64_0 _ _).trans hk
    | ⟨1, _⟩ => exact rhsArr64_1 _ _

/-! ## The bias row and the zero, broadcast over the whole array -/

/-- The 1×64 bias row broadcast down the 100000 rows reads, at (r, q), the row's entry q. -/
theorem biasArr'_apply (B : FVec Ideal S1x64 .f32) (r : Fin 100000) (q : Fin 64) :
    broadcastInDim Cert.ReferenceIdeal.S100000x64 ![0, 1] Cert.ReferenceIdeal.Facts₀.bcast_S1x64_S100000x64_0_1 B (ix2 r q) = B (ix2 (0 : Fin 1) q) := by
  refine broadcastInDim_apply _ _ B (ix2 r q) (ix2 (0 : Fin 1) q) fun ax => ?_
  match ax with
  | ⟨0, _⟩ => rfl
  | ⟨1, _⟩ => rfl

/-- The scalar zero broadcast over the array reads the zero word's value everywhere. -/
theorem zeroArr'_apply (i : Cert.ReferenceIdeal.S100000x64.Idx) :
    broadcastInDim Cert.ReferenceIdeal.S100000x64 ![] Cert.ReferenceIdeal.Facts₀.bcast_S_S100000x64 (constant (F := Ideal) Cert.ReferenceIdeal.S_ .f32 0x00000000#32) i
      = Ideal.ofBits .f32 0x00000000#32 := rfl

/-! ## The combine of the whole arrays, at an index -/

theorem G2_apply (M X : FVec Ideal S100000x64 .f32) (Wl : FVec Ideal S64x64 .f32) (B : FVec Ideal S1x64 .f32) (Wr : FVec Ideal S64x64 .f32)
    (r : Fin 100000) (q : Fin 64) :
    Cert.Spec.G2 (F := Ideal) M X Wl B Wr (ix2 r q)
      = max (((∑ k : Fin 64, M (ix2 r k) * Wl (ix2 k q)) + B (ix2 (0 : Fin 1) q)) + ∑ k : Fin 64, X (ix2 r k) * Wr (ix2 k q))
          (Ideal.ofBits .f32 0x00000000#32) := by
  unfold Cert.Spec.G2
  rw [maximumf_apply, addf_apply, addf_apply, dotArr64_apply, dotArr64_apply, biasArr'_apply, zeroArr'_apply]

/-! ## The block's payload, at an index -/

/-- The payload of the five loaded blocks at (p, q): the casts of a shape to itself and the changes of format are the
    identity, each product is the sum over the channels, the bias block's one row is read at column q, and the zero it
    is compared with is the zero word's value. -/
theorem pay2_apply (x0 x1 : Vec Ideal S2000x64 .f32) (wl wr : Vec Ideal S64x64 .f32) (b : Vec Ideal S1x64 .f32) (p : Fin 2000) (q : Fin 64) :
    k2_pay1 (F := Ideal) x0 x1 wl wr b (ix2 p q)
      = max (((∑ k : Fin 64, x0 (ix2 p k) * wl (ix2 k q)) + b (ix2 (0 : Fin 1) q)) + ∑ k : Fin 64, x1 (ix2 p k) * wr (ix2 k q))
          (Ideal.ofBits .f32 0x00000000#32) := by
  unfold k2_pay1
  simp only [shapeCast_self]
  rw [maximumf_apply, addf_apply, addf_apply]
  refine congrArg₂ max (congrArg₂ (· + ·) (congrArg₂ (· + ·) ?_ ?_) ?_) rfl
  · exact matmulBlk64_apply _ _ p q
  · exact broadcastTo_1b_ab_apply b _ p q
  · exact matmulBlk64_apply _ _ p q

/-! ## One block of the combine against the whole arrays -/

/-- If the two row blocks are rows 2000·T … 2000·T+1999 of the two node arrays and the weight and bias blocks are the whole
    weights and bias, the block's payload at (p, q) is the whole-array combine at row 2000·T + p, column q. -/
theorem combineBlock2 (M X : FVec Ideal S100000x64 .f32) (Wl Wr : FVec Ideal S64x64 .f32) (B : FVec Ideal S1x64 .f32)
    (x0 x1 : Vec Ideal S2000x64 .f32) (wl wr : Vec Ideal S64x64 .f32) (b : Vec Ideal S1x64 .f32) (T : ℕ) (hT : T < 50)
    (h0 : ∀ (p : Fin 2000) (k : Fin 64), x0 (ix2 p k) = M (ix2 (⟨T * 2000 + p.val, by have := p.isLt; omega⟩ : Fin 100000) k))
    (h1 : ∀ (p : Fin 2000) (k : Fin 64), x1 (ix2 p k) = X (ix2 (⟨T * 2000 + p.val, by have := p.isLt; omega⟩ : Fin 100000) k))
    (h2 : wl = Wl) (h3 : b = B) (h4 : wr = Wr) (p : Fin 2000) (q : Fin 64) :
    k2_pay1 (F := Ideal) x0 x1 wl wr b (ix2 p q)
      = Cert.Spec.G2 (F := Ideal) M X Wl B Wr (ix2 (⟨T * 2000 + p.val, by have := p.isLt; omega⟩ : Fin 100000) q) := by
  rw [pay2_apply, G2_apply]
  subst h2 h3 h4
  simp only [h0, h1]

/-! ## The output's blocks tile the array -/

theorem origin2' : (![0, 0] : Fin 2 → Nat) = fun _ => 0 := funext fun a => by fin_cases a <;> rfl

/-- The printed index maps, decided over the 50 points: the two row windows and the output window are on block row t,
    the weight and bias windows on their one block. -/
theorem blockIdx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- An index of the output array is in point t's block iff each coordinate is in the block's range on its axis. -/
theorem mem_outBlk2 (t : Fin cfg2.N) (i : S100000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v51).slice (win2_5.rect t)).set ↔ _
  rw [View.set_slice_whole, Rect.mem_set_unit]
  exact Iff.rfl

/-- Row r of the output array is in the block of point r / 2000, which is written back. -/
theorem cover2 (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 50 := N_2
  have hlt : (i 0).val / 2000 < cfg2.N := by rw [hN]; omega
  obtain ⟨-, -, -, -, -, -, -, -, -, -, e0, e1⟩ := blockIdx2 ⟨(i 0).val / 2000, hlt⟩
  refine ⟨⟨(i 0).val / 2000, hlt⟩, flush2_5 _, ?_⟩
  rw [mem_outBlk2]
  intro a
  match a with
  | ⟨0, _⟩ =>
    show win2_5.index ⟨(i 0).val / 2000, hlt⟩ (0 : Fin 2) * 2000 ≤ (i 0).val ∧ (i 0).val < win2_5.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win2_5.index ⟨(i 0).val / 2000, hlt⟩ (1 : Fin 2) * 64 ≤ (i 1).val ∧ (i 1).val < win2_5.index ⟨(i 0).val / 2000, hlt⟩ (1 : Fin 2) * 64 + 64
    rw [e1]; omega

/-! ## What each point writes back, and the array after the run -/

-- the TensorCore's buffer contents when the region is entered
variable (V : (c : Dev nD) → (b : Ref sig .tc) → Buf (Elt Ideal) ((c : Thread nD τ).loc b))

/-- What point t writes back is block t of the whole-array combine: the two row windows move with the output's rows,
    the weight and bias windows stay on their one block. A block's coordinate on an axis is the block index times the
    block's extent plus the coordinate inside the block. -/
theorem flushed2_eq (c : Dev nD) (t : Fin cfg2.N) :
    (dat2 (F := Ideal) V c).flushed 5 t = ((cfg2.win 5).blk t).view.read (Elt Ideal)
      (Cert.Spec.G2 (F := Ideal) (V c main_v49) (V c main_v32) (V c main_arg9) (V c main_v50) (V c main_arg11)) := by
  show (cfg2.win 5).cut (grid2.coords t) ((dat2 (F := Ideal) V c).after 5 t) = _
  rw [after2_5]
  unfold out2_5
  rw [View.canon_unit_zero origin2']
  simp only [View.ld_unit_zero (S := S2000x64) origin2', View.ld_unit_zero (S := S64x64) origin2', View.ld_unit_zero (S := S1x64) origin2']
  have hN : cfg2.N = 50 := N_2
  have hT : t.val < 50 := hN ▸ t.isLt
  obtain ⟨a0, a1, b0, b1, c0, c1, d0, d1, e0, e1, o0, o1⟩ := blockIdx2 t
  funext j
  obtain ⟨p, q, rfl⟩ : ∃ (p : Fin 2000) (q : Fin 64), j = ix2 p q := ⟨j 0, j 1, eq_ix2 (n0 := 2000) (n1 := 64) j⟩
  refine (combineBlock2 (V c main_v49) (V c main_v32) (V c main_arg9) (V c main_arg11) (V c main_v50)
    (iblk2 V c 0 t) (iblk2 V c 1 t) (iblk2 V c 2 t) (iblk2 V c 4 t) (iblk2 V c 3 t) t.val hT ?_ ?_ ?_ ?_ ?_ p q).trans ?_
  · intro p' k
    show V c main_v49 (((cfg2.win 0).blk t).view.emb (ix2 p' k)) = V c main_v49 _
    refine congrArg (V c main_v49) (funext fun a => Fin.ext ?_)
    match a with
    | ⟨0, _⟩ => show win2_0.index t (0 : Fin 2) * 2000 + 1 * p'.val = t.val * 2000 + p'.val; rw [a0]; omega
    | ⟨1, _⟩ => show win2_0.index t (1 : Fin 2) * 64 + 1 * k.val = k.val; rw [a1]; omega
  · intro p' k
    show V c main_v32 (((cfg2.win 1).blk t).view.emb (ix2 p' k)) = V c main_v32 _
    refine congrArg (V c main_v32) (funext fun a => Fin.ext ?_)
    match a with
    | ⟨0, _⟩ => show win2_1.index t (0 : Fin 2) * 2000 + 1 * p'.val = t.val * 2000 + p'.val; rw [b0]; omega
    | ⟨1, _⟩ => show win2_1.index t (1 : Fin 2) * 64 + 1 * k.val = k.val; rw [b1]; omega
  · funext (y : S64x64.Idx)
    show V c main_arg9 (((cfg2.win 2).blk t).view.emb y) = V c main_arg9 y
    refine congrArg (V c main_arg9) (funext fun a => Fin.ext ?_)
    match a with
    | ⟨0, _⟩ => show win2_2.index t (0 : Fin 2) * 64 + 1 * (y 0).val = (y 0).val; rw [c0]; omega
    | ⟨1, _⟩ => show win2_2.index t (1 : Fin 2) * 64 + 1 * (y 1).val = (y 1).val; rw [c1]; omega
  · funext (y : S1x64.Idx)
    show V c main_v50 (((cfg2.win 3).blk t).view.emb y) = V c main_v50 y
    refine congrArg (V c main_v50) (funext fun a => Fin.ext ?_)
    match a with
    | ⟨0, _⟩ => show win2_3.index t (0 : Fin 2) * 1 + 1 * (y 0).val = (y 0).val; rw [d0]; omega
    | ⟨1, _⟩ => show win2_3.index t (1 : Fin 2) * 64 + 1 * (y 1).val = (y 1).val; rw [d1]; omega
  · funext (y : S64x64.Idx)
    show V c main_arg11 (((cfg2.win 4).blk t).view.emb y) = V c main_arg11 y
    refine congrArg (V c main_arg11) (funext fun a => Fin.ext ?_)
    match a with
    | ⟨0, _⟩ => show win2_4.index t (0 : Fin 2) * 64 + 1 * (y 0).val = (y 0).val; rw [e0]; omega
    | ⟨1, _⟩ => show win2_4.index t (1 : Fin 2) * 64 + 1 * (y 1).val = (y 1).val; rw [e1]; omega
  · show _ = Cert.Spec.G2 (F := Ideal) (V c main_v49) (V c main_v32) (V c main_arg9) (V c main_v50) (V c main_arg11)
      (((cfg2.win 5).blk t).view.emb (ix2 p q))
    refine congrArg (Cert.Spec.G2 (F := Ideal) (V c main_v49) (V c main_v32) (V c main_arg9) (V c main_v50) (V c main_arg11))
      (funext fun a => Fin.ext ?_)
    match a with
    | ⟨0, _⟩ => show t.val * 2000 + p.val = win2_5.index t (0 : Fin 2) * 2000 + 1 * p.val; rw [o0]; omega
    | ⟨1, _⟩ => show q.val = win2_5.index t (1 : Fin 2) * 64 + 1 * q.val; rw [o1]; omega

/-- The output array after the run is the whole-array combine of the five arrays as the region finds them. -/
theorem final2 (c : Dev nD) :
    (dat2 (F := Ideal) V c).arrAt 5 cfg2.N
      = Cert.Spec.G2 (F := Ideal) (V c main_v49) (V c main_v32) (V c main_arg9) (V c main_v50) (V c main_arg11) :=
  (dat2 (F := Ideal) V c).arrAt_eq_of_cover 5 _ (fun t _ => flushed2_eq V c t) cover2

end Cert.KernelIdeal.Val

end
-- ==== Proof.LibOneHotSum.lean ====
/-
  Finite sums behind a one-hot pooling: a running total read as a sum of its steps; a sum over consecutive blocks of
  rows read as one sum over all rows; a sum weighted by zeros and ones read as the sum over the rows the ones select;
  and the host's accumulating scatter of whole rows, by a column of row numbers, read at one entry.
-/
import Mathlib.Algebra.BigOperators.Fin
import Mathlib.Algebra.BigOperators.Group.Finset.Basic
import Mathlib.Logic.Equiv.Fin.Basic
import Idealize.ShloMosaic.PureOps.Ideal
import Idealize.ShloMosaic.Lib.ValueIdx

noncomputable section

open scoped BigOperators

namespace Cert.OneHotSum

open Idealize.ShloMosaic Idealize.ShloMosaic.ValueIdx

/-! ## A running total -/

/-- A total that starts as `z + s 0` and takes `s (n + 1)` at step `n + 1` is, after step `n`, `z` plus the first
    `n + 1` steps. Only associativity is used. -/
theorem running_total {M : Type*} [AddCommMonoid M] {N : ℕ} (a : (n : ℕ) → n < N → M) (s : Fin N → M) (z : M)
    (h0 : ∀ h : 0 < N, a 0 h = z + s ⟨0, h⟩)
    (hs : ∀ (n : ℕ) (h : n + 1 < N), a (n + 1) h = a n (Nat.lt_of_succ_lt h) + s ⟨n + 1, h⟩) :
    ∀ (n : ℕ) (h : n < N), a n h = z + ∑ t : Fin (n + 1), s ⟨t.val, lt_of_le_of_lt (Nat.lt_succ_iff.mp t.isLt) h⟩ := by
  intro n
  induction n with
  | zero =>
    intro h
    rw [h0 h, Fin.sum_univ_one]
    rfl
  | succ n ih =>
    intro h
    rw [hs n h, ih (Nat.lt_of_succ_lt h), add_assoc]
    exact congrArg (z + ·) (Fin.sum_univ_castSucc
      (fun t : Fin (n + 1 + 1) => s ⟨t.val, lt_of_le_of_lt (Nat.lt_succ_iff.mp t.isLt) h⟩)).symm

/-- After the last step the total is `z` plus every step. -/
theorem running_total_last {M : Type*} [AddCommMonoid M] {N : ℕ} (a : (n : ℕ) → n < N → M) (s : Fin N → M) (z : M)
    (h0 : ∀ h : 0 < N, a 0 h = z + s ⟨0, h⟩)
    (hs : ∀ (n : ℕ) (h : n + 1 < N), a (n + 1) h = a n (Nat.lt_of_succ_lt h) + s ⟨n + 1, h⟩)
    (n : ℕ) (h : n < N) (hn : n + 1 = N) : a n h = z + ∑ t : Fin N, s t := by
  subst hn
  rw [running_total a s z h0 hs n h]

/-! ## Blocks of rows -/

/-- Row `r` of block `t`, of `n` blocks of `m` rows, is row `m * t + r` of all `N = n * m`. -/
theorem block_row_lt {n m N : ℕ} (hN : n * m = N) (t : Fin n) (r : Fin m) : m * t.val + r.val < N := by
  subst hN
  calc m * t.val + r.val < m * t.val + m := Nat.add_lt_add_left r.isLt _
    _ = m * (t.val + 1) := (Nat.mul_succ _ _).symm
    _ ≤ m * n := Nat.mul_le_mul_left _ t.isLt
    _ = n * m := Nat.mul_comm _ _

/-- Summing block by block, and inside each block row by row, is summing over all the rows. -/
theorem sum_blocks {M : Type*} [AddCommMonoid M] {n m N : ℕ} (hN : n * m = N) (f : Fin N → M) :
    ∑ t : Fin n, ∑ r : Fin m, f ⟨m * t.val + r.val, block_row_lt hN t r⟩ = ∑ R : Fin N, f R := by
  subst hN
  rw [← Equiv.sum_comp finProdFinEquiv f, Fintype.sum_prod_type]
  refine Finset.sum_congr rfl fun t _ => Finset.sum_congr rfl fun r _ => congrArg f (Fin.ext ?_)
  show m * t.val + r.val = r.val + m * t.val
  exact Nat.add_comm _ _

/-! ## Weights that are zero or one -/

/-- On the extended reals a sum whose terms carry the weight one where `p` holds and zero elsewhere keeps the terms
    where `p` holds: `1 · x = x` and `0 · x = 0` for every `x`, the infinite ones too. -/
theorem sum_indicator_mul {ι : Type*} [Fintype ι] (p : ι → Prop) [DecidablePred p] (f : ι → EReal) :
    ∑ r, (if p r then (1 : EReal) else 0) * f r = ∑ r, if p r then f r else 0 :=
  Finset.sum_congr rfl fun r _ => by
    by_cases h : p r
    · rw [if_pos h, if_pos h, one_mul]
    · rw [if_neg h, if_neg h, zero_mul]

/-- A sum over the entries of a two-axis array whose row satisfies `p` and whose column is `q` is the sum down
    column `q` over the rows that satisfy `p`. -/
theorem sum_filter_row_col {M : Type*} [AddCommMonoid M] {n0 n1 : ℕ} (p : Fin n0 → Prop) [DecidablePred p] (q : Fin n1)
    (P : (⟨2, ![n0, n1]⟩ : Shape).Idx → Prop) [DecidablePred P] (hP : ∀ a b, P (ix2 a b) ↔ p a ∧ b = q)
    (x : (⟨2, ![n0, n1]⟩ : Shape).Idx → M) :
    ∑ j ∈ Finset.univ.filter P, x j = ∑ a : Fin n0, if p a then x (ix2 a q) else 0 := by
  rw [Finset.sum_filter, sum_idx2]
  refine Finset.sum_congr rfl fun a _ => ?_
  by_cases h : p a
  · rw [if_pos h]
    rw [Finset.sum_congr rfl fun b _ => (if_congr ((hP a b).trans (and_iff_right h)) rfl rfl :
      (if P (ix2 a b) then x (ix2 a b) else 0) = if b = q then x (ix2 a b) else 0)]
    rw [Finset.sum_ite_eq' Finset.univ q fun b => x (ix2 a b), if_pos (Finset.mem_univ q)]
  · rw [if_neg h]
    exact Finset.sum_eq_zero fun b _ => if_neg fun hb => h ((hP a b).mp hb).1

/-! ## The host's accumulating scatter of whole rows -/

/-- The dimension numbers of a scatter of whole rows: the operand is `a × b`, the updates are `n` rows of length `b`,
    and the scatter indices are an `n × 1` column whose entry `r` names the operand row that update row `r` goes to
    (update window axis 1, inserted window axis 0, the index component read for operand axis 0, index vector axis 1). -/
abbrev rowScatterDims (a n b : ℕ) (wf : ScatterDims.WF ⟨2, ![a, b]⟩ ⟨2, ![n, 1]⟩ ⟨2, ![n, b]⟩ [1] [0] [0] 1) :
    ScatterDims ⟨2, ![a, b]⟩ ⟨2, ![n, 1]⟩ ⟨2, ![n, b]⟩ where
  updateWindowDims := [1]
  insertedWindowDims := [0]
  scatterDimsToOperandDims := [0]
  indexVectorDim := 1
  wf := wf

section
variable {a n b w : ℕ} (wf : ScatterDims.WF ⟨2, ![a, b]⟩ ⟨2, ![n, 1]⟩ ⟨2, ![n, b]⟩ [1] [0] [0] 1)
  (idx : IVec ⟨2, ![n, 1]⟩ w) (r : Fin n) (q' : Fin b)

/-- On the row axis the window of update `(r, q')` starts at the column's entry `r`, read as a signed integer … -/
theorem rowScatter_start_0 : (rowScatterDims a n b wf).start (ix2 r q') idx 0 = (idx (ix2 r 0)).toInt := by
  unfold ScatterDims.start
  rw [dif_pos (show (0 : Fin 2) ∈ (rowScatterDims a n b wf).scatterDimsToOperandDims from List.mem_singleton.mpr rfl)]
  have hsi : (rowScatterDims a n b wf).siIdx (ix2 r q') ⟨List.idxOf (0 : Fin 2) (rowScatterDims a n b wf).scatterDimsToOperandDims,
      List.idxOf_lt_length_iff.2 (List.mem_singleton.mpr rfl)⟩ = ix2 r 0 := by
    funext c; refine Fin.ext ?_
    match c with
    | ⟨0, _⟩ => rfl
    | ⟨1, _⟩ => rfl
  rw [hsi]

/-- … and on the column axis at zero. -/
theorem rowScatter_start_1 : (rowScatterDims a n b wf).start (ix2 r q') idx 1 = 0 := by
  unfold ScatterDims.start
  have h : ¬(1 : Fin 2) ∈ (rowScatterDims a n b wf).scatterDimsToOperandDims :=
    (by decide : ¬(1 : Fin 2) ∈ [(0 : Fin 2)])
  rw [dif_neg h]

/-- Inside its window update `(r, q')` sits at row offset zero (the row axis is inserted) … -/
theorem rowScatter_window_0 : (rowScatterDims a n b wf).window (ix2 r q') 0 = 0 := by
  unfold ScatterDims.window
  have h : ¬(0 : Fin 2) ∈ (rowScatterDims a n b wf).sKept :=
    (by decide : ¬(0 : Fin 2) ∈ (List.finRange 2).filter (· ∉ [(0 : Fin 2)]))
  rw [dif_neg h]

/-- … and at column offset `q'`. -/
theorem rowScatter_window_1 : (rowScatterDims a n b wf).window (ix2 r q') 1 = q'.val := by
  unfold ScatterDims.window
  have h : (1 : Fin 2) ∈ (rowScatterDims a n b wf).sKept :=
    (by decide : (1 : Fin 2) ∈ (List.finRange 2).filter (· ∉ [(0 : Fin 2)]))
  rw [dif_pos h]
  rfl

/-- Update `(r, q')` lands on operand entry `(g, q)` exactly when the column's entry `r`, read signed, is `g` and the
    columns agree; an entry outside `0 … a - 1` lands nowhere. -/
theorem rowScatter_lands_iff (g : Fin a) (q : Fin b) :
    (rowScatterDims a n b wf).resultIdx? (ix2 r q') idx = some (ix2 g q) ↔ (idx (ix2 r 0)).toInt = (g.val : ℤ) ∧ q' = q := by
  have hg : g.val < a := g.isLt
  have hq' : q'.val < b := q'.isLt
  have e0 : (rowScatterDims a n b wf).start (ix2 r q') idx 0 + ((rowScatterDims a n b wf).window (ix2 r q') 0 : ℤ)
      = (idx (ix2 r 0)).toInt := by
    rw [rowScatter_start_0, rowScatter_window_0]; simp
  have e1 : (rowScatterDims a n b wf).start (ix2 r q') idx 1 + ((rowScatterDims a n b wf).window (ix2 r q') 1 : ℤ)
      = (q'.val : ℤ) := by
    rw [rowScatter_start_1, rowScatter_window_1]; simp
  unfold ScatterDims.resultIdx?
  split
  · rename_i h
    rw [Option.some_inj]
    constructor
    · intro e
      have c0 : ((rowScatterDims a n b wf).start (ix2 r q') idx 0 + ((rowScatterDims a n b wf).window (ix2 r q') 0 : ℤ)).toNat = g.val :=
        congrArg (fun f : (⟨2, ![a, b]⟩ : Shape).Idx => (f 0).val) e
      have c1 : ((rowScatterDims a n b wf).start (ix2 r q') idx 1 + ((rowScatterDims a n b wf).window (ix2 r q') 1 : ℤ)).toNat = q.val :=
        congrArg (fun f : (⟨2, ![a, b]⟩ : Shape).Idx => (f 1).val) e
      have b0 := (h 0).1
      rw [e0] at c0 b0
      rw [e1] at c1
      exact ⟨by omega, Fin.ext (by omega)⟩
    · rintro ⟨hg', rfl⟩
      funext c; refine Fin.ext ?_
      match c with
      | ⟨0, _⟩ =>
        show ((rowScatterDims a n b wf).start (ix2 r q') idx 0 + ((rowScatterDims a n b wf).window (ix2 r q') 0 : ℤ)).toNat = g.val
        rw [e0]; omega
      | ⟨1, _⟩ =>
        show ((rowScatterDims a n b wf).start (ix2 r q') idx 1 + ((rowScatterDims a n b wf).window (ix2 r q') 1 : ℤ)).toNat = q'.val
        rw [e1]; omega
  · rename_i h
    constructor
    · intro e; cases e
    · rintro ⟨hg', rfl⟩
      refine absurd (fun c => ?_) h
      match c with
      | ⟨0, _⟩ =>
        show 0 ≤ (rowScatterDims a n b wf).start (ix2 r q') idx 0 + ((rowScatterDims a n b wf).window (ix2 r q') 0 : ℤ)
          ∧ (rowScatterDims a n b wf).start (ix2 r q') idx 0 + ((rowScatterDims a n b wf).window (ix2 r q') 0 : ℤ) < (a : ℤ)
        rw [e0]; omega
      | ⟨1, _⟩ =>
        show 0 ≤ (rowScatterDims a n b wf).start (ix2 r q') idx 1 + ((rowScatterDims a n b wf).window (ix2 r q') 1 : ℤ)
          ∧ (rowScatterDims a n b wf).start (ix2 r q') idx 1 + ((rowScatterDims a n b wf).window (ix2 r q') 1 : ℤ) < (b : ℤ)
        rw [e1]; omega
end

/-- So the host's accumulating scatter of the rows of `upd` into `x` by the column `idx`, on the extended reals, holds
    at `(g, q)` what `x` held plus the sum down column `q` of the rows whose entry of `idx`, read signed, is `g`. -/
theorem hostScatterAdd_rows_apply {a n b w : ℕ} (wf : ScatterDims.WF ⟨2, ![a, b]⟩ ⟨2, ![n, 1]⟩ ⟨2, ![n, b]⟩ [1] [0] [0] 1)
    (x : (⟨2, ![a, b]⟩ : Shape).Idx → EReal) (idx : IVec ⟨2, ![n, 1]⟩ w) (upd : (⟨2, ![n, b]⟩ : Shape).Idx → EReal)
    (g : Fin a) (q : Fin b) :
    Ideal.hostScatterAdd (rowScatterDims a n b wf) x idx upd (ix2 g q)
      = x (ix2 g q) + ∑ r : Fin n, if (idx (ix2 r 0)).toInt = (g.val : ℤ) then upd (ix2 r q) else 0 := by
  unfold Ideal.hostScatterAdd
  exact congrArg (x (ix2 g q) + ·)
    (sum_filter_row_col (fun r : Fin n => (idx (ix2 r 0)).toInt = (g.val : ℤ)) q _
      (fun r q' => rowScatter_lands_iff wf idx r q' g q) upd)

/-! ## Words and a plain product -/

/-- The weight a one-hot encoding gives a pair of 32-bit words — the comparison's bit, widened to a word and
    converted as a signed integer — is one when the words are equal and zero when they are not. -/
theorem onehot_weight (x y : BitVec 32) :
    ((((IntOp.cmpi .eq x y).setWidth 32).toInt : ℝ) : EReal) = if x = y then 1 else 0 := by
  unfold IntOp.cmpi
  by_cases h : x = y
  · have hb : (x == y) = true := by simpa using h
    rw [if_pos h, hb]
    have : ((BitVec.ofBool true).setWidth 32).toInt = 1 := by decide
    rw [this]; simp
  · have hb : (x == y) = false := by simpa using h
    rw [if_neg h, hb]
    have : ((BitVec.ofBool false).setWidth 32).toInt = 0 := by decide
    rw [this]; simp

/-- A 32-bit word read signed is the natural number `g` below `2 ^ 31` exactly when it is the word of `g`. -/
theorem toInt_eq_iff_eq_ofNat (x : BitVec 32) (g : ℕ) (hg : g < 2 ^ 31) : x.toInt = (g : ℤ) ↔ x = BitVec.ofNat 32 g := by
  constructor
  · intro h
    have := BitVec.ofInt_toInt (x := x)
    rw [h, BitVec.ofInt_natCast] at this
    exact this.symm
  · rintro rfl
    rw [BitVec.toInt_eq_toNat_cond, BitVec.toNat_ofNat]
    have : g % 2 ^ 32 = g := Nat.mod_eq_of_lt (by omega)
    rw [this, if_pos (by omega)]

/-- The contraction of a plain rows × inner by inner × columns product at entry `(p, q)`, summed over the dot's
    contraction index, is the sum over the inner coordinate `c` of the left operand at `(p, c)` times the right one at
    `(c, q)`. -/
theorem plain_contract {R : Type*} [AddCommMonoid R] [Mul R] {M K N : ℕ} (A : (⟨2, ![M, K]⟩ : Shape).Idx → R) (B : (⟨2, ![K, N]⟩ : Shape).Idx → R)
    (p : Fin M) (q : Fin N) :
    ∑ kk : (DotDims.plain M K N).contr.Idx, A ((DotDims.plain M K N).lhsIdx (ix2 p q) kk) * B ((DotDims.plain M K N).rhsIdx (ix2 p q) kk)
      = ∑ c : Fin K, A (ix2 p c) * B (ix2 c q) := by
  rw [← Equiv.sum_comp (contrEquiv1 (DotDims.plain M K N) K rfl rfl).symm]
  refine Finset.sum_congr rfl fun c _ => ?_
  have hl : (DotDims.plain M K N).lhsIdx (ix2 p q) ((contrEquiv1 (DotDims.plain M K N) K rfl rfl).symm c) = ix2 p c := by
    funext a; refine Fin.ext ?_
    match a with
    | ⟨0, _⟩ => rfl
    | ⟨1, _⟩ => exact contrEquiv1_symm_val (DotDims.plain M K N) K rfl rfl c
  have hr : (DotDims.plain M K N).rhsIdx (ix2 p q) ((contrEquiv1 (DotDims.plain M K N) K rfl rfl).symm c) = ix2 c q := by
    funext a; refine Fin.ext ?_
    match a with
    | ⟨0, _⟩ => exact contrEquiv1_symm_val (DotDims.plain M K N) K rfl rfl c
    | ⟨1, _⟩ => rfl
  rw [hl, hr]

end Cert.OneHotSum

end
-- ==== Proof.KI.Val3.lean ====
/-
  The value of the pooling and projection (fourth pallas_call) at the ideal floats. Each of the fifty points adds to a
  64×64 accumulator the product (one-hot of the block's ids)ᵀ · (the block's features); after the last point entry
  (g, k) is zero plus, over all 100000 rows, the weight (one if the row's id is the word of g, else zero) times the
  row's feature in channel k: the running total over the points, then fifty blocks of 2000 rows read as one sum. On
  the extended reals 1 · x = x and 0 · x = 0, so that is the sum over the rows whose id is g — which is what the
  host's accumulating scatter of the rows into zeros holds, since a row lands on graph g exactly when its id read as a
  signed integer is g. Both sides then divide row g by the count of g, multiply by the weight (equal sums over the
  inner coordinate) and add the bias row. The result array's one block is the whole array, written back once.
-/
import proofs.«425859_j79671643341337_2_alg».proof.Proof.KI.Reg3
import proofs.«425859_j79671643341337_2_alg».proof.Proof.KI.Spec
import proofs.«425859_j79671643341337_2_alg».proof.Proof.Gen.ReferenceIdeal
import proofs.«425859_j79671643341337_2_alg».proof.Proof.LibOneHotSum
import Idealize.ShloMosaic.Lib.ValueIdx
import Idealize.ShloMosaic.Lib.Pipeline.Value
import Idealize.ShloMosaic.PureOps.Ideal.Laws
import Idealize.ShloMosaic.Lib.ValueLayout

noncomputable section

open scoped BigOperators

namespace Cert.KernelIdeal.Val

open Idealize.ShloMosaic Idealize.ShloMosaic.TcCoe Idealize.SL.Sem Cert.KernelIdeal Cert.KernelIdeal.Gen Cert.KernelIdeal.Fr
open Idealize.ShloMosaic.ValueIdx
open Idealize.ShloMosaic.Pipeline (Dat)
open Cert.OneHotSum

variable (V : (c : Dev nD) → (b : Ref sig .tc) → Buf (Elt Ideal) ((c : Thread nD τ).loc b))

/-! ## The body's stores: each covers its whole buffer, so what it leaves is its payload -/

/-- Every access of the body is at offsets (0, 0). -/
theorem hz : (![0, 0] : Fin 2 → Nat) = fun _ => 0 := funext fun a => by fin_cases a <;> rfl

/-- The clearing store leaves its payload, a splat of zero. -/
theorem zero3_eq : zero3 (F := Ideal) = k3_pay1 (F := Ideal) := by
  unfold zero3
  rw [View.canon_unit_zero hz]

/-- The accumulating store leaves its payload of the two blocks and the accumulator, each loaded whole. -/
theorem step3_eq (x : Vec Ideal S2000x64 .f32) (g : Vec Ideal S2000x1 .i32) (a : Vec Ideal S64x64 .f32) :
    step3 x g a = k3_pay2 x g a := by
  unfold step3
  rw [View.canon_unit_zero hz]
  simp only [View.ld_unit_zero (S := S2000x64) hz, View.ld_unit_zero (S := S2000x1) hz, View.ld_unit_zero (S := S64x64) hz]

/-- The last point's store leaves its payload of the accumulator and the three whole inputs. -/
theorem out3_5_eq (a : Vec Ideal S64x64 .f32) (n : Vec Ideal S64x1 .f32) (w : Vec Ideal S64x128 .f32) (b : Vec Ideal S1x128 .f32) :
    out3_5 a n w b = k3_pay3 a n w b := by
  unfold out3_5
  rw [View.canon_unit_zero hz]
  simp only [View.ld_unit_zero (S := S64x64) hz, View.ld_unit_zero (S := S64x1) hz, View.ld_unit_zero (S := S64x128) hz, View.ld_unit_zero (S := S1x128) hz]

/-- Both products of the body are plain rows × inner by inner × columns products. -/
theorem dotA_plain : dot_S64x2000_S2000x64_S64x64_1_0_0_1_n_n = DotDims.plain 64 2000 64 := rfl
theorem dotB_plain : dot_S64x64_S64x128_S64x128_1_0_0_1_n_n = DotDims.plain 64 64 128 := rfl

/-- The cleared accumulator is zero at every entry. -/
theorem zero3_apply (p q : Fin 64) : zero3 (F := Ideal) (ix2 p q) = 0 := by
  rw [zero3_eq]
  unfold k3_pay1
  simp only [shapeCast_self]
  exact Ideal.ofBits_zero_f32

/-- The transposed one-hot matrix of a block's ids at (g, r): one when row r's id is the word of g, else zero. -/
theorem onehotT_apply (gi : IVec S2000x1 32) (hi : S2000x64.Iotas .tc 32 [1]) (hb : S2000x1.Broadcasts S2000x64)
    (hn : 1 < 32) (hf : FTy.bits .bf16 < FTy.bits .f32) (ht : S2000x64.Transposes [1, 0] S64x2000) (g : Fin 64) (r : Fin 2000) :
    (transpose S64x2000 [1, 0] (truncf .bf16 (sitofp .f32 (extui 32 (cmpi .eq (broadcastTo S2000x64 gi hb) (iota .tc S2000x64 32 [1] hi)) hn) : FVec Ideal S2000x64 .f32) hf) ht : FVec Ideal S64x2000 .bf16) (ix2 g r)
      = if gi (ix2 r 0) = BitVec.ofNat 32 g.val then 1 else 0 := by
  refine (transpose_apply [1, 0] _ ht (ix2 g r) (ix2 r g) (fun b => ?_)).trans ?_
  · match b with
    | ⟨0, _⟩ => rfl
    | ⟨1, _⟩ => rfl
  · show (((( IntOp.cmpi .eq (broadcastTo S2000x64 gi hb (ix2 r g)) (iota .tc S2000x64 32 [1] hi (ix2 r g))).setWidth 32).toInt : ℝ) : EReal) = _
    rw [onehot_weight, iota_single_apply]
    have e : broadcastTo S2000x64 gi hb (ix2 r g) = gi (ix2 r 0) :=
      broadcastTo_apply gi hb (ix2 r g) (ix2 r 0) (fun a => by
        match a with
        | ⟨0, _⟩ => rfl
        | ⟨1, _⟩ => rfl)
    rw [e]

/-- One point's accumulating store at (g, k): what the accumulator held plus the sum over the block's rows of the
    one-hot weight of the row's id at g times the row's feature in channel k. -/
theorem poolPay2_apply (x : Vec Ideal S2000x64 .f32) (gi : Vec Ideal S2000x1 .i32) (a : Vec Ideal S64x64 .f32) (g k : Fin 64) :
    k3_pay2 x gi a (ix2 g k)
      = a (ix2 g k) + ∑ r : Fin 2000, (if gi (ix2 r 0) = BitVec.ofNat 32 g.val then (1 : EReal) else 0) * x (ix2 r k) := by
  unfold k3_pay2
  simp only [shapeCast_self]
  show a (ix2 g k) + FloatOps.matmul dot_S64x2000_S2000x64_S64x64_1_0_0_1_n_n none _ _ (constant (F := Ideal) S64x64 .f32 0x00000000#32) (ix2 g k) = _
  refine congrArg (a (ix2 g k) + ·) ?_
  rw [dotA_plain]
  refine (Ideal.matmul_constant_zero_apply (DotDims.plain 64 2000 64) none _ _ (ix2 g k)).trans ?_
  refine (plain_contract _ _ g k).trans ?_
  refine Finset.sum_congr rfl fun r _ => ?_
  rw [onehotT_apply]
  rfl

/-! ## The two sides' common closed form -/

/-- The pooled sum of graph g in channel k: zero plus the sum, over the rows whose id read as a signed integer is g,
    of the feature in channel k. -/
def pool (X : FVec Ideal S100000x64 .f32) (G : IVec S100000x1 32) (g k : Fin 64) : EReal :=
  0 + ∑ R : Fin 100000, if (G (ix2 R 0)).toInt = (g.val : ℤ) then X (ix2 R k) else 0

/-- The projection of pooled sums S: each row divided by its graph's count, times the weight, plus the bias row. -/
def proj (S : Fin 64 → Fin 64 → EReal) (Cnt : FVec Ideal S64x1 .f32) (Pw : FVec Ideal S64x128 .f32) (Pb : FVec Ideal S1x128 .f32)
    (g : Fin 64) (c : Fin 128) : EReal :=
  (∑ k : Fin 64, Ideal.div (S g k) (Cnt (ix2 g 0)) * Pw (ix2 k c)) + Pb (ix2 0 c)

/-- The last point's store at (g, c): the accumulator's row g over the count of g, times the weight's column c, plus
    the bias at c. -/
theorem pay3_apply (a : Vec Ideal S64x64 .f32) (n : Vec Ideal S64x1 .f32) (w : Vec Ideal S64x128 .f32) (b : Vec Ideal S1x128 .f32)
    (g : Fin 64) (c : Fin 128) :
    k3_pay3 a n w b (ix2 g c) = proj (fun p q => a (ix2 p q)) n w b g c := by
  unfold k3_pay3 proj
  simp only [shapeCast_self]
  show FloatOps.matmul dot_S64x64_S64x128_S64x128_1_0_0_1_n_n none _ _ (constant (F := Ideal) S64x128 .f32 0x00000000#32) (ix2 g c)
    + broadcastTo S64x128 b _ (ix2 g c) = _
  refine congrArg₂ (· + ·) ?_ ?_
  · rw [dotB_plain]
    refine (Ideal.matmul_constant_zero_apply (DotDims.plain 64 64 128) none _ _ (ix2 g c)).trans ?_
    refine (plain_contract _ _ g c).trans ?_
    refine Finset.sum_congr rfl fun k _ => ?_
    refine congrArg (· * w (ix2 k c)) ?_
    show Ideal.div (a (ix2 g k)) (broadcastTo S64x64 n _ (ix2 g k)) = _
    refine congrArg (Ideal.div (a (ix2 g k))) ?_
    exact broadcastTo_apply n _ (ix2 g k) (ix2 g 0) (fun a' => by
      match a' with
      | ⟨0, _⟩ => rfl
      | ⟨1, _⟩ => rfl)
  · exact broadcastTo_apply b _ (ix2 g c) (ix2 0 c) (fun a' => by
      match a' with
      | ⟨0, _⟩ => rfl
      | ⟨1, _⟩ => rfl)

/-! ## The reference at an entry -/

/-- The reference's product is the same plain product … -/
theorem dotR_plain : Cert.ReferenceIdeal.dot_S64x64_S64x128_S64x128_1_0_0_1_n_n = DotDims.plain 64 64 128 := rfl

/-- … and its scatter is a scatter of whole rows by a column of row numbers. -/
theorem scatR_rows : Cert.ReferenceIdeal.scatter_S64x64_S100000x1_S100000x64_1_0_0_1
    = rowScatterDims 64 100000 64 Cert.ReferenceIdeal.Facts₀.scatter_S64x64_S100000x1_S100000x64_1_0_0_1_wf := rfl

/-- The host's scatter-add of the node rows by their ids into zeros holds the pooled sums. -/
theorem scatter_apply (X : FVec Ideal S100000x64 .f32) (G : IVec S100000x1 32)
    (hb : Cert.ReferenceIdeal.S_.BroadcastsInDim S64x64 (![] : Fin 0 → Fin 2)) (g k : Fin 64) :
    Host.scatterAdd (F := Ideal) Cert.ReferenceIdeal.scatter_S64x64_S100000x1_S100000x64_1_0_0_1
        (broadcastInDim S64x64 ![] hb (constant (F := Ideal) Cert.ReferenceIdeal.S_ .f32 0x00000000#32)) G X (ix2 g k)
      = pool X G g k := by
  rw [scatR_rows]
  refine (hostScatterAdd_rows_apply _ _ G X g k).trans ?_
  unfold pool
  refine congrArg (· + _) ?_
  exact Ideal.ofBits_zero_f32

/-- THE REFERENCE AT AN ENTRY: the projection of the pooled sums. -/
theorem G3_apply (X : FVec Ideal S100000x64 .f32) (G : IVec S100000x1 32) (Cnt : FVec Ideal S64x1 .f32)
    (Pw : FVec Ideal S64x128 .f32) (Pb : FVec Ideal S1x128 .f32) (g : Fin 64) (c : Fin 128) :
    Cert.Spec.G3 (F := Ideal) X G Cnt Pw Pb (ix2 g c) = proj (pool X G) Cnt Pw Pb g c := by
  unfold Cert.Spec.G3 proj
  show FloatOps.dotGeneral Cert.ReferenceIdeal.dot_S64x64_S64x128_S64x128_1_0_0_1_n_n none .single _ Pw (ix2 g c)
    + broadcastInDim _ ![0, 1] _ Pb (ix2 g c) = _
  refine congrArg₂ (· + ·) ?_ ?_
  · rw [dotR_plain]
    refine (Ideal.dotGeneral_apply (DotDims.plain 64 64 128) none .single _ Pw (ix2 g c)).trans ?_
    refine (plain_contract _ _ g c).trans ?_
    refine Finset.sum_congr rfl fun k _ => ?_
    refine congrArg (· * Pw (ix2 k c)) ?_
    show Ideal.div (Host.scatterAdd (F := Ideal) _ _ G X (ix2 g k)) (broadcastInDim _ ![0, 1] _ Cnt (ix2 g k)) = _
    refine congrArg₂ Ideal.div (scatter_apply X G _ g k) ?_
    exact broadcastInDim_apply ![0, 1] _ Cnt (ix2 g k) (ix2 g 0) (fun a' => by
      match a' with
      | ⟨0, _⟩ => rfl
      | ⟨1, _⟩ => rfl)
  · exact broadcastInDim_apply ![0, 1] _ Pb (ix2 g c) (ix2 0 c) (fun a' => by
      match a' with
      | ⟨0, _⟩ => rfl
      | ⟨1, _⟩ => rfl)

/-! ## The windows' blocks as parts of their arrays -/

/-- The printed index maps, decided once over the grid: the two row-blocked windows sit at block (t, 0); the three
    whole inputs and the output at block (0, 0). -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Row r of the feature block at point t is row 2000·t + r of the node features. -/
theorem xblk_apply (c : Dev nD) (t : Fin cfg3.N) (r : Fin 2000) (q : Fin 64) (R : Fin 100000) (hR : R.val = 2000 * t.val + r.val) :
    (iblk3 V c 0 t : Vec Ideal S2000x64 .f32) (ix2 r q) = (V c main_v51 : S100000x64.Idx → Elt Ideal .f32) (ix2 R q) := by
  obtain ⟨e0, e1, -⟩ := idx3 t
  unfold iblk3
  rw [View.read_apply]
  show V c main_v51 _ = V c main_v51 _
  congr 1
  funext a; apply Fin.ext
  match a with
  | ⟨0, _⟩ => show win3_0.index t 0 * 2000 + 1 * r.val = R.val; rw [e0, hR]; omega
  | ⟨1, _⟩ => show win3_0.index t 1 * 64 + 1 * q.val = q.val; rw [e1]; omega

/-- Row r of the id block at point t is row 2000·t + r of the graph ids. -/
theorem gblk_apply (c : Dev nD) (t : Fin cfg3.N) (r : Fin 2000) (R : Fin 100000) (hR : R.val = 2000 * t.val + r.val) :
    (iblk3 V c 1 t : Vec Ideal S2000x1 .i32) (ix2 r 0) = (V c main_v58 : S100000x1.Idx → Elt Ideal .i32) (ix2 R 0) := by
  obtain ⟨-, -, e0, e1, -⟩ := idx3 t
  unfold iblk3
  rw [View.read_apply]
  show V c main_v58 _ = V c main_v58 _
  congr 1
  funext a; apply Fin.ext
  match a with
  | ⟨0, _⟩ => show win3_1.index t 0 * 2000 + 1 * r.val = R.val; rw [e0, hR]; omega
  | ⟨1, _⟩ => show win3_1.index t 1 * 1 + 1 * 0 = 0; rw [e1]

/-- The count column's block is the whole column … -/
theorem nblk_eq (c : Dev nD) (t : Fin cfg3.N) : (iblk3 V c 2 t : Vec Ideal S64x1 .f32) = V c main_v57 := by
  obtain ⟨-, -, -, -, e0, e1, -⟩ := idx3 t
  funext y
  unfold iblk3
  rw [View.read_apply]
  show V c main_v57 _ = V c main_v57 _
  congr 1
  funext a; apply Fin.ext
  match a with
  | ⟨0, _⟩ => show win3_2.index t 0 * 64 + 1 * (y 0).val = (y 0).val; rw [e0]; omega
  | ⟨1, _⟩ => show win3_2.index t 1 * 1 + 1 * (y 1).val = (y 1).val; rw [e1]; omega

/-- … the weight's block the whole weight … -/
theorem wblk_eq (c : Dev nD) (t : Fin cfg3.N) : (iblk3 V c 3 t : Vec Ideal S64x128 .f32) = V c main_arg12 := by
  obtain ⟨-, -, -, -, -, -, e0, e1, -⟩ := idx3 t
  funext y
  unfold iblk3
  rw [View.read_apply]
  show V c main_arg12 _ = V c main_arg12 _
  congr 1
  funext a; apply Fin.ext
  match a with
  | ⟨0, _⟩ => show win3_3.index t 0 * 64 + 1 * (y 0).val = (y 0).val; rw [e0]; omega
  | ⟨1, _⟩ => show win3_3.index t 1 * 128 + 1 * (y 1).val = (y 1).val; rw [e1]; omega

/-- … and the bias row's block the whole row. -/
theorem bblk_eq (c : Dev nD) (t : Fin cfg3.N) : (iblk3 V c 4 t : Vec Ideal S1x128 .f32) = V c main_v59 := by
  obtain ⟨-, -, -, -, -, -, -, -, e0, e1, -⟩ := idx3 t
  funext y
  unfold iblk3
  rw [View.read_apply]
  show V c main_v59 _ = V c main_v59 _
  congr 1
  funext a; apply Fin.ext
  match a with
  | ⟨0, _⟩ => show win3_4.index t 0 * 1 + 1 * (y 0).val = (y 0).val; rw [e0]; omega
  | ⟨1, _⟩ => show win3_4.index t 1 * 128 + 1 * (y 1).val = (y 1).val; rw [e1]; omega

/-! ## The accumulation over the fifty points -/

/-- Row R's contribution to graph g in channel k: the one-hot weight of its id at g times its feature. -/
def wrow (X : FVec Ideal S100000x64 .f32) (G : IVec S100000x1 32) (g k : Fin 64) (R : Fin 100000) : EReal :=
  (if G (ix2 R 0) = BitVec.ofNat 32 g.val then (1 : EReal) else 0) * X (ix2 R k)

/-- Fifty blocks of 2000 rows are the 100000 rows. -/
theorem blocks_rows : 50 * 2000 = 100000 := by norm_num

/-- One point's step at (g, k): what the accumulator held plus the contributions of the point's 2000 rows. -/
theorem step_apply (c : Dev nD) (t : Fin cfg3.N) (ht : t.val < 50) (a : Vec Ideal S64x64 .f32) (g k : Fin 64) :
    step3 (iblk3 V c 0 t) (iblk3 V c 1 t) a (ix2 g k)
      = a (ix2 g k) + ∑ r : Fin 2000, wrow (V c main_v51) (V c main_v58) g k
          ⟨2000 * t.val + r.val, block_row_lt blocks_rows ⟨t.val, ht⟩ r⟩ := by
  refine (congrFun (step3_eq (iblk3 V c 0 t) (iblk3 V c 1 t) a) (ix2 g k)).trans ?_
  refine (poolPay2_apply (iblk3 V c 0 t) (iblk3 V c 1 t) a g k).trans ?_
  refine congrArg (a (ix2 g k) + ·) (Finset.sum_congr rfl fun r _ => ?_)
  unfold wrow
  exact congrArg₂ (fun (u : BitVec 32) (v : EReal) => (if u = BitVec.ofNat 32 g.val then (1 : EReal) else 0) * v)
    (gblk_apply V c t r ⟨2000 * t.val + r.val, block_row_lt blocks_rows ⟨t.val, ht⟩ r⟩ rfl)
    (xblk_apply V c t r k ⟨2000 * t.val + r.val, block_row_lt blocks_rows ⟨t.val, ht⟩ r⟩ rfl)

/-- After the last point the accumulator holds, at (g, k), zero plus every row's contribution: the running total
    over the points, then the fifty blocks of 2000 rows read as all 100000 rows. -/
theorem acc_last (c : Dev nD) (g k : Fin 64) (h : 49 < cfg3.N) :
    acc3 V c 49 h (ix2 g k) = 0 + ∑ R : Fin 100000, wrow (V c main_v51) (V c main_v58) g k R := by
  have hN : cfg3.N = 50 := N_3
  have key := running_total_last (N := 50)
    (fun n (hn : n < 50) => acc3 V c n (lt_of_lt_of_eq hn hN.symm) (ix2 g k))
    (fun t : Fin 50 => ∑ r : Fin 2000, wrow (V c main_v51) (V c main_v58) g k
      ⟨2000 * t.val + r.val, block_row_lt blocks_rows t r⟩) 0
    (fun h0 => by
      show acc3 V c 0 _ (ix2 g k) = _
      rw [acc3_zero]
      refine (step_apply V c ⟨0, lt_of_lt_of_eq h0 hN.symm⟩ h0 zero3 g k).trans ?_
      rw [zero3_apply])
    (fun n hn => by
      show acc3 V c (n + 1) _ (ix2 g k) = acc3 V c n _ (ix2 g k) + _
      rw [acc3_succ]
      exact step_apply V c ⟨n + 1, lt_of_lt_of_eq hn hN.symm⟩ hn (acc3 V c n _) g k)
    49 (by norm_num) rfl
  rw [sum_blocks blocks_rows] at key
  exact key

/-! ## The result array -/

/-- Every row's contribution to graph g, summed, is the pooled sum: the weights keep the rows whose id is the word of
    g, and for g below 64 that is the rows whose id read signed is g. -/
theorem sum_wrow_eq_pool (X : FVec Ideal S100000x64 .f32) (G : IVec S100000x1 32) (g k : Fin 64) :
    0 + ∑ R : Fin 100000, wrow X G g k R = pool X G g k := by
  unfold pool
  refine congrArg (0 + ·) ?_
  refine (sum_indicator_mul (fun R : Fin 100000 => G (ix2 R 0) = BitVec.ofNat 32 g.val) (fun R => X (ix2 R k))).trans ?_
  exact Finset.sum_congr rfl fun R _ =>
    if_congr (toInt_eq_iff_eq_ofNat (G (ix2 R 0)) g.val (by have := g.isLt; omega)).symm rfl rfl

/-- The accumulator after the last point is the pooled sums. -/
theorem acc_last_eq_pool (c : Dev nD) (g k : Fin 64) (n : ℕ) (h : n < cfg3.N) (hn : n = 49) :
    acc3 V c n h (ix2 g k) = pool (V c main_v51) (V c main_v58) g k := by
  subst hn
  exact (acc_last V c g k h).trans (sum_wrow_eq_pool _ _ g k)

/-- What the result array ends holding: the reference's pooling and projection of the five arrays the region finds. -/
abbrev result (c : Dev nD) : Vec Ideal S64x128 .f32 :=
  Cert.Spec.G3 (F := Ideal) (V c main_v51) (V c main_v58) (V c main_v57) (V c main_arg12) (V c main_v59)

/-- After the last point the output's staging buffer holds it. -/
theorem out_last (c : Dev nD) (t : Fin cfg3.N) (ht : t.val = 49) :
    (dat3 (F := Ideal) V c).after 5 t = result V c := by
  rw [after3_5_last V c t ht]
  funext j
  obtain ⟨g, q, rfl⟩ : ∃ (g : Fin 64) (q : Fin 128), j = ix2 g q := ⟨j 0, j 1, eq_ix2 j⟩
  refine (congrFun (out3_5_eq (acc3 V c t.val t.isLt) (iblk3 V c 2 t) (iblk3 V c 3 t) (iblk3 V c 4 t)) (ix2 g q)).trans ?_
  refine (pay3_apply (acc3 V c t.val t.isLt) (iblk3 V c 2 t) (iblk3 V c 3 t) (iblk3 V c 4 t) g q).trans ?_
  rw [nblk_eq V c t, wblk_eq V c t, bblk_eq V c t]
  refine Eq.trans ?_ (G3_apply (V c main_v51) (V c main_v58) (V c main_v57) (V c main_arg12) (V c main_v59) g q).symm
  refine congrArg (fun S => proj S (V c main_v57) (V c main_arg12) (V c main_v59) g q) ?_
  funext p k
  exact acc_last_eq_pool V c p k t.val t.isLt ht

/-- The one write-back, at the last point, writes the result: the output's block is the whole array. -/
theorem flushed_eq (c : Dev nD) (t : Fin cfg3.N) (hf : (cfg3.win 5).flush t = true) :
    (dat3 (F := Ideal) V c).flushed 5 t = ((cfg3.win 5).blk t).view.read (Elt Ideal) (result V c) := by
  have hN : cfg3.N = 50 := N_3
  have h49 : t.val = 49 := by have := (flush3_5 t).mp hf; have := t.isLt; omega
  obtain ⟨-, -, -, -, -, -, -, -, -, -, e0, e1⟩ := idx3 t
  show (cfg3.win 5).cut (grid3.coords t) ((dat3 V c).after 5 t) = _
  rw [out_last V c t h49]
  funext j
  show result V c j = result V c (((cfg3.win 5).blk t).view.emb j)
  congr 1
  funext a; apply Fin.ext
  match a with
  | ⟨0, _⟩ => show (j 0).val = win3_5.index t 0 * 64 + 1 * (j 0).val; rw [e0]; omega
  | ⟨1, _⟩ => show (j 1).val = win3_5.index t 1 * 128 + 1 * (j 1).val; rw [e1]; omega

/-- An index of the result array is in point t's block iff each coordinate is in the block's range on its axis. -/
theorem mem_blk5 (t : Fin cfg3.N) (i : S64x128.Idx) :
    i ∈ ((cfg3.win 5).blk t).view.set ↔ ∀ a : Fin 2, win3_5.index t a * S64x128.size a ≤ (i a).val ∧ (i a).val < win3_5.index t a * S64x128.size a + S64x128.size a := by
  show i ∈ ((View.whole main_v60).slice (win3_5.rect t)).set ↔ _
  rw [View.set_slice_whole, Rect.mem_set_unit]
  exact Iff.rfl

/-- THE RESULT ARRAY after the region: the reference's pooling and projection of the arrays the region finds. -/
theorem final3 (V : (c : Dev nD) → (b : Ref sig .tc) → Buf (Elt Ideal) ((c : Thread nD τ).loc b)) (c : Dev nD) :
    (dat3 (F := Ideal) V c).arrAt 5 cfg3.N
      = Cert.Spec.G3 (F := Ideal) (V c main_v51) (V c main_v58) (V c main_v57) (V c main_arg12) (V c main_v59) := by
  have hN : cfg3.N = 50 := N_3
  refine (dat3 V c).arrAt_eq_of_cover 5 (result V c) (fun t hf => flushed_eq V c t hf) fun i => ?_
  refine ⟨⟨49, by omega⟩, (flush3_5 _).mpr rfl, ?_⟩
  obtain ⟨-, -, -, -, -, -, -, -, -, -, e0, e1⟩ := idx3 ⟨49, by omega⟩
  rw [mem_blk5]
  intro a
  have h0 : (i 0).val < 64 := (i 0).isLt
  have h1 : (i 1).val < 128 := (i 1).isLt
  match a with
  | ⟨0, _⟩ => show win3_5.index ⟨49, _⟩ 0 * 64 ≤ (i 0).val ∧ (i 0).val < win3_5.index ⟨49, _⟩ 0 * 64 + 64; rw [e0]; omega
  | ⟨1, _⟩ => show win3_5.index ⟨49, _⟩ 1 * 128 ≤ (i 1).val ∧ (i 1).val < win3_5.index ⟨49, _⟩ 1 * 128 + 128; rw [e1]; omega

end Cert.KernelIdeal.Val

end
-- ==== Proof.KI.RefSpec.lean ====
/-
  The reference program's four stage values, each as the corresponding whole-array function of the specification
  applied to the values the stage reads: the edge projection, the two SAGE combines, the pooling and projection.
  Each stage of the reference is literally the specification's term — the same host product, bias broadcast, sum and
  positive part over the same operands — so each equation holds by unfolding the stage's operations.
-/
import proofs.«425859_j79671643341337_2_alg».proof.Proof.RefRead
import proofs.«425859_j79671643341337_2_alg».proof.Proof.KI.Spec

noncomputable section

namespace Cert.RefSpec

open Idealize.ShloMosaic Cert.ReferenceIdeal Cert.ReferenceIdeal.Read

variable {F : FTy → Type} [FloatOps F]

-- the contents of the reference program's arguments, by argument number
variable (x0 : (⟨S100000x18, .f32⟩ : BufTy).Contents (Elt F)) (x1 : (⟨S1600000x22, .f32⟩ : BufTy).Contents (Elt F))
  (x2 : (⟨S2x1600000, .i32⟩ : BufTy).Contents (Elt F)) (x3 : (⟨S100000, .i32⟩ : BufTy).Contents (Elt F))
  (x4 : (⟨S22x18, .f32⟩ : BufTy).Contents (Elt F)) (x5 : (⟨S18, .f32⟩ : BufTy).Contents (Elt F))
  (x6 : (⟨S18x64, .f32⟩ : BufTy).Contents (Elt F)) (x7 : (⟨S64, .f32⟩ : BufTy).Contents (Elt F))
  (x8 : (⟨S18x64, .f32⟩ : BufTy).Contents (Elt F)) (x9 : (⟨S64x64, .f32⟩ : BufTy).Contents (Elt F))
  (x10 : (⟨S64, .f32⟩ : BufTy).Contents (Elt F)) (x11 : (⟨S64x64, .f32⟩ : BufTy).Contents (Elt F))
  (x12 : (⟨S64x128, .f32⟩ : BufTy).Contents (Elt F)) (x13 : (⟨S128, .f32⟩ : BufTy).Contents (Elt F))

/-! ## The four stages -/

/-- The edge update: edge features times the weight plus the bias as a row on every row. -/
theorem ref_stage0 : val_main_v7 (F := F) x1 x4 x5 = Cert.Spec.G0 x1 x4 (val_main_v5 (F := F) x5) := by
  unfold val_main_v7 val_main_v4 val_main_v6 Cert.Spec.G0
  rfl

/-- The first SAGE layer: the positive part of (neighbour mean · left weight + bias row) + node features · right weight. -/
theorem ref_stage1 : val_main_v39 (F := F) x0 x1 x2 x4 x5 x6 x7 x8
    = Cert.Spec.G1 (val_main_v32 (F := F) x0 x1 x2 x4 x5) (val_main_v11 (F := F) x0 x1 x2 x4 x5) x6 (val_main_v34 (F := F) x7) x8 := by
  unfold val_main_v39 val_main_v38 val_main_v36 val_main_v33 val_main_v35 val_main_v37 val_main_call1_v0 val_main_call1_cst Cert.Spec.G1
  rfl

/-- The second SAGE layer: the same over the first layer's 64 channels. -/
theorem ref_stage2 : val_main_v67 (F := F) x0 x1 x2 x4 x5 x6 x7 x8 x9 x10 x11
    = Cert.Spec.G2 (val_main_v60 (F := F) x0 x1 x2 x4 x5 x6 x7 x8) (val_main_v39 (F := F) x0 x1 x2 x4 x5 x6 x7 x8) x9 (val_main_v62 (F := F) x10) x11 := by
  unfold val_main_v67 val_main_v66 val_main_v64 val_main_v61 val_main_v63 val_main_v65 val_main_call3_v0 val_main_call3_cst Cert.Spec.G2
  rfl

/-- The pooling and projection: per graph the sum of its nodes' rows over the count, times the projection, plus the bias row. -/
theorem ref_stage3 : val_main_v82 (F := F) x0 x1 x2 x3 x4 x5 x6 x7 x8 x9 x10 x11 x12 x13
    = Cert.Spec.G3 (val_main_v67 (F := F) x0 x1 x2 x4 x5 x6 x7 x8 x9 x10 x11) (val_main_v69 (F := F) x3) (val_main_v76 (F := F) x3) x12 (val_main_v80 (F := F) x13) := by
  unfold val_main_v82 val_main_v79 val_main_v78 val_main_v70 val_main_v77 val_main_v81 val_main_v68 val_main_cst_15 Cert.Spec.G3
  rfl

end Cert.RefSpec

end
-- ==== Proof.KI.Bridge.lean ====
/-
  The bridge at the ideal instance: boundary by boundary, every buffer that a kernel region or a later stretch of host
  operations consumes holds the reference program's value of the corresponding stage, as a function of the launch arguments.
  A region's result is its whole-array function of its inputs (the value lemmas), which is the reference's own stage over the
  same inputs; a stretch of host operations carries reference stage values to reference stage values; a buffer nothing writes
  keeps what it held. At the end the kernel program's result buffer holds the reference's result term.
-/
import proofs.«425859_j79671643341337_2_alg».proof.Proof.KI.Keep
import proofs.«425859_j79671643341337_2_alg».proof.Proof.KI.Glue
import proofs.«425859_j79671643341337_2_alg».proof.Proof.KI.Val0
import proofs.«425859_j79671643341337_2_alg».proof.Proof.KI.Val1
import proofs.«425859_j79671643341337_2_alg».proof.Proof.KI.Val2
import proofs.«425859_j79671643341337_2_alg».proof.Proof.KI.Val3
import proofs.«425859_j79671643341337_2_alg».proof.Proof.KI.RefSpec

noncomputable section

namespace Cert.KernelIdeal.Val

open Idealize.ShloMosaic Idealize.ShloMosaic.TcCoe Idealize.SL.Sem
open Cert.KernelIdeal Cert.KernelIdeal.Gen Cert.KernelIdeal.Fr
open Cert.ReferenceIdeal.Read

variable (m : (ℓ : Loc nD τ sig) → Buf (Elt Ideal) ℓ) (c : Dev nD)

/-- The launch arguments on core c. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)
abbrev a11 := m ((c : Thread nD τ).loc main_arg11)
abbrev a12 := m ((c : Thread nD τ).loc main_arg12)
abbrev a13 := m ((c : Thread nD τ).loc main_arg13)

/-! ## Up to the edge projection -/

theorem B1_v1 : X1 m c (Proc.devRef .tc main_v1) = val_main_v1 (a2 m c) :=
  (congrFun (X1_def m c) _).trans (Cert.Glue.src_ids (V0 m c) (a2 m c) rfl)
theorem B1_v3 : X1 m c (Proc.devRef .tc main_v3) = val_main_v3 (a2 m c) :=
  (congrFun (X1_def m c) _).trans (Cert.Glue.dst_ids (V0 m c) (a2 m c) rfl)
theorem B1_v4 : X1 m c (Proc.devRef .tc main_v4) = val_main_v5 (a5 m c) :=
  (congrFun (X1_def m c) _).trans (Cert.Glue.bias_row0 (V0 m c) (a5 m c) rfl)

/-- The edge projection's result is the reference's edge update. -/
theorem E0 : o2 m c = val_main_v7 (a1 m c) (a4 m c) (a5 m c) := by
  refine (final0 (atTc (X1 m)) c).trans ?_
  rw [show atTc (X1 m) c main_arg1 = (a1 m c) from keep_X1_arg1 m c, show atTc (X1 m) c main_arg4 = (a4 m c) from keep_X1_arg4 m c,
    show atTc (X1 m) c main_v4 = val_main_v5 (a5 m c) from B1_v4 m c]
  exact (Cert.RefSpec.ref_stage0 (a1 m c) (a4 m c) (a5 m c)).symm

theorem B2_v5 : X2 m c (Proc.devRef .tc main_v5) = val_main_v7 (a1 m c) (a4 m c) (a5 m c) := (at_X2_v5 m c).trans (E0 m c)
theorem B2_v1 : X2 m c (Proc.devRef .tc main_v1) = val_main_v1 (a2 m c) := (keep_X2_v1 m c).trans (B1_v1 m c)
theorem B2_v3 : X2 m c (Proc.devRef .tc main_v3) = val_main_v3 (a2 m c) := (keep_X2_v3 m c).trans (B1_v3 m c)

/-! ## Up to the first combine -/

theorem B3_v9 : X3 m c (Proc.devRef .tc main_v9) = val_main_v11 (a0 m c) (a1 m c) (a2 m c) (a4 m c) (a5 m c) :=
  (congrFun (X3_def m c) _).trans (Cert.Glue.nodes1 (X2 m c) (a0 m c) (a1 m c) (a2 m c) (a4 m c) (a5 m c) (keep_X2_arg0 m c) (B2_v1 m c) (B2_v5 m c))
theorem B3_v13 : X3 m c (Proc.devRef .tc main_v13) = val_main_v25 (a2 m c) :=
  (congrFun (X3_def m c) _).trans (Cert.Glue.indeg (X2 m c) (a2 m c) (B2_v3 m c))
theorem B3_v25 : X3 m c (Proc.devRef .tc main_v25) = val_main_v27 (a2 m c) :=
  (congrFun (X3_def m c) _).trans (Cert.Glue.indeg_pos (X2 m c) (a2 m c) (B2_v3 m c))
theorem B3_v29 : X3 m c (Proc.devRef .tc main_v29) = val_main_v31 (a0 m c) (a1 m c) (a2 m c) (a4 m c) (a5 m c) :=
  (congrFun (X3_def m c) _).trans (Cert.Glue.mean1_raw (X2 m c) (a0 m c) (a1 m c) (a2 m c) (a4 m c) (a5 m c) (keep_X2_arg0 m c) (B2_v1 m c) (B2_v3 m c) (B2_v5 m c))
theorem B3_cst6 : X3 m c (Proc.devRef .tc main_cst_6) = val_main_cst_6 (F := Ideal) :=
  (congrFun (X3_def m c) _).trans (Cert.Glue.zero6 (X2 m c))
theorem B4_v30 : X4 m c (Proc.devRef .tc main_v30) = val_main_v32 (a0 m c) (a1 m c) (a2 m c) (a4 m c) (a5 m c) :=
  (congrFun (X4_def m c) _).trans (Cert.Glue.mean1 (X3 m c) (a0 m c) (a1 m c) (a2 m c) (a4 m c) (a5 m c) (B3_v25 m c) (B3_v29 m c) (B3_cst6 m c))
theorem B5_v31 : X5 m c (Proc.devRef .tc main_v31) = val_main_v34 (a7 m c) :=
  (congrFun (X5_def m c) _).trans (Cert.Glue.bias_row1 (X4 m c) (a7 m c) (keep_X4_arg7 m c))
theorem B5_v30 : X5 m c (Proc.devRef .tc main_v30) = val_main_v32 (a0 m c) (a1 m c) (a2 m c) (a4 m c) (a5 m c) := (keep_X5_v30 m c).trans (B4_v30 m c)
theorem B5_v9 : X5 m c (Proc.devRef .tc main_v9) = val_main_v11 (a0 m c) (a1 m c) (a2 m c) (a4 m c) (a5 m c) := (keep_X5_v9 m c).trans (B3_v9 m c)

/-- The first combine's result is the reference's first layer. -/
theorem E1 : o6 m c = val_main_v39 (a0 m c) (a1 m c) (a2 m c) (a4 m c) (a5 m c) (a6 m c) (a7 m c) (a8 m c) := by
  refine (final1 (atTc (X5 m)) c).trans ?_
  rw [show atTc (X5 m) c main_v30 = _ from B5_v30 m c, show atTc (X5 m) c main_v9 = _ from B5_v9 m c,
    show atTc (X5 m) c main_arg6 = (a6 m c) from keep_X5_arg6 m c, show atTc (X5 m) c main_v31 = _ from B5_v31 m c,
    show atTc (X5 m) c main_arg8 = (a8 m c) from keep_X5_arg8 m c]
  exact (Cert.RefSpec.ref_stage1 (a0 m c) (a1 m c) (a2 m c) (a4 m c) (a5 m c) (a6 m c) (a7 m c) (a8 m c)).symm

theorem B6_v32 : X6 m c (Proc.devRef .tc main_v32) = val_main_v39 (a0 m c) (a1 m c) (a2 m c) (a4 m c) (a5 m c) (a6 m c) (a7 m c) (a8 m c) := (at_X6_v32 m c).trans (E1 m c)
theorem B6_v1 : X6 m c (Proc.devRef .tc main_v1) = val_main_v1 (a2 m c) := (keep_X6_v1 m c).trans (B1_v1 m c)
theorem B6_v3 : X6 m c (Proc.devRef .tc main_v3) = val_main_v3 (a2 m c) := (keep_X6_v3 m c).trans (B1_v3 m c)
theorem B6_v13 : X6 m c (Proc.devRef .tc main_v13) = val_main_v25 (a2 m c) := (keep_X6_v13 m c).trans (B3_v13 m c)

/-! ## Up to the second combine -/

theorem B7_v44 : X7 m c (Proc.devRef .tc main_v44) = val_main_v55 (a2 m c) :=
  (congrFun (X7_def m c) _).trans (Cert.Glue.indeg_pos2 (X6 m c) (a2 m c) (B6_v13 m c))
theorem B7_v48 : X7 m c (Proc.devRef .tc main_v48) = val_main_v59 (a0 m c) (a1 m c) (a2 m c) (a4 m c) (a5 m c) (a6 m c) (a7 m c) (a8 m c) :=
  (congrFun (X7_def m c) _).trans (Cert.Glue.mean2_raw (X6 m c) (a0 m c) (a1 m c) (a2 m c) (a4 m c) (a5 m c) (a6 m c) (a7 m c) (a8 m c) (B6_v1 m c) (B6_v3 m c) (B6_v13 m c) (B6_v32 m c))
theorem B7_cst12 : X7 m c (Proc.devRef .tc main_cst_12) = val_main_cst_14 (F := Ideal) :=
  (congrFun (X7_def m c) _).trans (Cert.Glue.zero12 (X6 m c))
theorem B8_v49 : X8 m c (Proc.devRef .tc main_v49) = val_main_v60 (a0 m c) (a1 m c) (a2 m c) (a4 m c) (a5 m c) (a6 m c) (a7 m c) (a8 m c) :=
  (congrFun (X8_def m c) _).trans (Cert.Glue.mean2 (X7 m c) (a0 m c) (a1 m c) (a2 m c) (a4 m c) (a5 m c) (a6 m c) (a7 m c) (a8 m c) (B7_v44 m c) (B7_v48 m c) (B7_cst12 m c))
theorem B9_v50 : X9 m c (Proc.devRef .tc main_v50) = val_main_v62 (a10 m c) :=
  (congrFun (X9_def m c) _).trans (Cert.Glue.bias_row2 (X8 m c) (a10 m c) (keep_X8_arg10 m c))
theorem B9_v49 : X9 m c (Proc.devRef .tc main_v49) = val_main_v60 (a0 m c) (a1 m c) (a2 m c) (a4 m c) (a5 m c) (a6 m c) (a7 m c) (a8 m c) := (keep_X9_v49 m c).trans (B8_v49 m c)
theorem B9_v32 : X9 m c (Proc.devRef .tc main_v32) = val_main_v39 (a0 m c) (a1 m c) (a2 m c) (a4 m c) (a5 m c) (a6 m c) (a7 m c) (a8 m c) := (keep_X9_v32 m c).trans (B6_v32 m c)

/-- The second combine's result is the reference's second layer. -/
theorem E2 : o10 m c = val_main_v67 (a0 m c) (a1 m c) (a2 m c) (a4 m c) (a5 m c) (a6 m c) (a7 m c) (a8 m c) (a9 m c) (a10 m c) (a11 m c) := by
  refine (final2 (atTc (X9 m)) c).trans ?_
  rw [show atTc (X9 m) c main_v49 = _ from B9_v49 m c, show atTc (X9 m) c main_v32 = _ from B9_v32 m c,
    show atTc (X9 m) c main_arg9 = (a9 m c) from keep_X9_arg9 m c, show atTc (X9 m) c main_v50 = _ from B9_v50 m c,
    show atTc (X9 m) c main_arg11 = (a11 m c) from keep_X9_arg11 m c]
  exact (Cert.RefSpec.ref_stage2 (a0 m c) (a1 m c) (a2 m c) (a4 m c) (a5 m c) (a6 m c) (a7 m c) (a8 m c) (a9 m c) (a10 m c) (a11 m c)).symm

/-! ## Up to the pooling kernel, and its result -/

theorem B10_v51 : X10 m c (Proc.devRef .tc main_v51) = val_main_v67 (a0 m c) (a1 m c) (a2 m c) (a4 m c) (a5 m c) (a6 m c) (a7 m c) (a8 m c) (a9 m c) (a10 m c) (a11 m c) := (at_X10_v51 m c).trans (E2 m c)
theorem B11_v51 : X11 m c (Proc.devRef .tc main_v51) = val_main_v67 (a0 m c) (a1 m c) (a2 m c) (a4 m c) (a5 m c) (a6 m c) (a7 m c) (a8 m c) (a9 m c) (a10 m c) (a11 m c) := (keep_X11_v51 m c).trans (B10_v51 m c)
theorem B11_v57 : X11 m c (Proc.devRef .tc main_v57) = val_main_v76 (a3 m c) :=
  (congrFun (X11_def m c) _).trans (Cert.Glue.counts (X10 m c) (a3 m c) (keep_X10_arg3 m c))
theorem B11_v58 : X11 m c (Proc.devRef .tc main_v58) = val_main_v69 (a3 m c) :=
  (congrFun (X11_def m c) _).trans (Cert.Glue.ids_col (X10 m c) (a3 m c) (keep_X10_arg3 m c))
theorem B11_v59 : X11 m c (Proc.devRef .tc main_v59) = val_main_v80 (a13 m c) :=
  (congrFun (X11_def m c) _).trans (Cert.Glue.bias_row3 (X10 m c) (a13 m c) (keep_X10_arg13 m c))

/-- The pooling kernel's result is the reference's result, as a function of the launch arguments. -/
theorem E3 : o12 m c = val_main_v82 (a0 m c) (a1 m c) (a2 m c) (a3 m c) (a4 m c) (a5 m c) (a6 m c) (a7 m c) (a8 m c) (a9 m c) (a10 m c) (a11 m c) (a12 m c) (a13 m c) := by
  refine (final3 (atTc (X11 m)) c).trans ?_
  rw [show atTc (X11 m) c main_v51 = _ from B11_v51 m c, show atTc (X11 m) c main_v58 = _ from B11_v58 m c,
    show atTc (X11 m) c main_v57 = _ from B11_v57 m c, show atTc (X11 m) c main_arg12 = (a12 m c) from keep_X11_arg12 m c,
    show atTc (X11 m) c main_v59 = _ from B11_v59 m c]
  exact (Cert.RefSpec.ref_stage3 (a0 m c) (a1 m c) (a2 m c) (a3 m c) (a4 m c) (a5 m c) (a6 m c) (a7 m c) (a8 m c) (a9 m c) (a10 m c) (a11 m c) (a12 m c) (a13 m c)).symm

end Cert.KernelIdeal.Val

end
-- ==== Proof.lean ====
/- The GraphSAGE encoder as four kernel regions (the edge projection, two neighbour-mean combines, the one-hot pooling with its
   final projection) among host gathers and scatter-adds, against the plain reference.
   Frames: the program is run as segments, a host segment per stretch of host operations and a record per kernel region around
   "every unscoped buffer at the boundary's contents"; each region's body runs at every grid point (the pooling kernel with its
   accumulator carried in the region's invariant), no stretch and no region writes an argument. The word-level program's frame
   is the same text in its own namespace. The reference's frame is its run with the result dropped.
   Value: at the ideal instance each region's result is one whole-array function of its inputs — row blocks of a product
   into a zero accumulator are rows of the whole product; the sum over fifty blocks of one-hot(ids)ᵀ · X is, entry (g, h), the
   sum of X[r, h] over the rows r whose id is g, because 0 · x = 0 and 1 · x = x for every extended real and a finite sum
   may be regrouped — and that function is the reference's own stage over the same inputs; the host operations between the
   regions are the reference's, so stage values are carried to stage values, and the result buffers agree. No law that needs
   finiteness is used, so the precondition is never opened. The ideal pass rewrote nothing: preserves is trivial. -/
import proofs.«425859_j79671643341337_2_alg».proof.Defs
import proofs.«425859_j79671643341337_2_alg».proof.Proof.Gen.Kernel
import proofs.«425859_j79671643341337_2_alg».proof.Proof.Gen.KernelIdeal
import proofs.«425859_j79671643341337_2_alg».proof.Proof.Gen.ReferenceIdeal
import proofs.«425859_j79671643341337_2_alg».proof.Proof.Gen.Pre_finite_inputs
import proofs.«425859_j79671643341337_2_alg».proof.Proof.K.Segs
import proofs.«425859_j79671643341337_2_alg».proof.Proof.KI.Segs
import proofs.«425859_j79671643341337_2_alg».proof.Proof.KI.Bridge
import proofs.«425859_j79671643341337_2_alg».proof.Proof.RefRun
import proofs.«425859_j79671643341337_2_alg».proof.Proof.RefRead
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs run; the kernel program's result buffer ends at the pooling kernel's written-back block, which
    is the reference's result term of arguments that agree. -/
theorem algebraic : Cert.algebraic_KernelIdeal_ReferenceIdeal := by
  intro m ρ m' ρ' _ hagree
  refine ⟨fun c => Cert.KernelIdeal.Fr.o12 m c, Cert.KernelIdeal.Fr.run_main m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v82_eq m' c, h0, h1, h2, h3, h4, h5, h6, h7, h8, h9, h10, h11, h12, h13]
  exact (Cert.KernelIdeal.Val.E3 m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
